-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S5794x2897 : Shape := ⟨2, ![5794, 2897]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S5794x2897 : S_.BroadcastsInDim S5794x2897 (![] : Fin 0 → Fin S5794x2897.rank)
  reducesTo_S5794x2897_S_d0_1 : S5794x2897.ReducesTo [0, 1] S_

variable [Facts]

def fn {F : FTy → Type} [FloatOps F] (main_arg0 : FVec F S4096x2048 .f32) (main_arg1 : FVec F S5794x2897 .f32) (main_arg2 : FVec F S5794x2897 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S5794x2897 .f32 := Host.absf main_arg1
  let main_cst_0 : FVec F S_ .f32 := constant S_ .f32 0x7F800000#32
  let main_v5 : FVec F S5794x2897 .f32 := broadcastInDim S5794x2897 ![] bcast_S_S5794x2897 main_cst_0
  let main_v6 : IVec S5794x2897 1 := cmpf .olt main_v4 main_v5
  let main_c_1 : IVec S_ 1 := constantI S_ 1 1#1
  let main_v7 : IVec S_ 1 := (fun x v => Host.reduce IntOp.andi x v reducesTo_S5794x2897_S_d0_1 h_S_) main_v6 main_c_1
  let main_v8 : IVec S_ 1 := andi main_v3 main_v7
  let main_v9 : FVec F S5794x2897 .f32 := Host.absf main_arg2
  let main_cst_2 : FVec F S_ .f32 := constant S_ .f32 0x7F800000#32
  let main_v10 : FVec F S5794x2897 .f32 := broadcastInDim S5794x2897 ![] bcast_S_S5794x2897 main_cst_2
  let main_v11 : IVec S5794x2897 1 := cmpf .olt main_v9 main_v10
  let main_c_3 : IVec S_ 1 := constantI S_ 1 1#1
  let main_v12 : IVec S_ 1 := (fun x v => Host.reduce IntOp.andi x v reducesTo_S5794x2897_S_d0_1 h_S_) main_v11 main_c_3
  let main_v13 : IVec S_ 1 := andi main_v8 main_v12
  main_v13
-- ==== Kernel.lean ====
abbrev S4096x2048 : Shape := ⟨2, ![4096, 2048]⟩
abbrev S5794x2897 : Shape := ⟨2, ![5794, 2897]⟩
abbrev S_ : Shape := ⟨0, ![]⟩
abbrev S5794 : Shape := ⟨1, ![5794]⟩
abbrev S6144x2897 : Shape := ⟨2, ![6144, 2897]⟩
abbrev S6144x3072 : Shape := ⟨2, ![6144, 3072]⟩
abbrev S1x5794 : Shape := ⟨2, ![1, 5794]⟩
abbrev S1x6144 : Shape := ⟨2, ![1, 6144]⟩
abbrev S6144x6144 : Shape := ⟨2, ![6144, 6144]⟩
abbrev S1024x512 : Shape := ⟨2, ![1024, 512]⟩
abbrev S1x1024 : Shape := ⟨2, ![1, 1024]⟩
abbrev S1024x1024 : Shape := ⟨2, ![1024, 1024]⟩
abbrev S512x1024 : Shape := ⟨2, ![512, 1024]⟩
abbrev S5794x5794 : Shape := ⟨2, ![5794, 5794]⟩
abbrev S33570436 : Shape := ⟨1, ![33570436]⟩
abbrev S16777216 : Shape := ⟨1, ![16777216]⟩
abbrev S8192x2048 : Shape := ⟨2, ![8192, 2048]⟩
abbrev S8192 : Shape := ⟨1, ![8192]⟩
abbrev S2048x8192 : Shape := ⟨2, ![2048, 8192]⟩
abbrev S2048 : Shape := ⟨1, ![2048]⟩
abbrev S1x8192 : Shape := ⟨2, ![1, 8192]⟩
abbrev S4096x8192 : Shape := ⟨2, ![4096, 8192]⟩
abbrev S1x2048 : Shape := ⟨2, ![1, 2048]⟩

abbrev nBuf : Space → Nat
  | .hbm => 34
  | .vmem => 27
  | .smem => 0
  | _ => 0

abbrev bufTy : (tb : Table) → Fin (tcTables nBuf tb) → BufTy
  | .hbm, ⟨0, _⟩ => ⟨S4096x2048, .f32⟩
  | .hbm, ⟨1, _⟩ => ⟨S5794x2897, .f32⟩
  | .hbm, ⟨2, _⟩ => ⟨S5794x2897, .f32⟩
  | .hbm, ⟨3, _⟩ => ⟨S_, .f32⟩
  | .hbm, ⟨4, _⟩ => ⟨S5794, .f32⟩
  | .hbm, ⟨5, _⟩ => ⟨S_, .i32⟩
  | .hbm, ⟨6, _⟩ => ⟨S_, .f32⟩
  | .hbm, ⟨7, _⟩ => ⟨S6144x2897, .f32⟩
  | .hbm, ⟨8, _⟩ => ⟨S_, .i32⟩
  | .hbm, ⟨9, _⟩ => ⟨S_, .f32⟩
  | .hbm, ⟨10, _⟩ => ⟨S6144x3072, .f32⟩
  | .hbm, ⟨11, _⟩ => ⟨S_, .i32⟩
  | .hbm, ⟨12, _⟩ => ⟨S_, .f32⟩
  | .hbm, ⟨13, _⟩ => ⟨S6144x2897, .f32⟩
  | .hbm, ⟨14, _⟩ => ⟨S_, .i32⟩
  | .hbm, ⟨15, _⟩ => ⟨S_, .f32⟩
  | .hbm, ⟨16, _⟩ => ⟨S6144x3072, .f32⟩
  | .hbm, ⟨17, _⟩ => ⟨S1x5794, .f32⟩
  | .hbm, ⟨18, _⟩ => ⟨S_, .i32⟩
  | .hbm, ⟨19, _⟩ => ⟨S_, .f32⟩
  | .hbm, ⟨20, _⟩ => ⟨S1x6144, .f32⟩
  | .hbm, ⟨21, _⟩ => ⟨S6144x6144, .f32⟩
  | .hbm, ⟨22, _⟩ => ⟨S5794x5794, .f32⟩
  | .hbm, ⟨23, _⟩ => ⟨S33570436, .f32⟩
  | .hbm, ⟨24, _⟩ => ⟨S16777216, .f32⟩
  | .hbm, ⟨25, _⟩ => ⟨S8192x2048, .f32⟩
  | .hbm, ⟨26, _⟩ => ⟨S8192, .f32⟩
  | .hbm, ⟨27, _⟩ => ⟨S16777216, .f32⟩
  | .hbm, ⟨28, _⟩ => ⟨S2048x8192, .f32⟩
  | .hbm, ⟨29, _⟩ => ⟨S2048, .f32⟩
  | .hbm, ⟨30, _⟩ => ⟨S1x8192, .f32⟩
  | .hbm, ⟨31, _⟩ => ⟨S4096x8192, .bf16⟩
  | .hbm, ⟨32, _⟩ => ⟨S1x2048, .f32⟩
  | .hbm, ⟨33, _⟩ => ⟨S4096x2048, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1x1024, .f32⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .f32⟩
  | .local _ .vmem, ⟨18, _⟩ => ⟨S1024x512, .bf16⟩
  | .local _ .vmem, ⟨19, _⟩ => ⟨S1024x512, .bf16⟩
  | .local _ .vmem, ⟨20, _⟩ => ⟨S1024x512, .f32⟩
  | .local _ .vmem, ⟨21, _⟩ => ⟨S1024x512, .f32⟩
  | .local _ .vmem, ⟨22, _⟩ => ⟨S1x1024, .f32⟩
  | .local _ .vmem, ⟨23, _⟩ => ⟨S1x1024, .f32⟩
  | .local _ .vmem, ⟨24, _⟩ => ⟨S1024x1024, .f32⟩
  | .local _ .vmem, ⟨25, _⟩ => ⟨S1024x1024, .f32⟩
  | .local _ .vmem, ⟨26, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_c_1 : Ref sig .tc := ⟨.hbm, 11, rfl⟩
abbrev main_call2_v0 : Ref sig .tc := ⟨.hbm, 12, rfl⟩
abbrev main_v3 : Ref sig .tc := ⟨.hbm, 13, rfl⟩
abbrev main_c_2 : Ref sig .tc := ⟨.hbm, 14, rfl⟩
abbrev main_call3_v0 : Ref sig .tc := ⟨.hbm, 15, rfl⟩
abbrev main_v4 : Ref sig .tc := ⟨.hbm, 16, rfl⟩
abbrev main_v5 : Ref sig .tc := ⟨.hbm, 17, rfl⟩
abbrev main_c_3 : Ref sig .tc := ⟨.hbm, 18, rfl⟩
abbrev main_call4_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨3, ![6, 6, 6], ![false, false, false]⟩

def k0_cond2 (i : grid0.Coords) : BitVec 1 :=
  let arg2 : BitVec 32 := BitVec.ofNat 32 (i 2).val
  let c5_i32 : BitVec 32 := 5#32
  let v16 : BitVec 1 := Scalar.cmpi .eq arg2 c5_i32
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 8, 4], ![false, false, false]⟩

def k1_cond2 (i : grid1.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_8 : BitVec 32 := 0#32
  let v17 : BitVec 1 := Scalar.cmpi .ne v16 c0_i32_8
  v17

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 2, 16], ![false, false, false]⟩

def k2_cond2 (i : grid2.Coords) : BitVec 1 :=
  let arg2 : BitVec 32 := BitVec.ofNat 32 (i 2).val
  let c15_i32 : BitVec 32 := 15#32
  let v15 : BitVec 1 := Scalar.cmpi .eq arg2 c15_i32
  let v16 : BitVec 32 := Scalar.extui v15
  let c0_i32_8 : BitVec 32 := 0#32
  let v17 : BitVec 1 := Scalar.cmpi .ne v16 c0_i32_8
  v17

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  bcast_S_S5794 : S_.BroadcastsInDim S5794 (![] : Fin 0 → Fin S5794.rank)
  pads_S5794x2897_S6144x2897_03500_000 : S5794x2897.Pads (![0, 0] : Fin 2 → Nat) ![350, 0] ![0, 0] S6144x2897
  h_S_ : 0 < S_.numel
  pads_S6144x2897_S6144x3072_000_01750 : S6144x2897.Pads (![0, 0] : Fin 2 → Nat) ![0, 175] ![0, 0] S6144x3072
  shapeCasts_S5794_S1x5794 : S5794.ShapeCasts S1x5794
  pads_S1x5794_S1x6144_000_03500 : S1x5794.Pads (![0, 0] : Fin 2 → Nat) ![0, 350] ![0, 0] S1x6144
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  transposes_S1024x512_p1_0_S512x1024 : S1024x512.Transposes [1, 0] S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S6144x6144_S5794x5794_0_0 : S6144x6144.Slices ![0, 0] S5794x5794
  shapeCasts_S5794x5794_S33570436 : S5794x5794.ShapeCasts S33570436
  slices_S33570436_S16777216_0 : S33570436.Slices ![0] S16777216
  shapeCasts_S16777216_S8192x2048 : S16777216.ShapeCasts S8192x2048
  slices_S33570436_S8192_16777216 : S33570436.Slices ![16777216] S8192
  slices_S33570436_S16777216_16785408 : S33570436.Slices ![16785408] S16777216
  shapeCasts_S16777216_S2048x8192 : S16777216.ShapeCasts S2048x8192
  slices_S33570436_S2048_33562624 : S33570436.Slices ![33562624] S2048
  shapeCasts_S8192_S1x8192 : S8192.ShapeCasts S1x8192
  packedbf16_S1024x1024_S1024x1024_0_0 : (Rect.unit (s := S1024x1024) ![0, 0] S1024x1024.size inb_S1024x1024_S1024x1024_0_0).PackedRows (EltTy.packing .bf16)
  shapeCasts_S2048_S1x2048 : S2048.ShapeCasts S1x2048
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S6144x3072.size a
  hwx0_0 : ∀ i : grid0.Coords, EltTy.bits .f32 = 32 ∨ (Rect.block (s := S6144x3072) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S6144x3072.size a
  hwx0_1 : ∀ i : grid0.Coords, EltTy.bits .f32 = 32 ∨ (Rect.block (s := S6144x3072) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x6144.size a
  hwx0_2 : ∀ i : grid0.Coords, EltTy.bits .f32 = 32 ∨ (Rect.block (s := S1x6144) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S6144x6144.size a
  hwx0_3 : ∀ i : grid0.Coords, EltTy.bits .f32 = 32 ∨ (Rect.block (s := S6144x6144) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x2048.size a
  hwx1_0 : ∀ i : grid1.Coords, EltTy.bits .f32 = 32 ∨ (Rect.block (s := S4096x2048) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S8192x2048.size a
  hwx1_1 : ∀ i : grid1.Coords, EltTy.bits .f32 = 32 ∨ (Rect.block (s := S8192x2048) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .f32 = 32 ∨ (Rect.block (s := S1x8192) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x8192.size a
  hwx1_3 : ∀ i : grid1.Coords, EltTy.bits .bf16 = 32 ∨ (Rect.block (s := S4096x8192) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S4096x8192.size a
  hwx2_0 : ∀ i : grid2.Coords, EltTy.bits .bf16 = 32 ∨ (Rect.block (s := S4096x8192) S1024x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S2048x8192.size a
  hwx2_1 : ∀ i : grid2.Coords, EltTy.bits .f32 = 32 ∨ (Rect.block (s := S2048x8192) S1024x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x2048.size a
  hwx2_2 : ∀ i : grid2.Coords, EltTy.bits .f32 = 32 ∨ (Rect.block (s := S1x2048) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x2048.size a
  hwx2_3 : ∀ i : grid2.Coords, EltTy.bits .f32 = 32 ∨ (Rect.block (s := S4096x2048) S1024x1024.size (cc2_transform_3 i) (hinb2_3 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v2) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v17) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S4096x2048 : Shape := ⟨2, ![4096, 2048]⟩
abbrev S5794x2897 : Shape := ⟨2, ![5794, 2897]⟩
abbrev S2897x5794 : Shape := ⟨2, ![2897, 5794]⟩
abbrev S5794x5794 : Shape := ⟨2, ![5794, 5794]⟩
abbrev S33570436 : Shape := ⟨1, ![33570436]⟩
abbrev S16777216 : Shape := ⟨1, ![16777216]⟩
abbrev S8192x2048 : Shape := ⟨2, ![8192, 2048]⟩
abbrev S8192 : Shape := ⟨1, ![8192]⟩
abbrev S2048x8192 : Shape := ⟨2, ![2048, 8192]⟩
abbrev S2048 : Shape := ⟨1, ![2048]⟩
abbrev S4096x8192 : Shape := ⟨2, ![4096, 8192]⟩
abbrev S1x8192 : Shape := ⟨2, ![1, 8192]⟩
abbrev S_ : Shape := ⟨0, ![]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S5794x2897, .f32⟩
  | .hbm, ⟨2, _⟩ => ⟨S5794x2897, .f32⟩
  | .hbm, ⟨3, _⟩ => ⟨S2897x5794, .f32⟩
  | .hbm, ⟨4, _⟩ => ⟨S5794x5794, .f32⟩
  | .hbm, ⟨5, _⟩ => ⟨S33570436, .f32⟩
  | .hbm, ⟨6, _⟩ => ⟨S16777216, .f32⟩
  | .hbm, ⟨7, _⟩ => ⟨S8192x2048, .f32⟩
  | .hbm, ⟨8, _⟩ => ⟨S8192, .f32⟩
  | .hbm, ⟨9, _⟩ => ⟨S16777216, .f32⟩
  | .hbm, ⟨10, _⟩ => ⟨S2048x8192, .f32⟩
  | .hbm, ⟨11, _⟩ => ⟨S2048, .f32⟩
  | .hbm, ⟨12, _⟩ => ⟨S2048x8192, .f32⟩
  | .hbm, ⟨13, _⟩ => ⟨S4096x8192, .f32⟩
  | .hbm, ⟨14, _⟩ => ⟨S1x8192, .f32⟩
  | .hbm, ⟨15, _⟩ => ⟨S4096x8192, .f32⟩
  | .hbm, ⟨16, _⟩ => ⟨S4096x8192, .f32⟩
  | .hbm, ⟨17, _⟩ => ⟨S_, .f32⟩
  | .hbm, ⟨18, _⟩ => ⟨S4096x8192, .f32⟩
  | .hbm, ⟨19, _⟩ => ⟨S4096x8192, .f32⟩
  | .hbm, ⟨20, _⟩ => ⟨S8192x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_call0_cst : Ref sig .tc := ⟨.hbm, 17, rfl⟩
abbrev main_call0_v0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]

class Facts₀ : Prop where
  transposes_S5794x2897_S2897x5794_1_0 : S5794x2897.Transposes [1, 0] S2897x5794
  shapeCasts_S5794x5794_S33570436 : S5794x5794.ShapeCasts S33570436
  slices_S33570436_S16777216_0 : S33570436.Slices ![0] S16777216
  shapeCasts_S16777216_S8192x2048 : S16777216.ShapeCasts S8192x2048
  slices_S33570436_S8192_16777216 : S33570436.Slices ![16777216] S8192
  slices_S33570436_S16777216_16785408 : S33570436.Slices ![16785408] S16777216
  shapeCasts_S16777216_S2048x8192 : S16777216.ShapeCasts S2048x8192
  slices_S33570436_S2048_33562624 : S33570436.Slices ![33562624] S2048
  transposes_S8192x2048_S2048x8192_1_0 : S8192x2048.Transposes [1, 0] S2048x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  bcast_S_S4096x8192 : S_.BroadcastsInDim S4096x8192 (![] : Fin 0 → Fin S4096x8192.rank)
  transposes_S2048x8192_S8192x2048_1_0 : S2048x8192.Transposes [1, 0] S8192x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  dot_S5794x2897_S2897x5794_S5794x5794_1_0_0_1_n_n_wf : DotDims.WF S5794x2897 S2897x5794 S5794x5794 [1] [0] [0] [1] [] []
  dot_S4096x2048_S2048x8192_S4096x8192_1_0_0_1_n_n_wf : DotDims.WF S4096x2048 S2048x8192 S4096x8192 [1] [0] [0] [1] [] []
  dot_S4096x8192_S8192x2048_S4096x2048_1_0_0_1_n_n_wf : DotDims.WF S4096x8192 S8192x2048 S4096x2048 [1] [0] [0] [1] [] []

variable [Facts₀]

def dot_S5794x2897_S2897x5794_S5794x5794_1_0_0_1_n_n : DotDims S5794x2897 S2897x5794 S5794x5794 where
  lhsContracting := [1]
  rhsContracting := [0]
  lhsNonContracting := [0]
  rhsNonContracting := [1]
  lhsBatch := []
  rhsBatch := []
  wf := dot_S5794x2897_S2897x5794_S5794x5794_1_0_0_1_n_n_wf
def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf
def dot_S4096x8192_S8192x2048_S4096x2048_1_0_0_1_n_n : DotDims S4096x8192 S8192x2048 S4096x2048 where
  lhsContracting := [1]
  rhsContracting := [0]
  lhsNonContracting := [0]
  rhsNonContracting := [1]
  lhsBatch := []
  rhsBatch := []
  wf := dot_S4096x8192_S8192x2048_S4096x2048_1_0_0_1_n_n_wf

class Facts : Prop extends Facts₀ where

variable [Facts]
-- ==== Proof.K.Common.lean ====
/-
  What the three kernels share: the accumulator's shape is one 1024 × 1024 tile, every load and store of it and of the
  output tile goes through the one rectangle that is the whole tile at offset zero, so a single stored piece covers it.
-/
import proofs.«140522_j83038897701629_1_alg».proof.Proof.Gen.Kernel.Launch
import proofs.«140522_j83038897701629_1_alg».proof.Proof.Gen.Kernel.Skeleton
import proofs.«140522_j83038897701629_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of every access in these kernels: zero on both axes. -/
theorem hz : (![0, 0] : Fin 2 → Nat) = fun _ => 0 := funext fun a => by fin_cases a <;> rfl

/-- The whole 1024 × 1024 tile as a rectangle. -/
abbrev rAcc : Rect S1024x1024 := Rect.unit (s := S1024x1024) ![0, 0] S1024x1024.size inb_S1024x1024_S1024x1024_0_0

/-- One piece stored through the whole-tile rectangle covers the tile. -/
theorem cover1 {e : EltTy} (p0 : Vec F S1024x1024 e) (y : S1024x1024.Idx) :
    ∃ pc ∈ ([⟨rAcc, p0⟩] : List (View.Piece (Elt F) S1024x1024 e)), y ∈ pc.1.set :=
  View.cover_of_tiled [⟨rAcc, p0⟩] S1024x1024.size (by rfl) y

/-- Two pieces stored through the whole-tile rectangle cover it (the later one already does). -/
theorem cover2 {e : EltTy} (p0 p1 : Vec F S1024x1024 e) (y : S1024x1024.Idx) :
    ∃ pc ∈ ([⟨rAcc, p0⟩, ⟨rAcc, p1⟩] : List (View.Piece (Elt F) S1024x1024 e)), y ∈ pc.1.set := by
  obtain ⟨pc, hpc, hy⟩ := cover1 (F := F) p0 y
  rcases List.mem_singleton.mp hpc with rfl
  exact ⟨_, List.mem_cons_self, hy⟩

end Cert.Kernel.Hand

end
-- ==== Proof.K.Body0.lean ====
/-
  The kernel's body at one grid point, in its three situations. The grid's last axis walks the depth blocks of
  one output tile. At the FIRST depth block the accumulator is zeroed and the block's partial product added; at a
  MIDDLE one the partial product is added to what the accumulator holds; at the LAST one, after that addition, the
  accumulator plus the bias row is written to the output tile. In every situation the two input blocks are only
  read, and the accumulator ends at `k0_pay2 a b s`: the partial product of the blocks `a`, `b` added to the
  accumulator's contents `s` on entry (the zero tile `k0_pay1` at the first block).
-/
import proofs.«140522_j83038897701629_1_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is at the first depth block (the kernel's test "last grid coordinate = 0"). -/
abbrev condFirst0 (i : grid0.Coords) : Prop := (Scalar.cmpi .ne (Scalar.extui (Scalar.cmpi .eq (BitVec.ofNat 32 (i 2).val) 0#32)) 0#32) = 1#1
/-- The point is at the last depth block. -/
abbrev condLast0 (i : grid0.Coords) : Prop := k0_cond2 i = 1#1

set_option maxHeartbeats 1000000 in
/-- A middle depth block: the accumulator, holding `s`, ends holding `s` plus the blocks' partial product. -/
theorem run0_mid (c : Dev nD) (i : grid0.Coords) (hc1 : ¬condFirst0 i) (hc2 : ¬condLast0 i)
    (arg3 : Memref sig .tc .vmem S1024x512 .f32) (harg3 : arg3.IsWhole) (arg4 : Memref sig .tc .vmem S1024x512 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x0 : Vec F S1024x512 .f32) (x1 : Vec F S1024x512 .f32) (s : Vec F S1024x1024 .f32) (E : Set ℕ) (K : PUnit → sProp 𝕄) :
    iprop(owns (c : Thread nD τ) arg3 fullShare x0 ∗ owns (c : Thread nD τ) arg4 fullShare x1 ∗ owns (c : Thread nD τ) arg7 fullShare s
        ∗ (iprop(owns (c : Thread nD τ) arg3 fullShare x0 ∗ owns (c : Thread nD τ) arg4 fullShare x1
            ∗ owns (c : Thread nD τ) arg7 fullShare (k0_pay2 x0 x1 s)) -∗ K ⟨⟩))
      ⊢ wp frame (wpE (defs₀ (F := F)) Variants.none c none) E (cc0__matmul_bt_kernel i arg3 harg3 arg4 harg4 arg5 harg5 arg6 harg6 arg7 harg7) K := by
  simp only [cc0__matmul_bt_kernel_eq_skeleton]; unfold cc0__matmul_bt_kernel_skel
  unfold owns
  iintro ⟨⟨%f0, %hf0, H0⟩, ⟨%f1, %hf1, H1⟩, ⟨%fs, %hfs, HS⟩, Hk⟩
  obtain rfl := harg3.eq_unread hf0; obtain rfl := harg4.eq_unread hf1; obtain rfl := harg7.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  rw [View.read_writes_eq_canon _ _ _ (cover1 _), View.canon_unit_zero hz]
  simp only [View.readAt_eq_ld, harg3.read_unread, harg4.read_unread, harg7.read_unread, View.ld_unit_zero (S := S1024x512) hz, View.ld_unit_zero (S := S1024x1024) hz]

set_option maxHeartbeats 1000000 in
/-- The first depth block: whatever the accumulator held, it ends holding the zero tile plus the partial product. -/
theorem run0_first (c : Dev nD) (i : grid0.Coords) (hc1 : condFirst0 i) (hc2 : ¬condLast0 i)
    (arg3 : Memref sig .tc .vmem S1024x512 .f32) (harg3 : arg3.IsWhole) (arg4 : Memref sig .tc .vmem S1024x512 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x0 : Vec F S1024x512 .f32) (x1 : Vec F S1024x512 .f32) (E : Set ℕ) (K : PUnit → sProp 𝕄) :
    iprop(owns (c : Thread nD τ) arg3 fullShare x0 ∗ owns (c : Thread nD τ) arg4 fullShare x1 ∗ (∃ s, owns (c : Thread nD τ) arg7 fullShare s)
        ∗ (iprop(owns (c : Thread nD τ) arg3 fullShare x0 ∗ owns (c : Thread nD τ) arg4 fullShare x1
            ∗ owns (c : Thread nD τ) arg7 fullShare (k0_pay2 x0 x1 k0_pay1)) -∗ K ⟨⟩))
      ⊢ wp frame (wpE (defs₀ (F := F)) Variants.none c none) E (cc0__matmul_bt_kernel i arg3 harg3 arg4 harg4 arg5 harg5 arg6 harg6 arg7 harg7) K := by
  simp only [cc0__matmul_bt_kernel_eq_skeleton]; unfold cc0__matmul_bt_kernel_skel
  unfold owns
  iintro ⟨⟨%f0, %hf0, H0⟩, ⟨%f1, %hf1, H1⟩, ⟨%s, %fs, %hfs, HS⟩, Hk⟩
  obtain rfl := harg3.eq_unread hf0; obtain rfl := harg4.eq_unread hf1; obtain rfl := harg7.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  sl_unfold_words
  rw [View.read_writes_eq_canon _ _ _ (cover2 _ _), View.canon_cons_unit_zero (S := S1024x1024) hz, View.readCov_unit_zero (S := S1024x1024) _ hz]
  simp only [View.readAt_eq_ld, harg3.read_unread, harg4.read_unread, harg7.read_unread, View.ld_unit_zero (S := S1024x512) hz, View.ld_unit_zero (S := S1024x1024) hz]

set_option maxHeartbeats 1000000 in
/-- The last depth block: the accumulator ends as at a middle block, and the output tile, whatever it held, ends
    holding that accumulator plus the bias row (`k0_pay3`). -/
theorem run0_last (c : Dev nD) (i : grid0.Coords) (hc1 : ¬condFirst0 i) (hc2 : condLast0 i)
    (arg3 : Memref sig .tc .vmem S1024x512 .f32) (harg3 : arg3.IsWhole) (arg4 : Memref sig .tc .vmem S1024x512 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x0 : Vec F S1024x512 .f32) (x1 : Vec F S1024x512 .f32) (x2 : Vec F S1x1024 .f32) (s : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare s
        ∗ (iprop(owns (c : Thread nD τ) arg3 fullShare x0 ∗ owns (c : Thread nD τ) arg4 fullShare x1 ∗ owns (c : Thread nD τ) arg5 fullShare x2
            ∗ owns (c : Thread nD τ) arg6 fullShare (k0_pay3 (k0_pay2 x0 x1 s) x2)
            ∗ owns (c : Thread nD τ) arg7 fullShare (k0_pay2 x0 x1 s)) -∗ K ⟨⟩))
      ⊢ wp frame (wpE (defs₀ (F := F)) Variants.none c none) E (cc0__matmul_bt_kernel i arg3 harg3 arg4 harg4 arg5 harg5 arg6 harg6 arg7 harg7) K := by
  simp only [cc0__matmul_bt_kernel_eq_skeleton]; unfold cc0__matmul_bt_kernel_skel
  unfold owns
  iintro ⟨⟨%f0, %hf0, H0⟩, ⟨%f1, %hf1, H1⟩, ⟨%f2, %hf2, H2⟩, ⟨%d, %fd, %hfd, HD⟩, ⟨%fs, %hfs, HS⟩, Hk⟩
  obtain rfl := harg3.eq_unread hf0; obtain rfl := harg4.eq_unread hf1; obtain rfl := harg5.eq_unread hf2
  obtain rfl := harg6.eq_unread hfd; obtain rfl := harg7.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HD]
  · iexists _; isplitr
    swap; · iexact HD
    ipureintro
    sl_unfold_words
    rw [View.read_writes_eq_canon _ _ _ (cover1 _), View.canon_unit_zero hz]
    simp only [View.readCov_unit_zero (S := S1024x1024) _ hz, View.readAt_eq_ld, harg3.read_unread, harg4.read_unread, harg5.read_unread, harg7.read_unread, View.ld_unit_zero (S := S1024x512) hz, View.ld_unit_zero (S := S1024x1024) hz, View.ld_unit_zero (S := S1x1024) hz]
  iexists _; isplitr
  swap; · iexact HS
  ipureintro
  sl_unfold_words
  rw [View.read_writes_eq_canon _ _ _ (cover1 _), View.canon_unit_zero hz]
  simp only [View.readAt_eq_ld, harg3.read_unread, harg4.read_unread, harg7.read_unread, View.ld_unit_zero (S := S1024x512) hz, View.ld_unit_zero (S := S1024x1024) hz]

end Cert.Kernel.Hand

end
-- ==== Proof.K.Dat0.lean ====
/-
  The kernel's run over its whole grid. The grid is (row tile, column tile, depth block), walked with the depth
  block fastest, so the points t with t % 6 = 0 start an output tile and those with t % 6 = 5 finish it. Between two
  points the accumulator (a scratch tile the kernel keeps to itself) carries the running sum `acc0`: after point t it is
  the partial product of point t's two input blocks added to the zero tile (at a first depth block) or to what the point
  before left. Only at a last depth block is the output tile stored: the accumulator plus the bias row (`out0`). The
  proof data name these contents; the body obligation is the three runs of Body0 glued by the point's situation.
-/
import proofs.«140522_j83038897701629_1_alg».proof.Proof.K.Body0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows read -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's block, the right operand's block and the bias block at point `t`, at their literal types. -/
abbrev ablk0 (c : Dev nD) (t : Fin cfg0.N) : Vec F S1024x512 .f32 := iblk0 V c 0 t
abbrev bblk0 (c : Dev nD) (t : Fin cfg0.N) : Vec F S1024x512 .f32 := iblk0 V c 1 t
abbrev biasblk0 (c : Dev nD) (t : Fin cfg0.N) : Vec F S1x1024 .f32 := iblk0 V c 2 t

/-! ## The running sum -/

/-- What the accumulator holds after point `n`. -/
def acc0 (c : Dev nD) : (n : ℕ) → n < cfg0.N → Vec F S1024x1024 .f32
  | 0, hn => k0_pay2 (ablk0 V c ⟨0, hn⟩) (bblk0 V c ⟨0, hn⟩) k0_pay1
  | n + 1, hn => k0_pay2 (ablk0 V c ⟨n + 1, hn⟩) (bblk0 V c ⟨n + 1, hn⟩)
      (if (n + 1) % 6 = 0 then k0_pay1 else acc0 c n (Nat.lt_of_succ_lt hn))

/-- At a first depth block the sum restarts from the zero tile. -/
theorem acc0_first (c : Dev nD) (t : Fin cfg0.N) (h : t.val % 6 = 0) :
    acc0 V c t.val t.isLt = k0_pay2 (ablk0 V c t) (bblk0 V c t) k0_pay1 := by
  obtain ⟨n, hn⟩ := t
  cases n with
  | zero => rfl
  | succ n =>
    show k0_pay2 _ _ (if (n + 1) % 6 = 0 then _ else _) = _
    rw [if_pos h]

/-- At any other depth block it adds to what the point before left. -/
theorem acc0_next (c : Dev nD) (t : Fin cfg0.N) (h : ¬t.val % 6 = 0) :
    acc0 V c t.val t.isLt = k0_pay2 (ablk0 V c t) (bblk0 V c t) (acc0 V c (t.val - 1) (Nat.lt_of_le_of_lt (Nat.sub_le _ _) t.isLt)) := by
  obtain ⟨n, hn⟩ := t
  cases n with
  | zero => exact absurd (Nat.zero_mod _) h
  | succ n =>
    show k0_pay2 _ _ (if (n + 1) % 6 = 0 then _ else _) = _
    rw [if_neg h]
    rfl

/-- What the output tile's staging buffer holds after a last depth block: the accumulator plus the bias row. -/
def out0 (c : Dev nD) (t : Fin cfg0.N) : Vec F S1024x1024 .f32 := k0_pay3 (acc0 V c t.val t.isLt) (biasblk0 V c t)

/-! ## The invariant: the accumulator between points -/

/-- The accumulator: a whole scratch buffer of the kernel's own. -/
abbrev scM0 : Memref sig .tc .vmem S1024x1024 .f32 := Memref.whole cc0_scratch0

/-- The core's other scoped buffers (the other kernels' staging buffers and accumulators), at any contents. -/
abbrev rest0 (c : Dev nD) : sProp 𝕄 :=
  Pipeline.scopedRestBut (Ix := Unit) (Name := ℕ) (U := UR sig nD τ) (Lvl := ℕ) (Val := Elt F) spec0 c [cc0_scratch0]

/-- What the region hands the kernel, with the accumulator split off. -/
theorem PhiA0_eq (c : Dev nD) :
    (Pipeline.ΦA spec0 c : sProp 𝕄) = iprop(((∃ d, owns (c : Thread nD τ) scM0 fullShare d) ∗ rest0 c) ∗ (∃ r, prngReg c r)) := by
  unfold Pipeline.ΦA
  rw [Pipeline.scopedRest_split_of_list spec0 c [cc0_scratch0] (by decide) (by decide)]
  simp only [Idealize.SL.BI.bigSepL_singleton, scM0, owns_whole]
  try rfl

/-- The invariant before position `n`: at the start what the region hands over; afterwards the accumulator at the
    running sum the point before left, the other scoped buffers at anything, the generator register at some state. -/
def PhiS0 (c : Dev nD) : (n : ℕ) → n ≤ cfg0.N → sProp 𝕄
  | 0, _ => Pipeline.ΦA spec0 c
  | n + 1, hn => iprop((owns (c : Thread nD τ) scM0 fullShare (acc0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (acc0 V c n hn) ∗ rest0 c) ∗ (∃ r, prngReg c r)) := rfl

theorem PhiS0_pos (c : Dev nD) (n : ℕ) (h : n ≤ cfg0.N) (hz : n ≠ 0) :
    PhiS0 V c n h = iprop((owns (c : Thread nD τ) scM0 fullShare (acc0 V c (n - 1) (by omega)) ∗ rest0 c) ∗ (∃ r, prngReg c r)) := by
  cases n with
  | zero => exact absurd rfl hz
  | succ n => rfl

/-! ## The proof data -/

/-- The proof data of this pallas_call on core `c`: the arrays as the region finds them; after the body at point
    `t` each input's buffer at its block and the output's at `out0` (consulted only where the tile is written back);
    the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 V c t := by dsimp only [dat0]

/-- Each input window's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The situations, decided over the grid -/

theorem hcondFirst0 : ∀ t : Fin cfg0.N, condFirst0 (grid0.coords t) ↔ t.val % 6 = 0 :=
  (by decide +kernel : ∀ t : Fin grid0.N, condFirst0 (grid0.coords t) ↔ t.val % 6 = 0)
theorem hcondLast0 : ∀ t : Fin cfg0.N, condLast0 (grid0.coords t) ↔ t.val % 6 = 5 :=
  (by decide +kernel : ∀ t : Fin grid0.N, condLast0 (grid0.coords t) ↔ t.val % 6 = 5)

/-- The inputs are never idle; the output tile is idle, and not written back, away from a last depth block, live at one. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬condLast0 (grid0.coords t) → cfg0.idle 3 (grid0.coords t) = true := by decide +kernel
theorem noFlush0_3 : ∀ t : Fin cfg0.N, ¬condLast0 (grid0.coords t) → (cfg0.win 3).flush t = false := by decide +kernel
theorem liveAt0_3 : ∀ t : Fin cfg0.N, condLast0 (grid0.coords t) → cfg0.idle 3 (grid0.coords t) = false := by decide +kernel

/-! ## The body obligation -/

/-- Each window's current staging memref at point t, as the pipeline passes it, and its wholeness. -/
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

set_option maxHeartbeats 4800000 in
/-- The body at any point. The inputs' buffers hold their blocks; the point's position among the depth blocks says
    which run applies; the invariant hands the body the accumulator (at anything before the first point, at the running
    sum afterwards) and takes it back at this point's running sum; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 216 := lt_of_lt_of_eq t.isLt (show cfg0.N = 216 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 6 = 0
  · have hnl : ¬condLast0 (grid0.coords t) := fun h => by have := (hcondLast0 t).mp h; omega
    rw [Dat.leavesExact_idle (dat0 V c) 3 t (idleAt0_3 t hnl) (noFlush0_3 t hnl)]
    rw [acc0_first V c t h0]
    by_cases hz : t.val = 0
    · rw [PhiS0_castSucc V c t, PhiS0_zero V c _ _ hz, PhiA0_eq]
      iintro ⟨⟨⟨HS, Hr⟩, Hg⟩, Ho, ⟨%d0, H0⟩, ⟨%d1, H1⟩, ⟨%d2, H2⟩, ⟨%d3, H3⟩⟩
      iapply (run0_first c (grid0.coords t) ((hcondFirst0 t).mpr h0) hnl (ms0_0 t) (hs0_0 t) (ms0_1 t) (hs0_1 t) (ms0_2 t) (hs0_2 t) (ms0_3 t) (hs0_3 t) scM0 (Memref.isWhole_whole _) (iblk0 V c 0 t) (iblk0 V c 1 t) Set.univ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩⟩
      iapply (run0_first c (grid0.coords t) ((hcondFirst0 t).mpr h0) hnl (ms0_0 t) (hs0_0 t) (ms0_1 t) (hs0_1 t) (ms0_2 t) (hs0_2 t) (ms0_3 t) (hs0_3 t) scM0 (Memref.isWhole_whole _) (iblk0 V c 0 t) (iblk0 V c 1 t) Set.univ _)
      isplitl [H0]; · iexact H0
      isplitl [H1]; · iexact H1
      isplitl [HS]; · iexists _; iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
  · have hnf : ¬condFirst0 (grid0.coords t) := fun h => h0 ((hcondFirst0 t).mp h)
    have hz : t.val ≠ 0 := fun e => h0 (by rw [e])
    by_cases h5 : t.val % 6 = 5
    · have hl : condLast0 (grid0.coords t) := (hcondLast0 t).mpr h5
      rw [show (dat0 V c).leavesExact 3 t = owns (c : Thread nD τ) (ms0_3 t) fullShare ((dat0 V c).after 3 t) from by
        unfold Dat.leavesExact; rw [liveAt0_3 t hl], after0_3]
      unfold out0
      rw [acc0_next V c t h0]
      rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩⟩
      iapply (run0_last c (grid0.coords t) hnf hl (ms0_0 t) (hs0_0 t) (ms0_1 t) (hs0_1 t) (ms0_2 t) (hs0_2 t) (ms0_3 t) (hs0_3 t) scM0 (Memref.isWhole_whole _) (iblk0 V c 0 t) (iblk0 V c 1 t) (iblk0 V c 2 t) (acc0 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexact H3
    · have hnl : ¬condLast0 (grid0.coords t) := fun h => h5 ((hcondLast0 t).mp h)
      rw [Dat.leavesExact_idle (dat0 V c) 3 t (idleAt0_3 t hnl) (noFlush0_3 t hnl)]
      rw [acc0_next V c t h0]
      rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩⟩
      iapply (run0_mid c (grid0.coords t) hnf hnl (ms0_0 t) (hs0_0 t) (ms0_1 t) (hs0_1 t) (ms0_2 t) (hs0_2 t) (ms0_3 t) (hs0_3 t) scM0 (Memref.isWhole_whole _) (iblk0 V c 0 t) (iblk0 V c 1 t) (acc0 V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region hands over is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives back what the region handed over: the accumulator's contents forgotten. -/
theorem hout0 (c : Dev nD) : (dat0 V c).Φ (Fin.last cfg0.N) ⊢ Pipeline.ΦA spec0 c := by
  have hN : cfg0.N = 216 := N_0
  rw [show (dat0 V c).Φ (Fin.last cfg0.N) = PhiS0 V c cfg0.N (Nat.le_refl _) from rfl,
    PhiS0_pos V c cfg0.N _ (by omega), PhiA0_eq]
  iintro ⟨⟨HS, Hr⟩, Hg⟩
  isplitl [HS Hr]
  · isplitl [HS]
    · iexists _; iexact HS
    iexact Hr
  iexact Hg

end Cert.Kernel.Hand

end
-- ==== Proof.K.Body1.lean ====
/-
  The kernel's body at one grid point, in its three situations. The grid's last axis walks the depth blocks of
  one output tile. At the FIRST depth block the accumulator is zeroed and the block's partial product added; at a
  MIDDLE one the partial product is added to what the accumulator holds; at the LAST one, after that addition, the
  accumulator plus the bias row is written to the output tile. In every situation the two input blocks are only
  read, and the accumulator ends at `k1_pay2 a b s`: the partial product of the blocks `a`, `b` added to the
  accumulator's contents `s` on entry (the zero tile `k1_pay1` at the first block).
-/
import proofs.«140522_j83038897701629_1_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is at the first depth block (the kernel's test "last grid coordinate = 0"). -/
abbrev condFirst1 (i : grid1.Coords) : Prop := (Scalar.cmpi .ne (Scalar.extui (Scalar.cmpi .eq (BitVec.ofNat 32 (i 2).val) 0#32)) 0#32) = 1#1
/-- The point is at the last depth block. -/
abbrev condLast1 (i : grid1.Coords) : Prop := k1_cond2 i = 1#1

set_option maxHeartbeats 1000000 in
/-- A middle depth block: the accumulator, holding `s`, ends holding `s` plus the blocks' partial product. -/
theorem run1_mid (c : Dev nD) (i : grid1.Coords) (hc1 : ¬condFirst1 i) (hc2 : ¬condLast1 i)
    (arg3 : Memref sig .tc .vmem S1024x512 .f32) (harg3 : arg3.IsWhole) (arg4 : Memref sig .tc .vmem S1024x512 .f32) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole)
    (x0 : Vec F S1024x512 .f32) (x1 : Vec F S1024x512 .f32) (s : Vec F S1024x1024 .f32) (E : Set ℕ) (K : PUnit → sProp 𝕄) :
    iprop(owns (c : Thread nD τ) arg3 fullShare x0 ∗ owns (c : Thread nD τ) arg4 fullShare x1 ∗ owns (c : Thread nD τ) arg7 fullShare s
        ∗ (iprop(owns (c : Thread nD τ) arg3 fullShare x0 ∗ owns (c : Thread nD τ) arg4 fullShare x1
            ∗ owns (c : Thread nD τ) arg7 fullShare (k1_pay2 x0 x1 s)) -∗ K ⟨⟩))
      ⊢ wp frame (wpE (defs₀ (F := F)) Variants.none c none) E (cc1__matmul_bt_kernel i arg3 harg3 arg4 harg4 arg5 harg5 arg6 harg6 arg7 harg7) K := by
  simp only [cc1__matmul_bt_kernel_eq_skeleton]; unfold cc1__matmul_bt_kernel_skel
  unfold owns
  iintro ⟨⟨%f0, %hf0, H0⟩, ⟨%f1, %hf1, H1⟩, ⟨%fs, %hfs, HS⟩, Hk⟩
  obtain rfl := harg3.eq_unread hf0; obtain rfl := harg4.eq_unread hf1; obtain rfl := harg7.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  rw [View.read_writes_eq_canon _ _ _ (cover1 _), View.canon_unit_zero hz]
  simp only [View.readAt_eq_ld, harg3.read_unread, harg4.read_unread, harg7.read_unread, View.ld_unit_zero (S := S1024x512) hz, View.ld_unit_zero (S := S1024x1024) hz]

set_option maxHeartbeats 1000000 in
/-- The first depth block: whatever the accumulator held, it ends holding the zero tile plus the partial product. -/
theorem run1_first (c : Dev nD) (i : grid1.Coords) (hc1 : condFirst1 i) (hc2 : ¬condLast1 i)
    (arg3 : Memref sig .tc .vmem S1024x512 .f32) (harg3 : arg3.IsWhole) (arg4 : Memref sig .tc .vmem S1024x512 .f32) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole)
    (x0 : Vec F S1024x512 .f32) (x1 : Vec F S1024x512 .f32) (E : Set ℕ) (K : PUnit → sProp 𝕄) :
    iprop(owns (c : Thread nD τ) arg3 fullShare x0 ∗ owns (c : Thread nD τ) arg4 fullShare x1 ∗ (∃ s, owns (c : Thread nD τ) arg7 fullShare s)
        ∗ (iprop(owns (c : Thread nD τ) arg3 fullShare x0 ∗ owns (c : Thread nD τ) arg4 fullShare x1
            ∗ owns (c : Thread nD τ) arg7 fullShare (k1_pay2 x0 x1 k1_pay1)) -∗ K ⟨⟩))
      ⊢ wp frame (wpE (defs₀ (F := F)) Variants.none c none) E (cc1__matmul_bt_kernel i arg3 harg3 arg4 harg4 arg5 harg5 arg6 harg6 arg7 harg7) K := by
  simp only [cc1__matmul_bt_kernel_eq_skeleton]; unfold cc1__matmul_bt_kernel_skel
  unfold owns
  iintro ⟨⟨%f0, %hf0, H0⟩, ⟨%f1, %hf1, H1⟩, ⟨%s, %fs, %hfs, HS⟩, Hk⟩
  obtain rfl := harg3.eq_unread hf0; obtain rfl := harg4.eq_unread hf1; obtain rfl := harg7.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  sl_unfold_words
  rw [View.read_writes_eq_canon _ _ _ (cover2 _ _), View.canon_cons_unit_zero (S := S1024x1024) hz, View.readCov_unit_zero (S := S1024x1024) _ hz]
  simp only [View.readAt_eq_ld, harg3.read_unread, harg4.read_unread, harg7.read_unread, View.ld_unit_zero (S := S1024x512) hz, View.ld_unit_zero (S := S1024x1024) hz]

set_option maxHeartbeats 1000000 in
/-- The last depth block: the accumulator ends as at a middle block, and the output tile, whatever it held, ends
    holding that accumulator plus the bias row (`k1_pay3`). -/
theorem run1_last (c : Dev nD) (i : grid1.Coords) (hc1 : ¬condFirst1 i) (hc2 : condLast1 i)
    (arg3 : Memref sig .tc .vmem S1024x512 .f32) (harg3 : arg3.IsWhole) (arg4 : Memref sig .tc .vmem S1024x512 .f32) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole)
    (x0 : Vec F S1024x512 .f32) (x1 : Vec F S1024x512 .f32) (x2 : Vec F S1x1024 .f32) (s : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare s
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay2 x0 x1 s) x2)
            ∗ owns (c : Thread nD τ) arg7 fullShare (k1_pay2 x0 x1 s)) -∗ K ⟨⟩))
      ⊢ wp frame (wpE (defs₀ (F := F)) Variants.none c none) E (cc1__matmul_bt_kernel i arg3 harg3 arg4 harg4 arg5 harg5 arg6 harg6 arg7 harg7) K := by
  simp only [cc1__matmul_bt_kernel_eq_skeleton]; unfold cc1__matmul_bt_kernel_skel
  unfold owns
  iintro ⟨⟨%f0, %hf0, H0⟩, ⟨%f1, %hf1, H1⟩, ⟨%f2, %hf2, H2⟩, ⟨%d, %fd, %hfd, HD⟩, ⟨%fs, %hfs, HS⟩, Hk⟩
  obtain rfl := harg3.eq_unread hf0; obtain rfl := harg4.eq_unread hf1; obtain rfl := harg5.eq_unread hf2
  obtain rfl := harg6.eq_unread hfd; obtain rfl := harg7.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HD]
  · iexists _; isplitr
    swap; · iexact HD
    ipureintro
    sl_unfold_words
    rw [View.read_writes_eq_canon _ _ _ (cover1 _), View.canon_unit_zero hz]
    simp only [View.readCov_unit_zero (S := S1024x1024) _ hz, View.readAt_eq_ld, harg3.read_unread, harg4.read_unread, harg5.read_unread, harg7.read_unread, View.ld_unit_zero (S := S1024x512) hz, View.ld_unit_zero (S := S1024x1024) hz, View.ld_unit_zero (S := S1x1024) hz]
  iexists _; isplitr
  swap; · iexact HS
  ipureintro
  sl_unfold_words
  rw [View.read_writes_eq_canon _ _ _ (cover1 _), View.canon_unit_zero hz]
  simp only [View.readAt_eq_ld, harg3.read_unread, harg4.read_unread, harg7.read_unread, View.ld_unit_zero (S := S1024x512) hz, View.ld_unit_zero (S := S1024x1024) hz]

end Cert.Kernel.Hand

end
-- ==== Proof.K.Dat1.lean ====
/-
  The kernel's run over its whole grid. The grid is (row tile, column tile, depth block), walked with the depth
  block fastest, so the points t with t % 4 = 0 start an output tile and those with t % 4 = 3 finish it. Between two
  points the accumulator (a scratch tile the kernel keeps to itself) carries the running sum `acc1`: after point t it is
  the partial product of point t's two input blocks added to the zero tile (at a first depth block) or to what the point
  before left. Only at a last depth block is the output tile stored: the accumulator plus the bias row (`out1`). The
  proof data name these contents; the body obligation is the three runs of Body1 glued by the point's situation.
-/
import proofs.«140522_j83038897701629_1_alg».proof.Proof.K.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows read -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's block, the right operand's block and the bias block at point `t`, at their literal types. -/
abbrev ablk1 (c : Dev nD) (t : Fin cfg1.N) : Vec F S1024x512 .f32 := iblk1 V c 0 t
abbrev bblk1 (c : Dev nD) (t : Fin cfg1.N) : Vec F S1024x512 .f32 := iblk1 V c 1 t
abbrev biasblk1 (c : Dev nD) (t : Fin cfg1.N) : Vec F S1x1024 .f32 := iblk1 V c 2 t

/-! ## The running sum -/

/-- What the accumulator holds after point `n`. -/
def acc1 (c : Dev nD) : (n : ℕ) → n < cfg1.N → Vec F S1024x1024 .f32
  | 0, hn => k1_pay2 (ablk1 V c ⟨0, hn⟩) (bblk1 V c ⟨0, hn⟩) k1_pay1
  | n + 1, hn => k1_pay2 (ablk1 V c ⟨n + 1, hn⟩) (bblk1 V c ⟨n + 1, hn⟩)
      (if (n + 1) % 4 = 0 then k1_pay1 else acc1 c n (Nat.lt_of_succ_lt hn))

/-- At a first depth block the sum restarts from the zero tile. -/
theorem acc1_first (c : Dev nD) (t : Fin cfg1.N) (h : t.val % 4 = 0) :
    acc1 V c t.val t.isLt = k1_pay2 (ablk1 V c t) (bblk1 V c t) k1_pay1 := by
  obtain ⟨n, hn⟩ := t
  cases n with
  | zero => rfl
  | succ n =>
    show k1_pay2 _ _ (if (n + 1) % 4 = 0 then _ else _) = _
    rw [if_pos h]

/-- At any other depth block it adds to what the point before left. -/
theorem acc1_next (c : Dev nD) (t : Fin cfg1.N) (h : ¬t.val % 4 = 0) :
    acc1 V c t.val t.isLt = k1_pay2 (ablk1 V c t) (bblk1 V c t) (acc1 V c (t.val - 1) (Nat.lt_of_le_of_lt (Nat.sub_le _ _) t.isLt)) := by
  obtain ⟨n, hn⟩ := t
  cases n with
  | zero => exact absurd (Nat.zero_mod _) h
  | succ n =>
    show k1_pay2 _ _ (if (n + 1) % 4 = 0 then _ else _) = _
    rw [if_neg h]
    rfl

/-- What the output tile's staging buffer holds after a last depth block: the accumulator plus the bias row. -/
def out1 (c : Dev nD) (t : Fin cfg1.N) : Vec F S1024x1024 .bf16 := k1_pay3 (acc1 V c t.val t.isLt) (biasblk1 V c t)

/-! ## The invariant: the accumulator between points -/

/-- The accumulator: a whole scratch buffer of the kernel's own. -/
abbrev scM1 : Memref sig .tc .vmem S1024x1024 .f32 := Memref.whole cc1_scratch0

/-- The core's other scoped buffers (the other kernels' staging buffers and accumulators), at any contents. -/
abbrev rest1 (c : Dev nD) : sProp 𝕄 :=
  Pipeline.scopedRestBut (Ix := Unit) (Name := ℕ) (U := UR sig nD τ) (Lvl := ℕ) (Val := Elt F) spec1 c [cc1_scratch0]

/-- What the region hands the kernel, with the accumulator split off. -/
theorem PhiA1_eq (c : Dev nD) :
    (Pipeline.ΦA spec1 c : sProp 𝕄) = iprop(((∃ d, owns (c : Thread nD τ) scM1 fullShare d) ∗ rest1 c) ∗ (∃ r, prngReg c r)) := by
  unfold Pipeline.ΦA
  rw [Pipeline.scopedRest_split_of_list spec1 c [cc1_scratch0] (by decide) (by decide)]
  simp only [Idealize.SL.BI.bigSepL_singleton, scM1, owns_whole]
  try rfl

/-- The invariant before position `n`: at the start what the region hands over; afterwards the accumulator at the
    running sum the point before left, the other scoped buffers at anything, the generator register at some state. -/
def PhiS1 (c : Dev nD) : (n : ℕ) → n ≤ cfg1.N → sProp 𝕄
  | 0, _ => Pipeline.ΦA spec1 c
  | n + 1, hn => iprop((owns (c : Thread nD τ) scM1 fullShare (acc1 V c n hn) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (acc1 V c n hn) ∗ rest1 c) ∗ (∃ r, prngReg c r)) := rfl

theorem PhiS1_pos (c : Dev nD) (n : ℕ) (h : n ≤ cfg1.N) (hz : n ≠ 0) :
    PhiS1 V c n h = iprop((owns (c : Thread nD τ) scM1 fullShare (acc1 V c (n - 1) (by omega)) ∗ rest1 c) ∗ (∃ r, prngReg c r)) := by
  cases n with
  | zero => exact absurd rfl hz
  | succ n => rfl

/-! ## The proof data -/

/-- The proof data of this pallas_call on core `c`: the arrays as the region finds them; after the body at point
    `t` each input's buffer at its block and the output's at `out1` (consulted only where the tile is written back);
    the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 V c t := by dsimp only [dat1]

/-- Each input window's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The situations, decided over the grid -/

theorem hcondFirst1 : ∀ t : Fin cfg1.N, condFirst1 (grid1.coords t) ↔ t.val % 4 = 0 :=
  (by decide +kernel : ∀ t : Fin grid1.N, condFirst1 (grid1.coords t) ↔ t.val % 4 = 0)
theorem hcondLast1 : ∀ t : Fin cfg1.N, condLast1 (grid1.coords t) ↔ t.val % 4 = 3 :=
  (by decide +kernel : ∀ t : Fin grid1.N, condLast1 (grid1.coords t) ↔ t.val % 4 = 3)

/-- The inputs are never idle; the output tile is idle, and not written back, away from a last depth block, live at one. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬condLast1 (grid1.coords t) → cfg1.idle 3 (grid1.coords t) = true := by decide +kernel
theorem noFlush1_3 : ∀ t : Fin cfg1.N, ¬condLast1 (grid1.coords t) → (cfg1.win 3).flush t = false := by decide +kernel
theorem liveAt1_3 : ∀ t : Fin cfg1.N, condLast1 (grid1.coords t) → cfg1.idle 3 (grid1.coords t) = false := by decide +kernel

/-! ## The body obligation -/

/-- Each window's current staging memref at point t, as the pipeline passes it, and its wholeness. -/
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

set_option maxHeartbeats 4800000 in
/-- The body at any point. The inputs' buffers hold their blocks; the point's position among the depth blocks says
    which run applies; the invariant hands the body the accumulator (at anything before the first point, at the running
    sum afterwards) and takes it back at this point's running sum; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · have hnl : ¬condLast1 (grid1.coords t) := fun h => by have := (hcondLast1 t).mp h; omega
    rw [Dat.leavesExact_idle (dat1 V c) 3 t (idleAt1_3 t hnl) (noFlush1_3 t hnl)]
    rw [acc1_first V c t h0]
    by_cases hz : t.val = 0
    · rw [PhiS1_castSucc V c t, PhiS1_zero V c _ _ hz, PhiA1_eq]
      iintro ⟨⟨⟨HS, Hr⟩, Hg⟩, Ho, ⟨%d0, H0⟩, ⟨%d1, H1⟩, ⟨%d2, H2⟩, ⟨%d3, H3⟩⟩
      iapply (run1_first c (grid1.coords t) ((hcondFirst1 t).mpr h0) hnl (ms1_0 t) (hs1_0 t) (ms1_1 t) (hs1_1 t) (ms1_2 t) (hs1_2 t) (ms1_3 t) (hs1_3 t) scM1 (Memref.isWhole_whole _) (iblk1 V c 0 t) (iblk1 V c 1 t) Set.univ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, Hr⟩, Hg⟩, Ho, ⟨%d0, H0⟩, ⟨%d1, H1⟩, ⟨%d2, H2⟩, ⟨%d3, H3⟩⟩
      iapply (run1_first c (grid1.coords t) ((hcondFirst1 t).mpr h0) hnl (ms1_0 t) (hs1_0 t) (ms1_1 t) (hs1_1 t) (ms1_2 t) (hs1_2 t) (ms1_3 t) (hs1_3 t) scM1 (Memref.isWhole_whole _) (iblk1 V c 0 t) (iblk1 V c 1 t) Set.univ _)
      isplitl [H0]; · iexact H0
      isplitl [H1]; · iexact H1
      isplitl [HS]; · iexists _; iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
  · have hnf : ¬condFirst1 (grid1.coords t) := fun h => h0 ((hcondFirst1 t).mp h)
    have hz : t.val ≠ 0 := fun e => h0 (by rw [e])
    by_cases h5 : t.val % 4 = 3
    · have hl : condLast1 (grid1.coords t) := (hcondLast1 t).mpr h5
      rw [show (dat1 V c).leavesExact 3 t = owns (c : Thread nD τ) (ms1_3 t) fullShare ((dat1 V c).after 3 t) from by
        unfold Dat.leavesExact; rw [liveAt1_3 t hl], after1_3]
      unfold out1
      rw [acc1_next V c t h0]
      rw [PhiS1_castSucc V c t, PhiS1_pos V c _ _ hz]
      iintro ⟨⟨⟨HS, Hr⟩, Hg⟩, Ho, ⟨%d0, H0⟩, ⟨%d1, H1⟩, ⟨%d2, H2⟩, ⟨%d3, H3⟩⟩
      iapply (run1_last c (grid1.coords t) hnf hl (ms1_0 t) (hs1_0 t) (ms1_1 t) (hs1_1 t) (ms1_2 t) (hs1_2 t) (ms1_3 t) (hs1_3 t) scM1 (Memref.isWhole_whole _) (iblk1 V c 0 t) (iblk1 V c 1 t) (iblk1 V c 2 t) (acc1 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexact H3
    · have hnl : ¬condLast1 (grid1.coords t) := fun h => h5 ((hcondLast1 t).mp h)
      rw [Dat.leavesExact_idle (dat1 V c) 3 t (idleAt1_3 t hnl) (noFlush1_3 t hnl)]
      rw [acc1_next V c t h0]
      rw [PhiS1_castSucc V c t, PhiS1_pos V c _ _ hz]
      iintro ⟨⟨⟨HS, Hr⟩, Hg⟩, Ho, ⟨%d0, H0⟩, ⟨%d1, H1⟩, ⟨%d2, H2⟩, ⟨%d3, H3⟩⟩
      iapply (run1_mid c (grid1.coords t) hnf hnl (ms1_0 t) (hs1_0 t) (ms1_1 t) (hs1_1 t) (ms1_2 t) (hs1_2 t) (ms1_3 t) (hs1_3 t) scM1 (Memref.isWhole_whole _) (iblk1 V c 0 t) (iblk1 V c 1 t) (acc1 V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region hands over is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives back what the region handed over: the accumulator's contents forgotten. -/
theorem hout1 (c : Dev nD) : (dat1 V c).Φ (Fin.last cfg1.N) ⊢ Pipeline.ΦA spec1 c := by
  have hN : cfg1.N = 128 := N_1
  rw [show (dat1 V c).Φ (Fin.last cfg1.N) = PhiS1 V c cfg1.N (Nat.le_refl _) from rfl,
    PhiS1_pos V c cfg1.N _ (by omega), PhiA1_eq]
  iintro ⟨⟨HS, Hr⟩, Hg⟩
  isplitl [HS Hr]
  · isplitl [HS]
    · iexists _; iexact HS
    iexact Hr
  iexact Hg

end Cert.Kernel.Hand

end
-- ==== Proof.K.Body2.lean ====
/-
  The kernel's body at one grid point, in its three situations. The grid's last axis walks the depth blocks of
  one output tile. At the FIRST depth block the accumulator is zeroed and the block's partial product added; at a
  MIDDLE one the partial product is added to what the accumulator holds; at the LAST one, after that addition, the
  accumulator plus the bias row is written to the output tile. In every situation the two input blocks are only
  read, and the accumulator ends at `k2_pay2 a b s`: the partial product of the blocks `a`, `b` added to the
  accumulator's contents `s` on entry (the zero tile `k2_pay1` at the first block).
-/
import proofs.«140522_j83038897701629_1_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is at the first depth block (the kernel's test "last grid coordinate = 0"). -/
abbrev condFirst2 (i : grid2.Coords) : Prop := (Scalar.cmpi .ne (Scalar.extui (Scalar.cmpi .eq (BitVec.ofNat 32 (i 2).val) 0#32)) 0#32) = 1#1
/-- The point is at the last depth block. -/
abbrev condLast2 (i : grid2.Coords) : Prop := k2_cond2 i = 1#1

set_option maxHeartbeats 1000000 in
/-- A middle depth block: the accumulator, holding `s`, ends holding `s` plus the blocks' partial product. -/
theorem run2_mid (c : Dev nD) (i : grid2.Coords) (hc1 : ¬condFirst2 i) (hc2 : ¬condLast2 i)
    (arg3 : Memref sig .tc .vmem S1024x512 .bf16) (harg3 : arg3.IsWhole) (arg4 : Memref sig .tc .vmem S1024x512 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x0 : Vec F S1024x512 .bf16) (x1 : Vec F S1024x512 .f32) (s : Vec F S1024x1024 .f32) (E : Set ℕ) (K : PUnit → sProp 𝕄) :
    iprop(owns (c : Thread nD τ) arg3 fullShare x0 ∗ owns (c : Thread nD τ) arg4 fullShare x1 ∗ owns (c : Thread nD τ) arg7 fullShare s
        ∗ (iprop(owns (c : Thread nD τ) arg3 fullShare x0 ∗ owns (c : Thread nD τ) arg4 fullShare x1
            ∗ owns (c : Thread nD τ) arg7 fullShare (k2_pay2 x0 x1 s)) -∗ K ⟨⟩))
      ⊢ wp frame (wpE (defs₀ (F := F)) Variants.none c none) E (cc2__matmul_bt_kernel i arg3 harg3 arg4 harg4 arg5 harg5 arg6 harg6 arg7 harg7) K := by
  simp only [cc2__matmul_bt_kernel_eq_skeleton]; unfold cc2__matmul_bt_kernel_skel
  unfold owns
  iintro ⟨⟨%f0, %hf0, H0⟩, ⟨%f1, %hf1, H1⟩, ⟨%fs, %hfs, HS⟩, Hk⟩
  obtain rfl := harg3.eq_unread hf0; obtain rfl := harg4.eq_unread hf1; obtain rfl := harg7.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  rw [View.read_writes_eq_canon _ _ _ (cover1 _), View.canon_unit_zero hz]
  simp only [View.readAt_eq_ld, harg3.read_unread, harg4.read_unread, harg7.read_unread, View.ld_unit_zero (S := S1024x512) hz, View.ld_unit_zero (S := S1024x1024) hz]

set_option maxHeartbeats 1000000 in
/-- The first depth block: whatever the accumulator held, it ends holding the zero tile plus the partial product. -/
theorem run2_first (c : Dev nD) (i : grid2.Coords) (hc1 : condFirst2 i) (hc2 : ¬condLast2 i)
    (arg3 : Memref sig .tc .vmem S1024x512 .bf16) (harg3 : arg3.IsWhole) (arg4 : Memref sig .tc .vmem S1024x512 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x0 : Vec F S1024x512 .bf16) (x1 : Vec F S1024x512 .f32) (E : Set ℕ) (K : PUnit → sProp 𝕄) :
    iprop(owns (c : Thread nD τ) arg3 fullShare x0 ∗ owns (c : Thread nD τ) arg4 fullShare x1 ∗ (∃ s, owns (c : Thread nD τ) arg7 fullShare s)
        ∗ (iprop(owns (c : Thread nD τ) arg3 fullShare x0 ∗ owns (c : Thread nD τ) arg4 fullShare x1
            ∗ owns (c : Thread nD τ) arg7 fullShare (k2_pay2 x0 x1 k2_pay1)) -∗ K ⟨⟩))
      ⊢ wp frame (wpE (defs₀ (F := F)) Variants.none c none) E (cc2__matmul_bt_kernel i arg3 harg3 arg4 harg4 arg5 harg5 arg6 harg6 arg7 harg7) K := by
  simp only [cc2__matmul_bt_kernel_eq_skeleton]; unfold cc2__matmul_bt_kernel_skel
  unfold owns
  iintro ⟨⟨%f0, %hf0, H0⟩, ⟨%f1, %hf1, H1⟩, ⟨%s, %fs, %hfs, HS⟩, Hk⟩
  obtain rfl := harg3.eq_unread hf0; obtain rfl := harg4.eq_unread hf1; obtain rfl := harg7.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  sl_unfold_words
  rw [View.read_writes_eq_canon _ _ _ (cover2 _ _), View.canon_cons_unit_zero (S := S1024x1024) hz, View.readCov_unit_zero (S := S1024x1024) _ hz]
  simp only [View.readAt_eq_ld, harg3.read_unread, harg4.read_unread, harg7.read_unread, View.ld_unit_zero (S := S1024x512) hz, View.ld_unit_zero (S := S1024x1024) hz]

set_option maxHeartbeats 1000000 in
/-- The last depth block: the accumulator ends as at a middle block, and the output tile, whatever it held, ends
    holding that accumulator plus the bias row (`k2_pay3`). -/
theorem run2_last (c : Dev nD) (i : grid2.Coords) (hc1 : ¬condFirst2 i) (hc2 : condLast2 i)
    (arg3 : Memref sig .tc .vmem S1024x512 .bf16) (harg3 : arg3.IsWhole) (arg4 : Memref sig .tc .vmem S1024x512 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x0 : Vec F S1024x512 .bf16) (x1 : Vec F S1024x512 .f32) (x2 : Vec F S1x1024 .f32) (s : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare s
        ∗ (iprop(owns (c : Thread nD τ) arg3 fullShare x0 ∗ owns (c : Thread nD τ) arg4 fullShare x1 ∗ owns (c : Thread nD τ) arg5 fullShare x2
            ∗ owns (c : Thread nD τ) arg6 fullShare (k2_pay3 (k2_pay2 x0 x1 s) x2)
            ∗ owns (c : Thread nD τ) arg7 fullShare (k2_pay2 x0 x1 s)) -∗ K ⟨⟩))
      ⊢ wp frame (wpE (defs₀ (F := F)) Variants.none c none) E (cc2__matmul_bt_kernel i arg3 harg3 arg4 harg4 arg5 harg5 arg6 harg6 arg7 harg7) K := by
  simp only [cc2__matmul_bt_kernel_eq_skeleton]; unfold cc2__matmul_bt_kernel_skel
  unfold owns
  iintro ⟨⟨%f0, %hf0, H0⟩, ⟨%f1, %hf1, H1⟩, ⟨%f2, %hf2, H2⟩, ⟨%d, %fd, %hfd, HD⟩, ⟨%fs, %hfs, HS⟩, Hk⟩
  obtain rfl := harg3.eq_unread hf0; obtain rfl := harg4.eq_unread hf1; obtain rfl := harg5.eq_unread hf2
  obtain rfl := harg6.eq_unread hfd; obtain rfl := harg7.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HD]
  · iexists _; isplitr
    swap; · iexact HD
    ipureintro
    sl_unfold_words
    rw [View.read_writes_eq_canon _ _ _ (cover1 _), View.canon_unit_zero hz]
    simp only [View.readCov_unit_zero (S := S1024x1024) _ hz, View.readAt_eq_ld, harg3.read_unread, harg4.read_unread, harg5.read_unread, harg7.read_unread, View.ld_unit_zero (S := S1024x512) hz, View.ld_unit_zero (S := S1024x1024) hz, View.ld_unit_zero (S := S1x1024) hz]
  iexists _; isplitr
  swap; · iexact HS
  ipureintro
  sl_unfold_words
  rw [View.read_writes_eq_canon _ _ _ (cover1 _), View.canon_unit_zero hz]
  simp only [View.readAt_eq_ld, harg3.read_unread, harg4.read_unread, harg7.read_unread, View.ld_unit_zero (S := S1024x512) hz, View.ld_unit_zero (S := S1024x1024) hz]

end Cert.Kernel.Hand

end
-- ==== Proof.K.Dat2.lean ====
/-
  The kernel's run over its whole grid. The grid is (row tile, column tile, depth block), walked with the depth
  block fastest, so the points t with t % 16 = 0 start an output tile and those with t % 16 = 15 finish it. Between two
  points the accumulator (a scratch tile the kernel keeps to itself) carries the running sum `acc2`: after point t it is
  the partial product of point t's two input blocks added to the zero tile (at a first depth block) or to what the point
  before left. Only at a last depth block is the output tile stored: the accumulator plus the bias row (`out2`). The
  proof data name these contents; the body obligation is the three runs of Body2 glued by the point's situation.
-/
import proofs.«140522_j83038897701629_1_alg».proof.Proof.K.Body2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows read -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's block, the right operand's block and the bias block at point `t`, at their literal types. -/
abbrev ablk2 (c : Dev nD) (t : Fin cfg2.N) : Vec F S1024x512 .bf16 := iblk2 V c 0 t
abbrev bblk2 (c : Dev nD) (t : Fin cfg2.N) : Vec F S1024x512 .f32 := iblk2 V c 1 t
abbrev biasblk2 (c : Dev nD) (t : Fin cfg2.N) : Vec F S1x1024 .f32 := iblk2 V c 2 t

/-! ## The running sum -/

/-- What the accumulator holds after point `n`. -/
def acc2 (c : Dev nD) : (n : ℕ) → n < cfg2.N → Vec F S1024x1024 .f32
  | 0, hn => k2_pay2 (ablk2 V c ⟨0, hn⟩) (bblk2 V c ⟨0, hn⟩) k2_pay1
  | n + 1, hn => k2_pay2 (ablk2 V c ⟨n + 1, hn⟩) (bblk2 V c ⟨n + 1, hn⟩)
      (if (n + 1) % 16 = 0 then k2_pay1 else acc2 c n (Nat.lt_of_succ_lt hn))

/-- At a first depth block the sum restarts from the zero tile. -/
theorem acc2_first (c : Dev nD) (t : Fin cfg2.N) (h : t.val % 16 = 0) :
    acc2 V c t.val t.isLt = k2_pay2 (ablk2 V c t) (bblk2 V c t) k2_pay1 := by
  obtain ⟨n, hn⟩ := t
  cases n with
  | zero => rfl
  | succ n =>
    show k2_pay2 _ _ (if (n + 1) % 16 = 0 then _ else _) = _
    rw [if_pos h]

/-- At any other depth block it adds to what the point before left. -/
theorem acc2_next (c : Dev nD) (t : Fin cfg2.N) (h : ¬t.val % 16 = 0) :
    acc2 V c t.val t.isLt = k2_pay2 (ablk2 V c t) (bblk2 V c t) (acc2 V c (t.val - 1) (Nat.lt_of_le_of_lt (Nat.sub_le _ _) t.isLt)) := by
  obtain ⟨n, hn⟩ := t
  cases n with
  | zero => exact absurd (Nat.zero_mod _) h
  | succ n =>
    show k2_pay2 _ _ (if (n + 1) % 16 = 0 then _ else _) = _
    rw [if_neg h]
    rfl

/-- What the output tile's staging buffer holds after a last depth block: the accumulator plus the bias row. -/
def out2 (c : Dev nD) (t : Fin cfg2.N) : Vec F S1024x1024 .f32 := k2_pay3 (acc2 V c t.val t.isLt) (biasblk2 V c t)

/-! ## The invariant: the accumulator between points -/

/-- The accumulator: a whole scratch buffer of the kernel's own. -/
abbrev scM2 : Memref sig .tc .vmem S1024x1024 .f32 := Memref.whole cc2_scratch0

/-- The core's other scoped buffers (the other kernels' staging buffers and accumulators), at any contents. -/
abbrev rest2 (c : Dev nD) : sProp 𝕄 :=
  Pipeline.scopedRestBut (Ix := Unit) (Name := ℕ) (U := UR sig nD τ) (Lvl := ℕ) (Val := Elt F) spec2 c [cc2_scratch0]

/-- What the region hands the kernel, with the accumulator split off. -/
theorem PhiA2_eq (c : Dev nD) :
    (Pipeline.ΦA spec2 c : sProp 𝕄) = iprop(((∃ d, owns (c : Thread nD τ) scM2 fullShare d) ∗ rest2 c) ∗ (∃ r, prngReg c r)) := by
  unfold Pipeline.ΦA
  rw [Pipeline.scopedRest_split_of_list spec2 c [cc2_scratch0] (by decide) (by decide)]
  simp only [Idealize.SL.BI.bigSepL_singleton, scM2, owns_whole]
  try rfl

/-- The invariant before position `n`: at the start what the region hands over; afterwards the accumulator at the
    running sum the point before left, the other scoped buffers at anything, the generator register at some state. -/
def PhiS2 (c : Dev nD) : (n : ℕ) → n ≤ cfg2.N → sProp 𝕄
  | 0, _ => Pipeline.ΦA spec2 c
  | n + 1, hn => iprop((owns (c : Thread nD τ) scM2 fullShare (acc2 V c n hn) ∗ rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop((owns (c : Thread nD τ) scM2 fullShare (acc2 V c n hn) ∗ rest2 c) ∗ (∃ r, prngReg c r)) := rfl

theorem PhiS2_pos (c : Dev nD) (n : ℕ) (h : n ≤ cfg2.N) (hz : n ≠ 0) :
    PhiS2 V c n h = iprop((owns (c : Thread nD τ) scM2 fullShare (acc2 V c (n - 1) (by omega)) ∗ rest2 c) ∗ (∃ r, prngReg c r)) := by
  cases n with
  | zero => exact absurd rfl hz
  | succ n => rfl

/-! ## The proof data -/

/-- The proof data of this pallas_call on core `c`: the arrays as the region finds them; after the body at point
    `t` each input's buffer at its block and the output's at `out2` (consulted only where the tile is written back);
    the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 V c t := by dsimp only [dat2]

/-- Each input window's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

/-! ## The situations, decided over the grid -/

theorem hcondFirst2 : ∀ t : Fin cfg2.N, condFirst2 (grid2.coords t) ↔ t.val % 16 = 0 :=
  (by decide +kernel : ∀ t : Fin grid2.N, condFirst2 (grid2.coords t) ↔ t.val % 16 = 0)
theorem hcondLast2 : ∀ t : Fin cfg2.N, condLast2 (grid2.coords t) ↔ t.val % 16 = 15 :=
  (by decide +kernel : ∀ t : Fin grid2.N, condLast2 (grid2.coords t) ↔ t.val % 16 = 15)

/-- The inputs are never idle; the output tile is idle, and not written back, away from a last depth block, live at one. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬condLast2 (grid2.coords t) → cfg2.idle 3 (grid2.coords t) = true := by decide +kernel
theorem noFlush2_3 : ∀ t : Fin cfg2.N, ¬condLast2 (grid2.coords t) → (cfg2.win 3).flush t = false := by decide +kernel
theorem liveAt2_3 : ∀ t : Fin cfg2.N, condLast2 (grid2.coords t) → cfg2.idle 3 (grid2.coords t) = false := by decide +kernel

/-! ## The body obligation -/

/-- Each window's current staging memref at point t, as the pipeline passes it, and its wholeness. -/
abbrev ms2_0 (t : Fin cfg2.N) : Memref sig .tc .vmem S1024x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .f32 := win2_3.stage (cfg2.slots t 3)
abbrev hs2_3 (t : Fin cfg2.N) : (ms2_3 t).IsWhole := hstage2_3 ((cfg2.slots t 3).cast nbuf2_3)

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

set_option maxHeartbeats 4800000 in
/-- The body at any point. The inputs' buffers hold their blocks; the point's position among the depth blocks says
    which run applies; the invariant hands the body the accumulator (at anything before the first point, at the running
    sum afterwards) and takes it back at this point's running sum; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 16 = 0
  · have hnl : ¬condLast2 (grid2.coords t) := fun h => by have := (hcondLast2 t).mp h; omega
    rw [Dat.leavesExact_idle (dat2 V c) 3 t (idleAt2_3 t hnl) (noFlush2_3 t hnl)]
    rw [acc2_first V c t h0]
    by_cases hz : t.val = 0
    · rw [PhiS2_castSucc V c t, PhiS2_zero V c _ _ hz, PhiA2_eq]
      iintro ⟨⟨⟨HS, Hr⟩, Hg⟩, Ho, ⟨%d0, H0⟩, ⟨%d1, H1⟩, ⟨%d2, H2⟩, ⟨%d3, H3⟩⟩
      iapply (run2_first c (grid2.coords t) ((hcondFirst2 t).mpr h0) hnl (ms2_0 t) (hs2_0 t) (ms2_1 t) (hs2_1 t) (ms2_2 t) (hs2_2 t) (ms2_3 t) (hs2_3 t) scM2 (Memref.isWhole_whole _) (iblk2 V c 0 t) (iblk2 V c 1 t) Set.univ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS, Hr⟩, Hg⟩, Ho, ⟨%d0, H0⟩, ⟨%d1, H1⟩, ⟨%d2, H2⟩, ⟨%d3, H3⟩⟩
      iapply (run2_first c (grid2.coords t) ((hcondFirst2 t).mpr h0) hnl (ms2_0 t) (hs2_0 t) (ms2_1 t) (hs2_1 t) (ms2_2 t) (hs2_2 t) (ms2_3 t) (hs2_3 t) scM2 (Memref.isWhole_whole _) (iblk2 V c 0 t) (iblk2 V c 1 t) Set.univ _)
      isplitl [H0]; · iexact H0
      isplitl [H1]; · iexact H1
      isplitl [HS]; · iexists _; iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
  · have hnf : ¬condFirst2 (grid2.coords t) := fun h => h0 ((hcondFirst2 t).mp h)
    have hz : t.val ≠ 0 := fun e => h0 (by rw [e])
    by_cases h5 : t.val % 16 = 15
    · have hl : condLast2 (grid2.coords t) := (hcondLast2 t).mpr h5
      rw [show (dat2 V c).leavesExact 3 t = owns (c : Thread nD τ) (ms2_3 t) fullShare ((dat2 V c).after 3 t) from by
        unfold Dat.leavesExact; rw [liveAt2_3 t hl], after2_3]
      unfold out2
      rw [acc2_next V c t h0]
      rw [PhiS2_castSucc V c t, PhiS2_pos V c _ _ hz]
      iintro ⟨⟨⟨HS, Hr⟩, Hg⟩, Ho, ⟨%d0, H0⟩, ⟨%d1, H1⟩, ⟨%d2, H2⟩, ⟨%d3, H3⟩⟩
      iapply (run2_last c (grid2.coords t) hnf hl (ms2_0 t) (hs2_0 t) (ms2_1 t) (hs2_1 t) (ms2_2 t) (hs2_2 t) (ms2_3 t) (hs2_3 t) scM2 (Memref.isWhole_whole _) (iblk2 V c 0 t) (iblk2 V c 1 t) (iblk2 V c 2 t) (acc2 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexact H3
    · have hnl : ¬condLast2 (grid2.coords t) := fun h => h5 ((hcondLast2 t).mp h)
      rw [Dat.leavesExact_idle (dat2 V c) 3 t (idleAt2_3 t hnl) (noFlush2_3 t hnl)]
      rw [acc2_next V c t h0]
      rw [PhiS2_castSucc V c t, PhiS2_pos V c _ _ hz]
      iintro ⟨⟨⟨HS, Hr⟩, Hg⟩, Ho, ⟨%d0, H0⟩, ⟨%d1, H1⟩, ⟨%d2, H2⟩, ⟨%d3, H3⟩⟩
      iapply (run2_mid c (grid2.coords t) hnf hnl (ms2_0 t) (hs2_0 t) (ms2_1 t) (hs2_1 t) (ms2_2 t) (hs2_2 t) (ms2_3 t) (hs2_3 t) scM2 (Memref.isWhole_whole _) (iblk2 V c 0 t) (iblk2 V c 1 t) (acc2 V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region hands over is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives back what the region handed over: the accumulator's contents forgotten. -/
theorem hout2 (c : Dev nD) : (dat2 V c).Φ (Fin.last cfg2.N) ⊢ Pipeline.ΦA spec2 c := by
  have hN : cfg2.N = 128 := N_2
  rw [show (dat2 V c).Φ (Fin.last cfg2.N) = PhiS2 V c cfg2.N (Nat.le_refl _) from rfl,
    PhiS2_pos V c cfg2.N _ (by omega), PhiA2_eq]
  iintro ⟨⟨HS, Hr⟩, Hg⟩
  isplitl [HS Hr]
  · isplitl [HS]
    · iexists _; iexact HS
    iexact Hr
  iexact Hg

end Cert.Kernel.Hand

end
-- ==== Proof.K.Regs.lean ====
/-
  The whole program as a run. @main is ten short stretches of host operations (the zero bias and the paddings), the first
  pallas_call, a stretch that slices its result into the two weight matrices and two bias vectors, the second
  pallas_call, one reshape, the third pallas_call. Between two items every buffer the host sees is held at a
  named valuation: `Wa` before the first call (the host prefix applied to the launch memory), `Wb` after it (the call's
  result array at what its write-backs leave), `Wc` / `Wd` around the second, `We` / `Wf` around the third. The
  run ends with the last call's result array at `(dat2 …).arrAt 3`, and the three arguments as launched, since no item
  writes them.
-/
import proofs.«140522_j83038897701629_1_alg».proof.Proof.K.Dat0
import proofs.«140522_j83038897701629_1_alg».proof.Proof.K.Dat1
import proofs.«140522_j83038897701629_1_alg».proof.Proof.K.Dat2
import proofs.«140522_j83038897701629_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The buffers' contents at each boundary -/

/-- Before the first pallas_call: the ten host stretches applied to the launch memory. -/
abbrev Wa (c : Dev nD) : Valuation τ sig (Elt F) := Gen.V10 m c
abbrev Va : (c : Dev nD) → (b : Ref sig .tc) → Buf (Elt F) ((c : Thread nD τ).loc b) := fun c b => Wa m c b

/-- After pallas_call 0: its four arrays at what the pipeline's write-backs leave (the inputs as entered, the result
    tile by tile), every other buffer as entered. -/
def Wb (c : Dev nD) : Valuation τ sig (Elt F) :=
  Pipeline.withArrays spec0 c (Wa m c) fun w => (dat0 (Va m) c).arrAt w cfg0.N
theorem Wb_arr (c : Dev nD) (w : Fin cfg0.W) :
    Wb m c (Proc.devRef .tc (Pipeline.arrRef spec0 w)) = (dat0 (Va m) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m c (Proc.devRef .tc b) = Wa m c (Proc.devRef .tc b) := by
  unfold Wb; exact Pipeline.withArrays_of_ne spec0 c _ _ b hb
/-- The same read at the TensorCore's references. -/
abbrev Vb : (c : Dev nD) → (b : Ref sig .tc) → Buf (Elt F) ((c : Thread nD τ).loc b) := fun c b => Wb m c b
theorem hF0 (c : Dev nD) (w : Fin cfg0.W) : (dat0 (Va m) c).arrAt w cfg0.N = Vb m c (Pipeline.arrRef spec0 w) :=
  (Wb_arr m c w).symm
theorem hrest0 (c : Dev nD) : ∀ b, b ∉ Finset.univ.image (Pipeline.arrRef spec0) → Vb m c b = Va m c b :=
  fun b hb => Wb_of_ne m c b fun w e => hb (Finset.mem_image.mpr ⟨w, Finset.mem_univ _, e⟩)

/-- Before the second pallas_call: the slicing stretch applied. -/
abbrev Wc (c : Dev nD) : Valuation τ sig (Elt F) := StableHlo.after hostOps1 (Wb m c)
abbrev Vc : (c : Dev nD) → (b : Ref sig .tc) → Buf (Elt F) ((c : Thread nD τ).loc b) := fun c b => Wc m c b

/-- After pallas_call 1: its four arrays at what the pipeline's write-backs leave (the inputs as entered, the result
    tile by tile), every other buffer as entered. -/
def Wd (c : Dev nD) : Valuation τ sig (Elt F) :=
  Pipeline.withArrays spec1 c (Wc m c) fun w => (dat1 (Vc m) c).arrAt w cfg1.N
theorem Wd_arr (c : Dev nD) (w : Fin cfg1.W) :
    Wd m c (Proc.devRef .tc (Pipeline.arrRef spec1 w)) = (dat1 (Vc m) c).arrAt w cfg1.N := by
  unfold Wd; exact Pipeline.withArrays_arr spec1 launch1.win.arr_inj c _ _ w
theorem Wd_of_ne (c : Dev nD) (b : Ref sig .tc) (hb : ∀ w, Pipeline.arrRef spec1 w ≠ b) :
    Wd m c (Proc.devRef .tc b) = Wc m c (Proc.devRef .tc b) := by
  unfold Wd; exact Pipeline.withArrays_of_ne spec1 c _ _ b hb
/-- The same read at the TensorCore's references. -/
abbrev Vd : (c : Dev nD) → (b : Ref sig .tc) → Buf (Elt F) ((c : Thread nD τ).loc b) := fun c b => Wd m c b
theorem hF1 (c : Dev nD) (w : Fin cfg1.W) : (dat1 (Vc m) c).arrAt w cfg1.N = Vd m c (Pipeline.arrRef spec1 w) :=
  (Wd_arr m c w).symm
theorem hrest1 (c : Dev nD) : ∀ b, b ∉ Finset.univ.image (Pipeline.arrRef spec1) → Vd m c b = Vc m c b :=
  fun b hb => Wd_of_ne m c b fun w e => hb (Finset.mem_image.mpr ⟨w, Finset.mem_univ _, e⟩)

/-- Before the third pallas_call: the last reshape applied. -/
abbrev We (c : Dev nD) : Valuation τ sig (Elt F) := StableHlo.after hostOps2 (Wd m c)
abbrev Ve : (c : Dev nD) → (b : Ref sig .tc) → Buf (Elt F) ((c : Thread nD τ).loc b) := fun c b => We m c b

/-- After pallas_call 2: its four arrays at what the pipeline's write-backs leave (the inputs as entered, the result
    tile by tile), every other buffer as entered. -/
def Wf (c : Dev nD) : Valuation τ sig (Elt F) :=
  Pipeline.withArrays spec2 c (We m c) fun w => (dat2 (Ve m) c).arrAt w cfg2.N
theorem Wf_arr (c : Dev nD) (w : Fin cfg2.W) :
    Wf m c (Proc.devRef .tc (Pipeline.arrRef spec2 w)) = (dat2 (Ve m) c).arrAt w cfg2.N := by
  unfold Wf; exact Pipeline.withArrays_arr spec2 launch2.win.arr_inj c _ _ w
theorem Wf_of_ne (c : Dev nD) (b : Ref sig .tc) (hb : ∀ w, Pipeline.arrRef spec2 w ≠ b) :
    Wf m c (Proc.devRef .tc b) = We m c (Proc.devRef .tc b) := by
  unfold Wf; exact Pipeline.withArrays_of_ne spec2 c _ _ b hb
/-- The same read at the TensorCore's references. -/
abbrev Vf : (c : Dev nD) → (b : Ref sig .tc) → Buf (Elt F) ((c : Thread nD τ).loc b) := fun c b => Wf m c b
theorem hF2 (c : Dev nD) (w : Fin cfg2.W) : (dat2 (Ve m) c).arrAt w cfg2.N = Vf m c (Pipeline.arrRef spec2 w) :=
  (Wf_arr m c w).symm
theorem hrest2 (c : Dev nD) : ∀ b, b ∉ Finset.univ.image (Pipeline.arrRef spec2) → Vf m c b = Ve m c b :=
  fun b hb => Wf_of_ne m c b fun w e => hb (Finset.mem_image.mpr ⟨w, Finset.mem_univ _, e⟩)

/-! ## The proof data family and the thread state -/

/-- No pallas_call has a prefetched table. -/
abbrev adm : (p : Fin 3) → (pcfgs (F := F) p).Adm := fun p => (cfgs p).toPCfg_adm
/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => dat0 (Va m) c
  | ⟨1, _⟩ => fun c => dat1 (Vc m) c
  | ⟨2, _⟩ => fun c => dat2 (Ve m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- The same as a family indexed by the position among the calls (the generated host segments take it so). -/
abbrev Efam : Fin 4 → Dev nD → sProp 𝕄 := fun _ c => R c
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The three pallas_calls as segments -/

set_option backward.isDefEq.respectTransparency.types false in
/-- Pallas_call 0 as a segment of @main: entered with every unscoped buffer at `Wa`, left with them at `Wb`.
    Its four arrays are split out of the unscoped buffers on entry and put back, at what the write-backs left, on exit;
    the generator register goes into the kernel's invariant and comes back; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m) c).loose
  hwaits := Pipeline.hwaits_of_owed_zero _ _ _ _ L lv 0 fun _ _ => rfl
  pre c := iprop(StableHlo.held (c : Thread nD τ) (Pipeline.ucRefs τ sig) (Wa m c) ∗ R c)
  post c := iprop(StableHlo.held (c : Thread nD τ) (Pipeline.ucRefs τ sig) (Wb m c) ∗ R c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (Va m) c)
    unfold Pipeline.ΦA
    iintro ⟨Hp, -, Hr⟩
    isplitl [Hr]; · iexact Hr
    iexact Hp
  hout c := by
    rw [Pipeline.ownSems0_none]
    refine (hout0 (Va m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va m c) (Vb m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 as a segment of @main: entered with every unscoped buffer at `Wc`, left with them at `Wd`.
    Its four arrays are split out of the unscoped buffers on entry and put back, at what the write-backs left, on exit;
    the generator register goes into the kernel's invariant and comes back; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vc m) c).loose
  hwaits := Pipeline.hwaits_of_owed_zero _ _ _ _ L lv 1 fun _ _ => rfl
  pre c := iprop(StableHlo.held (c : Thread nD τ) (Pipeline.ucRefs τ sig) (Wc m c) ∗ R c)
  post c := iprop(StableHlo.held (c : Thread nD τ) (Pipeline.ucRefs τ sig) (Wd m c) ∗ R c)
  X c := iprop(∃ r, prngReg c r)
  Y c := iprop(∃ r, prngReg c r)
  Z c := Pipeline.unscopedRest (Ix := Unit) (Name := ℕ) (U := UR sig nD τ) (Lvl := ℕ) spec1 c (Vc m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vc m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (Vc m) c)
    unfold Pipeline.ΦA
    iintro ⟨Hp, -, Hr⟩
    isplitl [Hr]; · iexact Hr
    iexact Hp
  hout c := by
    rw [Pipeline.ownSems0_none]
    refine (hout1 (Vc m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vc m c) (Vd m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 2 as a segment of @main: entered with every unscoped buffer at `We`, left with them at `Wf`.
    Its four arrays are split out of the unscoped buffers on entry and put back, at what the write-backs left, on exit;
    the generator register goes into the kernel's invariant and comes back; nothing is owed; the kernel has no
    semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ve m) c).loose
  hwaits := Pipeline.hwaits_of_owed_zero _ _ _ _ L lv 2 fun _ _ => rfl
  pre c := iprop(StableHlo.held (c : Thread nD τ) (Pipeline.ucRefs τ sig) (We m c) ∗ R c)
  post c := iprop(StableHlo.held (c : Thread nD τ) (Pipeline.ucRefs τ sig) (Wf m c) ∗ R c)
  X c := iprop(∃ r, prngReg c r)
  Y c := iprop(∃ r, prngReg c r)
  Z c := Pipeline.unscopedRest (Ix := Unit) (Name := ℕ) (U := UR sig nD τ) (Lvl := ℕ) spec2 c (Ve m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Ve m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (Ve m) c)
    unfold Pipeline.ΦA
    iintro ⟨Hp, -, Hr⟩
    isplitl [Hr]; · iexact Hr
    iexact Hp
  hout c := by
    rw [Pipeline.ownSems0_none]
    refine (hout2 (Ve m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Ve m c) (Vf m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The arguments are never written -/

theorem Wa_arg (c : Dev nD) (r : Ref sig .tc) (h0 : r ∉ Gen.hostOps0_W) (h1 : r ∉ Gen.hostOps0_1_W) (h2 : r ∉ Gen.hostOps0_2_W)
    (h3 : r ∉ Gen.hostOps0_3_W) (h4 : r ∉ Gen.hostOps0_4_W) (h5 : r ∉ Gen.hostOps0_5_W) (h6 : r ∉ Gen.hostOps0_6_W)
    (h7 : r ∉ Gen.hostOps0_7_W) (h8 : r ∉ Gen.hostOps0_8_W) (h9 : r ∉ Gen.hostOps0_9_W) :
    Wa m c r = m ((c : Thread nD τ).loc r) :=
  (Gen.V10_of m c r h9).trans <| (Gen.V9_of m c r h8).trans <| (Gen.V8_of m c r h7).trans <| (Gen.V7_of m c r h6).trans <|
    (Gen.V6_of m c r h5).trans <| (Gen.V5_of m c r h4).trans <| (Gen.V4_of m c r h3).trans <| (Gen.V3_of m c r h2).trans <|
    (Gen.V2_of m c r h1).trans <| (Gen.V1_of m c r h0).trans rfl

/-! ## The arguments are never written -/

/-- A buffer that the slicing stretch, the last reshape and the three calls leave alone keeps, to the end, what it
    held before the first call. -/
theorem Wf_keep (c : Dev nD) (r : Ref sig .tc) (h2 : ∀ w, Pipeline.arrRef spec2 w ≠ r) (hh2 : r ∉ Gen.hostOps2_W)
    (h1 : ∀ w, Pipeline.arrRef spec1 w ≠ r) (hh1 : r ∉ Gen.hostOps1_W) (h0 : ∀ w, Pipeline.arrRef spec0 w ≠ r) :
    Wf m c (Proc.devRef .tc r) = Wa m c (Proc.devRef .tc r) :=
  (Wf_of_ne m c r h2).trans <| (StableHlo.after_of_writes_sub hostOps2 _ Gen.hostOps2_writes hh2).trans <|
    (Wd_of_ne m c r h1).trans <| (StableHlo.after_of_writes_sub hostOps1 _ Gen.hostOps1_writes hh1).trans <| Wb_of_ne m c r h0

theorem Wf_main_arg1 (c : Dev nD) : Wf m c (Proc.devRef .tc main_arg1) = m ((c : Thread nD τ).loc main_arg1) :=
  (Wf_keep m c main_arg1 (by decide) (by decide) (by decide) (by decide) (by decide)).trans
    (Wa_arg m c main_arg1 (by decide) (by decide) (by decide) (by decide) (by decide) (by decide) (by decide) (by decide) (by decide) (by decide))
theorem Wf_main_arg2 (c : Dev nD) : Wf m c (Proc.devRef .tc main_arg2) = m ((c : Thread nD τ).loc main_arg2) :=
  (Wf_keep m c main_arg2 (by decide) (by decide) (by decide) (by decide) (by decide)).trans
    (Wa_arg m c main_arg2 (by decide) (by decide) (by decide) (by decide) (by decide) (by decide) (by decide) (by decide) (by decide) (by decide))
/-- The first argument is the second call's left operand: an input window's array, which no write-back touches. -/
theorem Wf_main_arg0 (c : Dev nD) : Wf m c (Proc.devRef .tc main_arg0) = m ((c : Thread nD τ).loc main_arg0) :=
  (Wf_of_ne m c main_arg0 (by decide)).trans <| (StableHlo.after_of_writes_sub hostOps2 _ Gen.hostOps2_writes (by decide)).trans <|
    (Wd_arr m c 0).trans <| ((dat1 (Vc m) c).arrAt_in 0 rfl _).trans <| (A_eq1 (Vc m) c 0).trans <|
    (StableHlo.after_of_writes_sub hostOps1 _ Gen.hostOps1_writes (by decide)).trans <| (Wb_of_ne m c main_arg0 (by decide)).trans <|
    Wa_arg m c main_arg0 (by decide) (by decide) (by decide) (by decide) (by decide) (by decide) (by decide) (by decide) (by decide) (by decide)

/-! ## @main as segments, and the run -/

/-- @main's fifteen items in order. -/
abbrev segs : List (Pipeline.Seg (pcfgs (F := F)) adm (pdats m) () defs₀ 𝒱₀ L lv) :=
  [ .host (Gen.seg0 m 𝒱₀ L lv Efam), .host (Gen.seg1 m 𝒱₀ L lv Efam), .host (Gen.seg2 m 𝒱₀ L lv Efam), .host (Gen.seg3 m 𝒱₀ L lv Efam), .host (Gen.seg4 m 𝒱₀ L lv Efam), .host (Gen.seg5 m 𝒱₀ L lv Efam), .host (Gen.seg6 m 𝒱₀ L lv Efam), .host (Gen.seg7 m 𝒱₀ L lv Efam), .host (Gen.seg8 m 𝒱₀ L lv Efam), .host (Gen.seg9 m 𝒱₀ L lv Efam),
    .region (reg0 m),
    .host (hseg hostOps1 hostOps1_sub Gen.hostOps1_fresh (Wb m)),
    .region (reg1 m),
    .host (hseg hostOps2 hostOps2_sub Gen.hostOps2_fresh (Wd m)),
    .region (reg2 m) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main terminates, nothing faulting, with
    the result array at what the third call's write-backs leave and the three arguments as launched. -/
theorem run_val (ρ : Dev nD → PrngReg) : θ_run defs (onTc (τ := τ) (main (F := F))) ⟨m, fun _ => 0, ρ⟩ (fun r => ∀ c : Dev nD,
      r.2.mem ((c.tc : Thread nD τ).loc main_v19) = (dat2 (Ve m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Wf m c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show iprop(StableHlo.held (c : Thread nD τ) (Pipeline.ucRefs τ sig) (Wf m c) ∗ R c) ⊢ _
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wf m c b)
    (hfin := fun c s' => by
      iintro ⟨⟨Hh, -⟩, HSI⟩
      unfold StableHlo.held
      imodintro
      iapply (pointsTo_read_all (Pipeline.ucRefs τ sig) (fun b => (((c : Thread nD τ)).1, b)) (Wf m c) s')
      isplitl [Hh] <;> iassumption)
    (hQ := fun s h c =>
      ⟨(h c _ (mem_uc main_v19 (by decide))).trans (Wf_arr m c 3),
       (h c _ (mem_uc main_arg0 (by decide))).trans (Wf_main_arg0 m c),
       (h c _ (mem_uc main_arg1 (by decide))).trans (Wf_main_arg1 m c),
       (h c _ (mem_uc main_arg2 (by decide))).trans (Wf_main_arg2 m c)⟩)

end Cert.Kernel.Hand

end
-- ==== Proof.KI.Common.lean ====
/-
  What the three kernels share: the accumulator's shape is one 1024 × 1024 tile, every load and store of it and of the
  output tile goes through the one rectangle that is the whole tile at offset zero, so a single stored piece covers it.
-/
import proofs.«140522_j83038897701629_1_alg».proof.Proof.Gen.KernelIdeal.Launch
import proofs.«140522_j83038897701629_1_alg».proof.Proof.Gen.KernelIdeal.Skeleton
import proofs.«140522_j83038897701629_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of every access in these kernels: zero on both axes. -/
theorem hz : (![0, 0] : Fin 2 → Nat) = fun _ => 0 := funext fun a => by fin_cases a <;> rfl

/-- The whole 1024 × 1024 tile as a rectangle. -/
abbrev rAcc : Rect S1024x1024 := Rect.unit (s := S1024x1024) ![0, 0] S1024x1024.size inb_S1024x1024_S1024x1024_0_0

/-- One piece stored through the whole-tile rectangle covers the tile. -/
theorem cover1 {e : EltTy} (p0 : Vec F S1024x1024 e) (y : S1024x1024.Idx) :
    ∃ pc ∈ ([⟨rAcc, p0⟩] : List (View.Piece (Elt F) S1024x1024 e)), y ∈ pc.1.set :=
  View.cover_of_tiled [⟨rAcc, p0⟩] S1024x1024.size (by rfl) y

/-- Two pieces stored through the whole-tile rectangle cover it (the later one already does). -/
theorem cover2 {e : EltTy} (p0 p1 : Vec F S1024x1024 e) (y : S1024x1024.Idx) :
    ∃ pc ∈ ([⟨rAcc, p0⟩, ⟨rAcc, p1⟩] : List (View.Piece (Elt F) S1024x1024 e)), y ∈ pc.1.set := by
  obtain ⟨pc, hpc, hy⟩ := cover1 (F := F) p0 y
  rcases List.mem_singleton.mp hpc with rfl
  exact ⟨_, List.mem_cons_self, hy⟩

end Cert.KernelIdeal.Hand

end
-- ==== Proof.KI.Body0.lean ====
/-
  The kernel's body at one grid point, in its three situations. The grid's last axis walks the depth blocks of
  one output tile. At the FIRST depth block the accumulator is zeroed and the block's partial product added; at a
  MIDDLE one the partial product is added to what the accumulator holds; at the LAST one, after that addition, the
  accumulator plus the bias row is written to the output tile. In every situation the two input blocks are only
  read, and the accumulator ends at `k0_pay2 a b s`: the partial product of the blocks `a`, `b` added to the
  accumulator's contents `s` on entry (the zero tile `k0_pay1` at the first block).
-/
import proofs.«140522_j83038897701629_1_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is at the first depth block (the kernel's test "last grid coordinate = 0"). -/
abbrev condFirst0 (i : grid0.Coords) : Prop := (Scalar.cmpi .ne (Scalar.extui (Scalar.cmpi .eq (BitVec.ofNat 32 (i 2).val) 0#32)) 0#32) = 1#1
/-- The point is at the last depth block. -/
abbrev condLast0 (i : grid0.Coords) : Prop := k0_cond2 i = 1#1

set_option maxHeartbeats 1000000 in
/-- A middle depth block: the accumulator, holding `s`, ends holding `s` plus the blocks' partial product. -/
theorem run0_mid (c : Dev nD) (i : grid0.Coords) (hc1 : ¬condFirst0 i) (hc2 : ¬condLast0 i)
    (arg3 : Memref sig .tc .vmem S1024x512 .f32) (harg3 : arg3.IsWhole) (arg4 : Memref sig .tc .vmem S1024x512 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x0 : Vec F S1024x512 .f32) (x1 : Vec F S1024x512 .f32) (s : Vec F S1024x1024 .f32) (E : Set ℕ) (K : PUnit → sProp 𝕄) :
    iprop(owns (c : Thread nD τ) arg3 fullShare x0 ∗ owns (c : Thread nD τ) arg4 fullShare x1 ∗ owns (c : Thread nD τ) arg7 fullShare s
        ∗ (iprop(owns (c : Thread nD τ) arg3 fullShare x0 ∗ owns (c : Thread nD τ) arg4 fullShare x1
            ∗ owns (c : Thread nD τ) arg7 fullShare (k0_pay2 x0 x1 s)) -∗ K ⟨⟩))
      ⊢ wp frame (wpE (defs₀ (F := F)) Variants.none c none) E (cc0__matmul_bt_kernel i arg3 harg3 arg4 harg4 arg5 harg5 arg6 harg6 arg7 harg7) K := by
  simp only [cc0__matmul_bt_kernel_eq_skeleton]; unfold cc0__matmul_bt_kernel_skel
  unfold owns
  iintro ⟨⟨%f0, %hf0, H0⟩, ⟨%f1, %hf1, H1⟩, ⟨%fs, %hfs, HS⟩, Hk⟩
  obtain rfl := harg3.eq_unread hf0; obtain rfl := harg4.eq_unread hf1; obtain rfl := harg7.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  rw [View.read_writes_eq_canon _ _ _ (cover1 _), View.canon_unit_zero hz]
  simp only [View.readAt_eq_ld, harg3.read_unread, harg4.read_unread, harg7.read_unread, View.ld_unit_zero (S := S1024x512) hz, View.ld_unit_zero (S := S1024x1024) hz]

set_option maxHeartbeats 1000000 in
/-- The first depth block: whatever the accumulator held, it ends holding the zero tile plus the partial product. -/
theorem run0_first (c : Dev nD) (i : grid0.Coords) (hc1 : condFirst0 i) (hc2 : ¬condLast0 i)
    (arg3 : Memref sig .tc .vmem S1024x512 .f32) (harg3 : arg3.IsWhole) (arg4 : Memref sig .tc .vmem S1024x512 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x0 : Vec F S1024x512 .f32) (x1 : Vec F S1024x512 .f32) (E : Set ℕ) (K : PUnit → sProp 𝕄) :
    iprop(owns (c : Thread nD τ) arg3 fullShare x0 ∗ owns (c : Thread nD τ) arg4 fullShare x1 ∗ (∃ s, owns (c : Thread nD τ) arg7 fullShare s)
        ∗ (iprop(owns (c : Thread nD τ) arg3 fullShare x0 ∗ owns (c : Thread nD τ) arg4 fullShare x1
            ∗ owns (c : Thread nD τ) arg7 fullShare (k0_pay2 x0 x1 k0_pay1)) -∗ K ⟨⟩))
      ⊢ wp frame (wpE (defs₀ (F := F)) Variants.none c none) E (cc0__matmul_bt_kernel i arg3 harg3 arg4 harg4 arg5 harg5 arg6 harg6 arg7 harg7) K := by
  simp only [cc0__matmul_bt_kernel_eq_skeleton]; unfold cc0__matmul_bt_kernel_skel
  unfold owns
  iintro ⟨⟨%f0, %hf0, H0⟩, ⟨%f1, %hf1, H1⟩, ⟨%s, %fs, %hfs, HS⟩, Hk⟩
  obtain rfl := harg3.eq_unread hf0; obtain rfl := harg4.eq_unread hf1; obtain rfl := harg7.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  sl_unfold_words
  rw [View.read_writes_eq_canon _ _ _ (cover2 _ _), View.canon_cons_unit_zero (S := S1024x1024) hz, View.readCov_unit_zero (S := S1024x1024) _ hz]
  simp only [View.readAt_eq_ld, harg3.read_unread, harg4.read_unread, harg7.read_unread, View.ld_unit_zero (S := S1024x512) hz, View.ld_unit_zero (S := S1024x1024) hz]

set_option maxHeartbeats 1000000 in
/-- The last depth block: the accumulator ends as at a middle block, and the output tile, whatever it held, ends
    holding that accumulator plus the bias row (`k0_pay3`). -/
theorem run0_last (c : Dev nD) (i : grid0.Coords) (hc1 : ¬condFirst0 i) (hc2 : condLast0 i)
    (arg3 : Memref sig .tc .vmem S1024x512 .f32) (harg3 : arg3.IsWhole) (arg4 : Memref sig .tc .vmem S1024x512 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x0 : Vec F S1024x512 .f32) (x1 : Vec F S1024x512 .f32) (x2 : Vec F S1x1024 .f32) (s : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare s
        ∗ (iprop(owns (c : Thread nD τ) arg3 fullShare x0 ∗ owns (c : Thread nD τ) arg4 fullShare x1 ∗ owns (c : Thread nD τ) arg5 fullShare x2
            ∗ owns (c : Thread nD τ) arg6 fullShare (k0_pay3 (k0_pay2 x0 x1 s) x2)
            ∗ owns (c : Thread nD τ) arg7 fullShare (k0_pay2 x0 x1 s)) -∗ K ⟨⟩))
      ⊢ wp frame (wpE (defs₀ (F := F)) Variants.none c none) E (cc0__matmul_bt_kernel i arg3 harg3 arg4 harg4 arg5 harg5 arg6 harg6 arg7 harg7) K := by
  simp only [cc0__matmul_bt_kernel_eq_skeleton]; unfold cc0__matmul_bt_kernel_skel
  unfold owns
  iintro ⟨⟨%f0, %hf0, H0⟩, ⟨%f1, %hf1, H1⟩, ⟨%f2, %hf2, H2⟩, ⟨%d, %fd, %hfd, HD⟩, ⟨%fs, %hfs, HS⟩, Hk⟩
  obtain rfl := harg3.eq_unread hf0; obtain rfl := harg4.eq_unread hf1; obtain rfl := harg5.eq_unread hf2
  obtain rfl := harg6.eq_unread hfd; obtain rfl := harg7.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HD]
  · iexists _; isplitr
    swap; · iexact HD
    ipureintro
    sl_unfold_words
    rw [View.read_writes_eq_canon _ _ _ (cover1 _), View.canon_unit_zero hz]
    simp only [View.readCov_unit_zero (S := S1024x1024) _ hz, View.readAt_eq_ld, harg3.read_unread, harg4.read_unread, harg5.read_unread, harg7.read_unread, View.ld_unit_zero (S := S1024x512) hz, View.ld_unit_zero (S := S1024x1024) hz, View.ld_unit_zero (S := S1x1024) hz]
  iexists _; isplitr
  swap; · iexact HS
  ipureintro
  sl_unfold_words
  rw [View.read_writes_eq_canon _ _ _ (cover1 _), View.canon_unit_zero hz]
  simp only [View.readAt_eq_ld, harg3.read_unread, harg4.read_unread, harg7.read_unread, View.ld_unit_zero (S := S1024x512) hz, View.ld_unit_zero (S := S1024x1024) hz]

end Cert.KernelIdeal.Hand

end
-- ==== Proof.KI.Dat0.lean ====
/-
  The kernel's run over its whole grid. The grid is (row tile, column tile, depth block), walked with the depth
  block fastest, so the points t with t % 6 = 0 start an output tile and those with t % 6 = 5 finish it. Between two
  points the accumulator (a scratch tile the kernel keeps to itself) carries the running sum `acc0`: after point t it is
  the partial product of point t's two input blocks added to the zero tile (at a first depth block) or to what the point
  before left. Only at a last depth block is the output tile stored: the accumulator plus the bias row (`out0`). The
  proof data name these contents; the body obligation is the three runs of Body0 glued by the point's situation.
-/
import proofs.«140522_j83038897701629_1_alg».proof.Proof.KI.Body0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows read -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's block, the right operand's block and the bias block at point `t`, at their literal types. -/
abbrev ablk0 (c : Dev nD) (t : Fin cfg0.N) : Vec F S1024x512 .f32 := iblk0 V c 0 t
abbrev bblk0 (c : Dev nD) (t : Fin cfg0.N) : Vec F S1024x512 .f32 := iblk0 V c 1 t
abbrev biasblk0 (c : Dev nD) (t : Fin cfg0.N) : Vec F S1x1024 .f32 := iblk0 V c 2 t

/-! ## The running sum -/

/-- What the accumulator holds after point `n`. -/
def acc0 (c : Dev nD) : (n : ℕ) → n < cfg0.N → Vec F S1024x1024 .f32
  | 0, hn => k0_pay2 (ablk0 V c ⟨0, hn⟩) (bblk0 V c ⟨0, hn⟩) k0_pay1
  | n + 1, hn => k0_pay2 (ablk0 V c ⟨n + 1, hn⟩) (bblk0 V c ⟨n + 1, hn⟩)
      (if (n + 1) % 6 = 0 then k0_pay1 else acc0 c n (Nat.lt_of_succ_lt hn))

/-- At a first depth block the sum restarts from the zero tile. -/
theorem acc0_first (c : Dev nD) (t : Fin cfg0.N) (h : t.val % 6 = 0) :
    acc0 V c t.val t.isLt = k0_pay2 (ablk0 V c t) (bblk0 V c t) k0_pay1 := by
  obtain ⟨n, hn⟩ := t
  cases n with
  | zero => rfl
  | succ n =>
    show k0_pay2 _ _ (if (n + 1) % 6 = 0 then _ else _) = _
    rw [if_pos h]

/-- At any other depth block it adds to what the point before left. -/
theorem acc0_next (c : Dev nD) (t : Fin cfg0.N) (h : ¬t.val % 6 = 0) :
    acc0 V c t.val t.isLt = k0_pay2 (ablk0 V c t) (bblk0 V c t) (acc0 V c (t.val - 1) (Nat.lt_of_le_of_lt (Nat.sub_le _ _) t.isLt)) := by
  obtain ⟨n, hn⟩ := t
  cases n with
  | zero => exact absurd (Nat.zero_mod _) h
  | succ n =>
    show k0_pay2 _ _ (if (n + 1) % 6 = 0 then _ else _) = _
    rw [if_neg h]
    rfl

/-- What the output tile's staging buffer holds after a last depth block: the accumulator plus the bias row. -/
def out0 (c : Dev nD) (t : Fin cfg0.N) : Vec F S1024x1024 .f32 := k0_pay3 (acc0 V c t.val t.isLt) (biasblk0 V c t)

/-! ## The invariant: the accumulator between points -/

/-- The accumulator: a whole scratch buffer of the kernel's own. -/
abbrev scM0 : Memref sig .tc .vmem S1024x1024 .f32 := Memref.whole cc0_scratch0

/-- The core's other scoped buffers (the other kernels' staging buffers and accumulators), at any contents. -/
abbrev rest0 (c : Dev nD) : sProp 𝕄 :=
  Pipeline.scopedRestBut (Ix := Unit) (Name := ℕ) (U := UR sig nD τ) (Lvl := ℕ) (Val := Elt F) spec0 c [cc0_scratch0]

/-- What the region hands the kernel, with the accumulator split off. -/
theorem PhiA0_eq (c : Dev nD) :
    (Pipeline.ΦA spec0 c : sProp 𝕄) = iprop(((∃ d, owns (c : Thread nD τ) scM0 fullShare d) ∗ rest0 c) ∗ (∃ r, prngReg c r)) := by
  unfold Pipeline.ΦA
  rw [Pipeline.scopedRest_split_of_list spec0 c [cc0_scratch0] (by decide) (by decide)]
  simp only [Idealize.SL.BI.bigSepL_singleton, scM0, owns_whole]
  try rfl

/-- The invariant before position `n`: at the start what the region hands over; afterwards the accumulator at the
    running sum the point before left, the other scoped buffers at anything, the generator register at some state. -/
def PhiS0 (c : Dev nD) : (n : ℕ) → n ≤ cfg0.N → sProp 𝕄
  | 0, _ => Pipeline.ΦA spec0 c
  | n + 1, hn => iprop((owns (c : Thread nD τ) scM0 fullShare (acc0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (acc0 V c n hn) ∗ rest0 c) ∗ (∃ r, prngReg c r)) := rfl

theorem PhiS0_pos (c : Dev nD) (n : ℕ) (h : n ≤ cfg0.N) (hz : n ≠ 0) :
    PhiS0 V c n h = iprop((owns (c : Thread nD τ) scM0 fullShare (acc0 V c (n - 1) (by omega)) ∗ rest0 c) ∗ (∃ r, prngReg c r)) := by
  cases n with
  | zero => exact absurd rfl hz
  | succ n => rfl

/-! ## The proof data -/

/-- The proof data of this pallas_call on core `c`: the arrays as the region finds them; after the body at point
    `t` each input's buffer at its block and the output's at `out0` (consulted only where the tile is written back);
    the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 V c t := by dsimp only [dat0]

/-- Each input window's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The situations, decided over the grid -/

theorem hcondFirst0 : ∀ t : Fin cfg0.N, condFirst0 (grid0.coords t) ↔ t.val % 6 = 0 :=
  (by decide +kernel : ∀ t : Fin grid0.N, condFirst0 (grid0.coords t) ↔ t.val % 6 = 0)
theorem hcondLast0 : ∀ t : Fin cfg0.N, condLast0 (grid0.coords t) ↔ t.val % 6 = 5 :=
  (by decide +kernel : ∀ t : Fin grid0.N, condLast0 (grid0.coords t) ↔ t.val % 6 = 5)

/-- The inputs are never idle; the output tile is idle, and not written back, away from a last depth block, live at one. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬condLast0 (grid0.coords t) → cfg0.idle 3 (grid0.coords t) = true := by decide +kernel
theorem noFlush0_3 : ∀ t : Fin cfg0.N, ¬condLast0 (grid0.coords t) → (cfg0.win 3).flush t = false := by decide +kernel
theorem liveAt0_3 : ∀ t : Fin cfg0.N, condLast0 (grid0.coords t) → cfg0.idle 3 (grid0.coords t) = false := by decide +kernel

/-! ## The body obligation -/

/-- Each window's current staging memref at point t, as the pipeline passes it, and its wholeness. -/
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

set_option maxHeartbeats 4800000 in
/-- The body at any point. The inputs' buffers hold their blocks; the point's position among the depth blocks says
    which run applies; the invariant hands the body the accumulator (at anything before the first point, at the running
    sum afterwards) and takes it back at this point's running sum; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 216 := lt_of_lt_of_eq t.isLt (show cfg0.N = 216 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 6 = 0
  · have hnl : ¬condLast0 (grid0.coords t) := fun h => by have := (hcondLast0 t).mp h; omega
    rw [Dat.leavesExact_idle (dat0 V c) 3 t (idleAt0_3 t hnl) (noFlush0_3 t hnl)]
    rw [acc0_first V c t h0]
    by_cases hz : t.val = 0
    · rw [PhiS0_castSucc V c t, PhiS0_zero V c _ _ hz, PhiA0_eq]
      iintro ⟨⟨⟨HS, Hr⟩, Hg⟩, Ho, ⟨%d0, H0⟩, ⟨%d1, H1⟩, ⟨%d2, H2⟩, ⟨%d3, H3⟩⟩
      iapply (run0_first c (grid0.coords t) ((hcondFirst0 t).mpr h0) hnl (ms0_0 t) (hs0_0 t) (ms0_1 t) (hs0_1 t) (ms0_2 t) (hs0_2 t) (ms0_3 t) (hs0_3 t) scM0 (Memref.isWhole_whole _) (iblk0 V c 0 t) (iblk0 V c 1 t) Set.univ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩⟩
      iapply (run0_first c (grid0.coords t) ((hcondFirst0 t).mpr h0) hnl (ms0_0 t) (hs0_0 t) (ms0_1 t) (hs0_1 t) (ms0_2 t) (hs0_2 t) (ms0_3 t) (hs0_3 t) scM0 (Memref.isWhole_whole _) (iblk0 V c 0 t) (iblk0 V c 1 t) Set.univ _)
      isplitl [H0]; · iexact H0
      isplitl [H1]; · iexact H1
      isplitl [HS]; · iexists _; iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
  · have hnf : ¬condFirst0 (grid0.coords t) := fun h => h0 ((hcondFirst0 t).mp h)
    have hz : t.val ≠ 0 := fun e => h0 (by rw [e])
    by_cases h5 : t.val % 6 = 5
    · have hl : condLast0 (grid0.coords t) := (hcondLast0 t).mpr h5
      rw [show (dat0 V c).leavesExact 3 t = owns (c : Thread nD τ) (ms0_3 t) fullShare ((dat0 V c).after 3 t) from by
        unfold Dat.leavesExact; rw [liveAt0_3 t hl], after0_3]
      unfold out0
      rw [acc0_next V c t h0]
      rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩⟩
      iapply (run0_last c (grid0.coords t) hnf hl (ms0_0 t) (hs0_0 t) (ms0_1 t) (hs0_1 t) (ms0_2 t) (hs0_2 t) (ms0_3 t) (hs0_3 t) scM0 (Memref.isWhole_whole _) (iblk0 V c 0 t) (iblk0 V c 1 t) (iblk0 V c 2 t) (acc0 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexact H3
    · have hnl : ¬condLast0 (grid0.coords t) := fun h => h5 ((hcondLast0 t).mp h)
      rw [Dat.leavesExact_idle (dat0 V c) 3 t (idleAt0_3 t hnl) (noFlush0_3 t hnl)]
      rw [acc0_next V c t h0]
      rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩⟩
      iapply (run0_mid c (grid0.coords t) hnf hnl (ms0_0 t) (hs0_0 t) (ms0_1 t) (hs0_1 t) (ms0_2 t) (hs0_2 t) (ms0_3 t) (hs0_3 t) scM0 (Memref.isWhole_whole _) (iblk0 V c 0 t) (iblk0 V c 1 t) (acc0 V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region hands over is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives back what the region handed over: the accumulator's contents forgotten. -/
theorem hout0 (c : Dev nD) : (dat0 V c).Φ (Fin.last cfg0.N) ⊢ Pipeline.ΦA spec0 c := by
  have hN : cfg0.N = 216 := N_0
  rw [show (dat0 V c).Φ (Fin.last cfg0.N) = PhiS0 V c cfg0.N (Nat.le_refl _) from rfl,
    PhiS0_pos V c cfg0.N _ (by omega), PhiA0_eq]
  iintro ⟨⟨HS, Hr⟩, Hg⟩
  isplitl [HS Hr]
  · isplitl [HS]
    · iexists _; iexact HS
    iexact Hr
  iexact Hg

end Cert.KernelIdeal.Hand

end
-- ==== Proof.KI.Body1.lean ====
/-
  The kernel's body at one grid point, in its three situations. The grid's last axis walks the depth blocks of
  one output tile. At the FIRST depth block the accumulator is zeroed and the block's partial product added; at a
  MIDDLE one the partial product is added to what the accumulator holds; at the LAST one, after that addition, the
  accumulator plus the bias row is written to the output tile. In every situation the two input blocks are only
  read, and the accumulator ends at `k1_pay2 a b s`: the partial product of the blocks `a`, `b` added to the
  accumulator's contents `s` on entry (the zero tile `k1_pay1` at the first block).
-/
import proofs.«140522_j83038897701629_1_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is at the first depth block (the kernel's test "last grid coordinate = 0"). -/
abbrev condFirst1 (i : grid1.Coords) : Prop := (Scalar.cmpi .ne (Scalar.extui (Scalar.cmpi .eq (BitVec.ofNat 32 (i 2).val) 0#32)) 0#32) = 1#1
/-- The point is at the last depth block. -/
abbrev condLast1 (i : grid1.Coords) : Prop := k1_cond2 i = 1#1

set_option maxHeartbeats 1000000 in
/-- A middle depth block: the accumulator, holding `s`, ends holding `s` plus the blocks' partial product. -/
theorem run1_mid (c : Dev nD) (i : grid1.Coords) (hc1 : ¬condFirst1 i) (hc2 : ¬condLast1 i)
    (arg3 : Memref sig .tc .vmem S1024x512 .f32) (harg3 : arg3.IsWhole) (arg4 : Memref sig .tc .vmem S1024x512 .f32) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole)
    (x0 : Vec F S1024x512 .f32) (x1 : Vec F S1024x512 .f32) (s : Vec F S1024x1024 .f32) (E : Set ℕ) (K : PUnit → sProp 𝕄) :
    iprop(owns (c : Thread nD τ) arg3 fullShare x0 ∗ owns (c : Thread nD τ) arg4 fullShare x1 ∗ owns (c : Thread nD τ) arg7 fullShare s
        ∗ (iprop(owns (c : Thread nD τ) arg3 fullShare x0 ∗ owns (c : Thread nD τ) arg4 fullShare x1
            ∗ owns (c : Thread nD τ) arg7 fullShare (k1_pay2 x0 x1 s)) -∗ K ⟨⟩))
      ⊢ wp frame (wpE (defs₀ (F := F)) Variants.none c none) E (cc1__matmul_bt_kernel i arg3 harg3 arg4 harg4 arg5 harg5 arg6 harg6 arg7 harg7) K := by
  simp only [cc1__matmul_bt_kernel_eq_skeleton]; unfold cc1__matmul_bt_kernel_skel
  unfold owns
  iintro ⟨⟨%f0, %hf0, H0⟩, ⟨%f1, %hf1, H1⟩, ⟨%fs, %hfs, HS⟩, Hk⟩
  obtain rfl := harg3.eq_unread hf0; obtain rfl := harg4.eq_unread hf1; obtain rfl := harg7.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  rw [View.read_writes_eq_canon _ _ _ (cover1 _), View.canon_unit_zero hz]
  simp only [View.readAt_eq_ld, harg3.read_unread, harg4.read_unread, harg7.read_unread, View.ld_unit_zero (S := S1024x512) hz, View.ld_unit_zero (S := S1024x1024) hz]

set_option maxHeartbeats 1000000 in
/-- The first depth block: whatever the accumulator held, it ends holding the zero tile plus the partial product. -/
theorem run1_first (c : Dev nD) (i : grid1.Coords) (hc1 : condFirst1 i) (hc2 : ¬condLast1 i)
    (arg3 : Memref sig .tc .vmem S1024x512 .f32) (harg3 : arg3.IsWhole) (arg4 : Memref sig .tc .vmem S1024x512 .f32) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole)
    (x0 : Vec F S1024x512 .f32) (x1 : Vec F S1024x512 .f32) (E : Set ℕ) (K : PUnit → sProp 𝕄) :
    iprop(owns (c : Thread nD τ) arg3 fullShare x0 ∗ owns (c : Thread nD τ) arg4 fullShare x1 ∗ (∃ s, owns (c : Thread nD τ) arg7 fullShare s)
        ∗ (iprop(owns (c : Thread nD τ) arg3 fullShare x0 ∗ owns (c : Thread nD τ) arg4 fullShare x1
            ∗ owns (c : Thread nD τ) arg7 fullShare (k1_pay2 x0 x1 k1_pay1)) -∗ K ⟨⟩))
      ⊢ wp frame (wpE (defs₀ (F := F)) Variants.none c none) E (cc1__matmul_bt_kernel i arg3 harg3 arg4 harg4 arg5 harg5 arg6 harg6 arg7 harg7) K := by
  simp only [cc1__matmul_bt_kernel_eq_skeleton]; unfold cc1__matmul_bt_kernel_skel
  unfold owns
  iintro ⟨⟨%f0, %hf0, H0⟩, ⟨%f1, %hf1, H1⟩, ⟨%s, %fs, %hfs, HS⟩, Hk⟩
  obtain rfl := harg3.eq_unread hf0; obtain rfl := harg4.eq_unread hf1; obtain rfl := harg7.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  sl_unfold_words
  rw [View.read_writes_eq_canon _ _ _ (cover2 _ _), View.canon_cons_unit_zero (S := S1024x1024) hz, View.readCov_unit_zero (S := S1024x1024) _ hz]
  simp only [View.readAt_eq_ld, harg3.read_unread, harg4.read_unread, harg7.read_unread, View.ld_unit_zero (S := S1024x512) hz, View.ld_unit_zero (S := S1024x1024) hz]

set_option maxHeartbeats 1000000 in
/-- The last depth block: the accumulator ends as at a middle block, and the output tile, whatever it held, ends
    holding that accumulator plus the bias row (`k1_pay3`). -/
theorem run1_last (c : Dev nD) (i : grid1.Coords) (hc1 : ¬condFirst1 i) (hc2 : condLast1 i)
    (arg3 : Memref sig .tc .vmem S1024x512 .f32) (harg3 : arg3.IsWhole) (arg4 : Memref sig .tc .vmem S1024x512 .f32) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole)
    (x0 : Vec F S1024x512 .f32) (x1 : Vec F S1024x512 .f32) (x2 : Vec F S1x1024 .f32) (s : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare s
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay2 x0 x1 s) x2)
            ∗ owns (c : Thread nD τ) arg7 fullShare (k1_pay2 x0 x1 s)) -∗ K ⟨⟩))
      ⊢ wp frame (wpE (defs₀ (F := F)) Variants.none c none) E (cc1__matmul_bt_kernel i arg3 harg3 arg4 harg4 arg5 harg5 arg6 harg6 arg7 harg7) K := by
  simp only [cc1__matmul_bt_kernel_eq_skeleton]; unfold cc1__matmul_bt_kernel_skel
  unfold owns
  iintro ⟨⟨%f0, %hf0, H0⟩, ⟨%f1, %hf1, H1⟩, ⟨%f2, %hf2, H2⟩, ⟨%d, %fd, %hfd, HD⟩, ⟨%fs, %hfs, HS⟩, Hk⟩
  obtain rfl := harg3.eq_unread hf0; obtain rfl := harg4.eq_unread hf1; obtain rfl := harg5.eq_unread hf2
  obtain rfl := harg6.eq_unread hfd; obtain rfl := harg7.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HD]
  · iexists _; isplitr
    swap; · iexact HD
    ipureintro
    sl_unfold_words
    rw [View.read_writes_eq_canon _ _ _ (cover1 _), View.canon_unit_zero hz]
    simp only [View.readCov_unit_zero (S := S1024x1024) _ hz, View.readAt_eq_ld, harg3.read_unread, harg4.read_unread, harg5.read_unread, harg7.read_unread, View.ld_unit_zero (S := S1024x512) hz, View.ld_unit_zero (S := S1024x1024) hz, View.ld_unit_zero (S := S1x1024) hz]
  iexists _; isplitr
  swap; · iexact HS
  ipureintro
  sl_unfold_words
  rw [View.read_writes_eq_canon _ _ _ (cover1 _), View.canon_unit_zero hz]
  simp only [View.readAt_eq_ld, harg3.read_unread, harg4.read_unread, harg7.read_unread, View.ld_unit_zero (S := S1024x512) hz, View.ld_unit_zero (S := S1024x1024) hz]

end Cert.KernelIdeal.Hand

end
-- ==== Proof.KI.Dat1.lean ====
/-
  The kernel's run over its whole grid. The grid is (row tile, column tile, depth block), walked with the depth
  block fastest, so the points t with t % 4 = 0 start an output tile and those with t % 4 = 3 finish it. Between two
  points the accumulator (a scratch tile the kernel keeps to itself) carries the running sum `acc1`: after point t it is
  the partial product of point t's two input blocks added to the zero tile (at a first depth block) or to what the point
  before left. Only at a last depth block is the output tile stored: the accumulator plus the bias row (`out1`). The
  proof data name these contents; the body obligation is the three runs of Body1 glued by the point's situation.
-/
import proofs.«140522_j83038897701629_1_alg».proof.Proof.KI.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows read -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's block, the right operand's block and the bias block at point `t`, at their literal types. -/
abbrev ablk1 (c : Dev nD) (t : Fin cfg1.N) : Vec F S1024x512 .f32 := iblk1 V c 0 t
abbrev bblk1 (c : Dev nD) (t : Fin cfg1.N) : Vec F S1024x512 .f32 := iblk1 V c 1 t
abbrev biasblk1 (c : Dev nD) (t : Fin cfg1.N) : Vec F S1x1024 .f32 := iblk1 V c 2 t

/-! ## The running sum -/

/-- What the accumulator holds after point `n`. -/
def acc1 (c : Dev nD) : (n : ℕ) → n < cfg1.N → Vec F S1024x1024 .f32
  | 0, hn => k1_pay2 (ablk1 V c ⟨0, hn⟩) (bblk1 V c ⟨0, hn⟩) k1_pay1
  | n + 1, hn => k1_pay2 (ablk1 V c ⟨n + 1, hn⟩) (bblk1 V c ⟨n + 1, hn⟩)
      (if (n + 1) % 4 = 0 then k1_pay1 else acc1 c n (Nat.lt_of_succ_lt hn))

/-- At a first depth block the sum restarts from the zero tile. -/
theorem acc1_first (c : Dev nD) (t : Fin cfg1.N) (h : t.val % 4 = 0) :
    acc1 V c t.val t.isLt = k1_pay2 (ablk1 V c t) (bblk1 V c t) k1_pay1 := by
  obtain ⟨n, hn⟩ := t
  cases n with
  | zero => rfl
  | succ n =>
    show k1_pay2 _ _ (if (n + 1) % 4 = 0 then _ else _) = _
    rw [if_pos h]

/-- At any other depth block it adds to what the point before left. -/
theorem acc1_next (c : Dev nD) (t : Fin cfg1.N) (h : ¬t.val % 4 = 0) :
    acc1 V c t.val t.isLt = k1_pay2 (ablk1 V c t) (bblk1 V c t) (acc1 V c (t.val - 1) (Nat.lt_of_le_of_lt (Nat.sub_le _ _) t.isLt)) := by
  obtain ⟨n, hn⟩ := t
  cases n with
  | zero => exact absurd (Nat.zero_mod _) h
  | succ n =>
    show k1_pay2 _ _ (if (n + 1) % 4 = 0 then _ else _) = _
    rw [if_neg h]
    rfl

/-- What the output tile's staging buffer holds after a last depth block: the accumulator plus the bias row. -/
def out1 (c : Dev nD) (t : Fin cfg1.N) : Vec F S1024x1024 .bf16 := k1_pay3 (acc1 V c t.val t.isLt) (biasblk1 V c t)

/-! ## The invariant: the accumulator between points -/

/-- The accumulator: a whole scratch buffer of the kernel's own. -/
abbrev scM1 : Memref sig .tc .vmem S1024x1024 .f32 := Memref.whole cc1_scratch0

/-- The core's other scoped buffers (the other kernels' staging buffers and accumulators), at any contents. -/
abbrev rest1 (c : Dev nD) : sProp 𝕄 :=
  Pipeline.scopedRestBut (Ix := Unit) (Name := ℕ) (U := UR sig nD τ) (Lvl := ℕ) (Val := Elt F) spec1 c [cc1_scratch0]

/-- What the region hands the kernel, with the accumulator split off. -/
theorem PhiA1_eq (c : Dev nD) :
    (Pipeline.ΦA spec1 c : sProp 𝕄) = iprop(((∃ d, owns (c : Thread nD τ) scM1 fullShare d) ∗ rest1 c) ∗ (∃ r, prngReg c r)) := by
  unfold Pipeline.ΦA
  rw [Pipeline.scopedRest_split_of_list spec1 c [cc1_scratch0] (by decide) (by decide)]
  simp only [Idealize.SL.BI.bigSepL_singleton, scM1, owns_whole]
  try rfl

/-- The invariant before position `n`: at the start what the region hands over; afterwards the accumulator at the
    running sum the point before left, the other scoped buffers at anything, the generator register at some state. -/
def PhiS1 (c : Dev nD) : (n : ℕ) → n ≤ cfg1.N → sProp 𝕄
  | 0, _ => Pipeline.ΦA spec1 c
  | n + 1, hn => iprop((owns (c : Thread nD τ) scM1 fullShare (acc1 V c n hn) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (acc1 V c n hn) ∗ rest1 c) ∗ (∃ r, prngReg c r)) := rfl

theorem PhiS1_pos (c : Dev nD) (n : ℕ) (h : n ≤ cfg1.N) (hz : n ≠ 0) :
    PhiS1 V c n h = iprop((owns (c : Thread nD τ) scM1 fullShare (acc1 V c (n - 1) (by omega)) ∗ rest1 c) ∗ (∃ r, prngReg c r)) := by
  cases n with
  | zero => exact absurd rfl hz
  | succ n => rfl

/-! ## The proof data -/

/-- The proof data of this pallas_call on core `c`: the arrays as the region finds them; after the body at point
    `t` each input's buffer at its block and the output's at `out1` (consulted only where the tile is written back);
    the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 V c t := by dsimp only [dat1]

/-- Each input window's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The situations, decided over the grid -/

theorem hcondFirst1 : ∀ t : Fin cfg1.N, condFirst1 (grid1.coords t) ↔ t.val % 4 = 0 :=
  (by decide +kernel : ∀ t : Fin grid1.N, condFirst1 (grid1.coords t) ↔ t.val % 4 = 0)
theorem hcondLast1 : ∀ t : Fin cfg1.N, condLast1 (grid1.coords t) ↔ t.val % 4 = 3 :=
  (by decide +kernel : ∀ t : Fin grid1.N, condLast1 (grid1.coords t) ↔ t.val % 4 = 3)

/-- The inputs are never idle; the output tile is idle, and not written back, away from a last depth block, live at one. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬condLast1 (grid1.coords t) → cfg1.idle 3 (grid1.coords t) = true := by decide +kernel
theorem noFlush1_3 : ∀ t : Fin cfg1.N, ¬condLast1 (grid1.coords t) → (cfg1.win 3).flush t = false := by decide +kernel
theorem liveAt1_3 : ∀ t : Fin cfg1.N, condLast1 (grid1.coords t) → cfg1.idle 3 (grid1.coords t) = false := by decide +kernel

/-! ## The body obligation -/

/-- Each window's current staging memref at point t, as the pipeline passes it, and its wholeness. -/
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

set_option maxHeartbeats 4800000 in
/-- The body at any point. The inputs' buffers hold their blocks; the point's position among the depth blocks says
    which run applies; the invariant hands the body the accumulator (at anything before the first point, at the running
    sum afterwards) and takes it back at this point's running sum; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · have hnl : ¬condLast1 (grid1.coords t) := fun h => by have := (hcondLast1 t).mp h; omega
    rw [Dat.leavesExact_idle (dat1 V c) 3 t (idleAt1_3 t hnl) (noFlush1_3 t hnl)]
    rw [acc1_first V c t h0]
    by_cases hz : t.val = 0
    · rw [PhiS1_castSucc V c t, PhiS1_zero V c _ _ hz, PhiA1_eq]
      iintro ⟨⟨⟨HS, Hr⟩, Hg⟩, Ho, ⟨%d0, H0⟩, ⟨%d1, H1⟩, ⟨%d2, H2⟩, ⟨%d3, H3⟩⟩
      iapply (run1_first c (grid1.coords t) ((hcondFirst1 t).mpr h0) hnl (ms1_0 t) (hs1_0 t) (ms1_1 t) (hs1_1 t) (ms1_2 t) (hs1_2 t) (ms1_3 t) (hs1_3 t) scM1 (Memref.isWhole_whole _) (iblk1 V c 0 t) (iblk1 V c 1 t) Set.univ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, Hr⟩, Hg⟩, Ho, ⟨%d0, H0⟩, ⟨%d1, H1⟩, ⟨%d2, H2⟩, ⟨%d3, H3⟩⟩
      iapply (run1_first c (grid1.coords t) ((hcondFirst1 t).mpr h0) hnl (ms1_0 t) (hs1_0 t) (ms1_1 t) (hs1_1 t) (ms1_2 t) (hs1_2 t) (ms1_3 t) (hs1_3 t) scM1 (Memref.isWhole_whole _) (iblk1 V c 0 t) (iblk1 V c 1 t) Set.univ _)
      isplitl [H0]; · iexact H0
      isplitl [H1]; · iexact H1
      isplitl [HS]; · iexists _; iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
  · have hnf : ¬condFirst1 (grid1.coords t) := fun h => h0 ((hcondFirst1 t).mp h)
    have hz : t.val ≠ 0 := fun e => h0 (by rw [e])
    by_cases h5 : t.val % 4 = 3
    · have hl : condLast1 (grid1.coords t) := (hcondLast1 t).mpr h5
      rw [show (dat1 V c).leavesExact 3 t = owns (c : Thread nD τ) (ms1_3 t) fullShare ((dat1 V c).after 3 t) from by
        unfold Dat.leavesExact; rw [liveAt1_3 t hl], after1_3]
      unfold out1
      rw [acc1_next V c t h0]
      rw [PhiS1_castSucc V c t, PhiS1_pos V c _ _ hz]
      iintro ⟨⟨⟨HS, Hr⟩, Hg⟩, Ho, ⟨%d0, H0⟩, ⟨%d1, H1⟩, ⟨%d2, H2⟩, ⟨%d3, H3⟩⟩
      iapply (run1_last c (grid1.coords t) hnf hl (ms1_0 t) (hs1_0 t) (ms1_1 t) (hs1_1 t) (ms1_2 t) (hs1_2 t) (ms1_3 t) (hs1_3 t) scM1 (Memref.isWhole_whole _) (iblk1 V c 0 t) (iblk1 V c 1 t) (iblk1 V c 2 t) (acc1 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexact H3
    · have hnl : ¬condLast1 (grid1.coords t) := fun h => h5 ((hcondLast1 t).mp h)
      rw [Dat.leavesExact_idle (dat1 V c) 3 t (idleAt1_3 t hnl) (noFlush1_3 t hnl)]
      rw [acc1_next V c t h0]
      rw [PhiS1_castSucc V c t, PhiS1_pos V c _ _ hz]
      iintro ⟨⟨⟨HS, Hr⟩, Hg⟩, Ho, ⟨%d0, H0⟩, ⟨%d1, H1⟩, ⟨%d2, H2⟩, ⟨%d3, H3⟩⟩
      iapply (run1_mid c (grid1.coords t) hnf hnl (ms1_0 t) (hs1_0 t) (ms1_1 t) (hs1_1 t) (ms1_2 t) (hs1_2 t) (ms1_3 t) (hs1_3 t) scM1 (Memref.isWhole_whole _) (iblk1 V c 0 t) (iblk1 V c 1 t) (acc1 V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region hands over is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives back what the region handed over: the accumulator's contents forgotten. -/
theorem hout1 (c : Dev nD) : (dat1 V c).Φ (Fin.last cfg1.N) ⊢ Pipeline.ΦA spec1 c := by
  have hN : cfg1.N = 128 := N_1
  rw [show (dat1 V c).Φ (Fin.last cfg1.N) = PhiS1 V c cfg1.N (Nat.le_refl _) from rfl,
    PhiS1_pos V c cfg1.N _ (by omega), PhiA1_eq]
  iintro ⟨⟨HS, Hr⟩, Hg⟩
  isplitl [HS Hr]
  · isplitl [HS]
    · iexists _; iexact HS
    iexact Hr
  iexact Hg

end Cert.KernelIdeal.Hand

end
-- ==== Proof.KI.Body2.lean ====
/-
  The kernel's body at one grid point, in its three situations. The grid's last axis walks the depth blocks of
  one output tile. At the FIRST depth block the accumulator is zeroed and the block's partial product added; at a
  MIDDLE one the partial product is added to what the accumulator holds; at the LAST one, after that addition, the
  accumulator plus the bias row is written to the output tile. In every situation the two input blocks are only
  read, and the accumulator ends at `k2_pay2 a b s`: the partial product of the blocks `a`, `b` added to the
  accumulator's contents `s` on entry (the zero tile `k2_pay1` at the first block).
-/
import proofs.«140522_j83038897701629_1_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is at the first depth block (the kernel's test "last grid coordinate = 0"). -/
abbrev condFirst2 (i : grid2.Coords) : Prop := (Scalar.cmpi .ne (Scalar.extui (Scalar.cmpi .eq (BitVec.ofNat 32 (i 2).val) 0#32)) 0#32) = 1#1
/-- The point is at the last depth block. -/
abbrev condLast2 (i : grid2.Coords) : Prop := k2_cond2 i = 1#1

set_option maxHeartbeats 1000000 in
/-- A middle depth block: the accumulator, holding `s`, ends holding `s` plus the blocks' partial product. -/
theorem run2_mid (c : Dev nD) (i : grid2.Coords) (hc1 : ¬condFirst2 i) (hc2 : ¬condLast2 i)
    (arg3 : Memref sig .tc .vmem S1024x512 .bf16) (harg3 : arg3.IsWhole) (arg4 : Memref sig .tc .vmem S1024x512 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x0 : Vec F S1024x512 .bf16) (x1 : Vec F S1024x512 .f32) (s : Vec F S1024x1024 .f32) (E : Set ℕ) (K : PUnit → sProp 𝕄) :
    iprop(owns (c : Thread nD τ) arg3 fullShare x0 ∗ owns (c : Thread nD τ) arg4 fullShare x1 ∗ owns (c : Thread nD τ) arg7 fullShare s
        ∗ (iprop(owns (c : Thread nD τ) arg3 fullShare x0 ∗ owns (c : Thread nD τ) arg4 fullShare x1
            ∗ owns (c : Thread nD τ) arg7 fullShare (k2_pay2 x0 x1 s)) -∗ K ⟨⟩))
      ⊢ wp frame (wpE (defs₀ (F := F)) Variants.none c none) E (cc2__matmul_bt_kernel i arg3 harg3 arg4 harg4 arg5 harg5 arg6 harg6 arg7 harg7) K := by
  simp only [cc2__matmul_bt_kernel_eq_skeleton]; unfold cc2__matmul_bt_kernel_skel
  unfold owns
  iintro ⟨⟨%f0, %hf0, H0⟩, ⟨%f1, %hf1, H1⟩, ⟨%fs, %hfs, HS⟩, Hk⟩
  obtain rfl := harg3.eq_unread hf0; obtain rfl := harg4.eq_unread hf1; obtain rfl := harg7.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  rw [View.read_writes_eq_canon _ _ _ (cover1 _), View.canon_unit_zero hz]
  simp only [View.readAt_eq_ld, harg3.read_unread, harg4.read_unread, harg7.read_unread, View.ld_unit_zero (S := S1024x512) hz, View.ld_unit_zero (S := S1024x1024) hz]

set_option maxHeartbeats 1000000 in
/-- The first depth block: whatever the accumulator held, it ends holding the zero tile plus the partial product. -/
theorem run2_first (c : Dev nD) (i : grid2.Coords) (hc1 : condFirst2 i) (hc2 : ¬condLast2 i)
    (arg3 : Memref sig .tc .vmem S1024x512 .bf16) (harg3 : arg3.IsWhole) (arg4 : Memref sig .tc .vmem S1024x512 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x0 : Vec F S1024x512 .bf16) (x1 : Vec F S1024x512 .f32) (E : Set ℕ) (K : PUnit → sProp 𝕄) :
    iprop(owns (c : Thread nD τ) arg3 fullShare x0 ∗ owns (c : Thread nD τ) arg4 fullShare x1 ∗ (∃ s, owns (c : Thread nD τ) arg7 fullShare s)
        ∗ (iprop(owns (c : Thread nD τ) arg3 fullShare x0 ∗ owns (c : Thread nD τ) arg4 fullShare x1
            ∗ owns (c : Thread nD τ) arg7 fullShare (k2_pay2 x0 x1 k2_pay1)) -∗ K ⟨⟩))
      ⊢ wp frame (wpE (defs₀ (F := F)) Variants.none c none) E (cc2__matmul_bt_kernel i arg3 harg3 arg4 harg4 arg5 harg5 arg6 harg6 arg7 harg7) K := by
  simp only [cc2__matmul_bt_kernel_eq_skeleton]; unfold cc2__matmul_bt_kernel_skel
  unfold owns
  iintro ⟨⟨%f0, %hf0, H0⟩, ⟨%f1, %hf1, H1⟩, ⟨%s, %fs, %hfs, HS⟩, Hk⟩
  obtain rfl := harg3.eq_unread hf0; obtain rfl := harg4.eq_unread hf1; obtain rfl := harg7.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  sl_unfold_words
  rw [View.read_writes_eq_canon _ _ _ (cover2 _ _), View.canon_cons_unit_zero (S := S1024x1024) hz, View.readCov_unit_zero (S := S1024x1024) _ hz]
  simp only [View.readAt_eq_ld, harg3.read_unread, harg4.read_unread, harg7.read_unread, View.ld_unit_zero (S := S1024x512) hz, View.ld_unit_zero (S := S1024x1024) hz]

set_option maxHeartbeats 1000000 in
/-- The last depth block: the accumulator ends as at a middle block, and the output tile, whatever it held, ends
    holding that accumulator plus the bias row (`k2_pay3`). -/
theorem run2_last (c : Dev nD) (i : grid2.Coords) (hc1 : ¬condFirst2 i) (hc2 : condLast2 i)
    (arg3 : Memref sig .tc .vmem S1024x512 .bf16) (harg3 : arg3.IsWhole) (arg4 : Memref sig .tc .vmem S1024x512 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (x0 : Vec F S1024x512 .bf16) (x1 : Vec F S1024x512 .f32) (x2 : Vec F S1x1024 .f32) (s : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare s
        ∗ (iprop(owns (c : Thread nD τ) arg3 fullShare x0 ∗ owns (c : Thread nD τ) arg4 fullShare x1 ∗ owns (c : Thread nD τ) arg5 fullShare x2
            ∗ owns (c : Thread nD τ) arg6 fullShare (k2_pay3 (k2_pay2 x0 x1 s) x2)
            ∗ owns (c : Thread nD τ) arg7 fullShare (k2_pay2 x0 x1 s)) -∗ K ⟨⟩))
      ⊢ wp frame (wpE (defs₀ (F := F)) Variants.none c none) E (cc2__matmul_bt_kernel i arg3 harg3 arg4 harg4 arg5 harg5 arg6 harg6 arg7 harg7) K := by
  simp only [cc2__matmul_bt_kernel_eq_skeleton]; unfold cc2__matmul_bt_kernel_skel
  unfold owns
  iintro ⟨⟨%f0, %hf0, H0⟩, ⟨%f1, %hf1, H1⟩, ⟨%f2, %hf2, H2⟩, ⟨%d, %fd, %hfd, HD⟩, ⟨%fs, %hfs, HS⟩, Hk⟩
  obtain rfl := harg3.eq_unread hf0; obtain rfl := harg4.eq_unread hf1; obtain rfl := harg5.eq_unread hf2
  obtain rfl := harg6.eq_unread hfd; obtain rfl := harg7.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HD]
  · iexists _; isplitr
    swap; · iexact HD
    ipureintro
    sl_unfold_words
    rw [View.read_writes_eq_canon _ _ _ (cover1 _), View.canon_unit_zero hz]
    simp only [View.readCov_unit_zero (S := S1024x1024) _ hz, View.readAt_eq_ld, harg3.read_unread, harg4.read_unread, harg5.read_unread, harg7.read_unread, View.ld_unit_zero (S := S1024x512) hz, View.ld_unit_zero (S := S1024x1024) hz, View.ld_unit_zero (S := S1x1024) hz]
  iexists _; isplitr
  swap; · iexact HS
  ipureintro
  sl_unfold_words
  rw [View.read_writes_eq_canon _ _ _ (cover1 _), View.canon_unit_zero hz]
  simp only [View.readAt_eq_ld, harg3.read_unread, harg4.read_unread, harg7.read_unread, View.ld_unit_zero (S := S1024x512) hz, View.ld_unit_zero (S := S1024x1024) hz]

end Cert.KernelIdeal.Hand

end
-- ==== Proof.KI.Dat2.lean ====
/-
  The kernel's run over its whole grid. The grid is (row tile, column tile, depth block), walked with the depth
  block fastest, so the points t with t % 16 = 0 start an output tile and those with t % 16 = 15 finish it. Between two
  points the accumulator (a scratch tile the kernel keeps to itself) carries the running sum `acc2`: after point t it is
  the partial product of point t's two input blocks added to the zero tile (at a first depth block) or to what the point
  before left. Only at a last depth block is the output tile stored: the accumulator plus the bias row (`out2`). The
  proof data name these contents; the body obligation is the three runs of Body2 glued by the point's situation.
-/
import proofs.«140522_j83038897701629_1_alg».proof.Proof.KI.Body2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows read -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's block, the right operand's block and the bias block at point `t`, at their literal types. -/
abbrev ablk2 (c : Dev nD) (t : Fin cfg2.N) : Vec F S1024x512 .bf16 := iblk2 V c 0 t
abbrev bblk2 (c : Dev nD) (t : Fin cfg2.N) : Vec F S1024x512 .f32 := iblk2 V c 1 t
abbrev biasblk2 (c : Dev nD) (t : Fin cfg2.N) : Vec F S1x1024 .f32 := iblk2 V c 2 t

/-! ## The running sum -/

/-- What the accumulator holds after point `n`. -/
def acc2 (c : Dev nD) : (n : ℕ) → n < cfg2.N → Vec F S1024x1024 .f32
  | 0, hn => k2_pay2 (ablk2 V c ⟨0, hn⟩) (bblk2 V c ⟨0, hn⟩) k2_pay1
  | n + 1, hn => k2_pay2 (ablk2 V c ⟨n + 1, hn⟩) (bblk2 V c ⟨n + 1, hn⟩)
      (if (n + 1) % 16 = 0 then k2_pay1 else acc2 c n (Nat.lt_of_succ_lt hn))

/-- At a first depth block the sum restarts from the zero tile. -/
theorem acc2_first (c : Dev nD) (t : Fin cfg2.N) (h : t.val % 16 = 0) :
    acc2 V c t.val t.isLt = k2_pay2 (ablk2 V c t) (bblk2 V c t) k2_pay1 := by
  obtain ⟨n, hn⟩ := t
  cases n with
  | zero => rfl
  | succ n =>
    show k2_pay2 _ _ (if (n + 1) % 16 = 0 then _ else _) = _
    rw [if_pos h]

/-- At any other depth block it adds to what the point before left. -/
theorem acc2_next (c : Dev nD) (t : Fin cfg2.N) (h : ¬t.val % 16 = 0) :
    acc2 V c t.val t.isLt = k2_pay2 (ablk2 V c t) (bblk2 V c t) (acc2 V c (t.val - 1) (Nat.lt_of_le_of_lt (Nat.sub_le _ _) t.isLt)) := by
  obtain ⟨n, hn⟩ := t
  cases n with
  | zero => exact absurd (Nat.zero_mod _) h
  | succ n =>
    show k2_pay2 _ _ (if (n + 1) % 16 = 0 then _ else _) = _
    rw [if_neg h]
    rfl

/-- What the output tile's staging buffer holds after a last depth block: the accumulator plus the bias row. -/
def out2 (c : Dev nD) (t : Fin cfg2.N) : Vec F S1024x1024 .f32 := k2_pay3 (acc2 V c t.val t.isLt) (biasblk2 V c t)

/-! ## The invariant: the accumulator between points -/

/-- The accumulator: a whole scratch buffer of the kernel's own. -/
abbrev scM2 : Memref sig .tc .vmem S1024x1024 .f32 := Memref.whole cc2_scratch0

/-- The core's other scoped buffers (the other kernels' staging buffers and accumulators), at any contents. -/
abbrev rest2 (c : Dev nD) : sProp 𝕄 :=
  Pipeline.scopedRestBut (Ix := Unit) (Name := ℕ) (U := UR sig nD τ) (Lvl := ℕ) (Val := Elt F) spec2 c [cc2_scratch0]

/-- What the region hands the kernel, with the accumulator split off. -/
theorem PhiA2_eq (c : Dev nD) :
    (Pipeline.ΦA spec2 c : sProp 𝕄) = iprop(((∃ d, owns (c : Thread nD τ) scM2 fullShare d) ∗ rest2 c) ∗ (∃ r, prngReg c r)) := by
  unfold Pipeline.ΦA
  rw [Pipeline.scopedRest_split_of_list spec2 c [cc2_scratch0] (by decide) (by decide)]
  simp only [Idealize.SL.BI.bigSepL_singleton, scM2, owns_whole]
  try rfl

/-- The invariant before position `n`: at the start what the region hands over; afterwards the accumulator at the
    running sum the point before left, the other scoped buffers at anything, the generator register at some state. -/
def PhiS2 (c : Dev nD) : (n : ℕ) → n ≤ cfg2.N → sProp 𝕄
  | 0, _ => Pipeline.ΦA spec2 c
  | n + 1, hn => iprop((owns (c : Thread nD τ) scM2 fullShare (acc2 V c n hn) ∗ rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop((owns (c : Thread nD τ) scM2 fullShare (acc2 V c n hn) ∗ rest2 c) ∗ (∃ r, prngReg c r)) := rfl

theorem PhiS2_pos (c : Dev nD) (n : ℕ) (h : n ≤ cfg2.N) (hz : n ≠ 0) :
    PhiS2 V c n h = iprop((owns (c : Thread nD τ) scM2 fullShare (acc2 V c (n - 1) (by omega)) ∗ rest2 c) ∗ (∃ r, prngReg c r)) := by
  cases n with
  | zero => exact absurd rfl hz
  | succ n => rfl

/-! ## The proof data -/

/-- The proof data of this pallas_call on core `c`: the arrays as the region finds them; after the body at point
    `t` each input's buffer at its block and the output's at `out2` (consulted only where the tile is written back);
    the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 V c t := by dsimp only [dat2]

/-- Each input window's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

/-! ## The situations, decided over the grid -/

theorem hcondFirst2 : ∀ t : Fin cfg2.N, condFirst2 (grid2.coords t) ↔ t.val % 16 = 0 :=
  (by decide +kernel : ∀ t : Fin grid2.N, condFirst2 (grid2.coords t) ↔ t.val % 16 = 0)
theorem hcondLast2 : ∀ t : Fin cfg2.N, condLast2 (grid2.coords t) ↔ t.val % 16 = 15 :=
  (by decide +kernel : ∀ t : Fin grid2.N, condLast2 (grid2.coords t) ↔ t.val % 16 = 15)

/-- The inputs are never idle; the output tile is idle, and not written back, away from a last depth block, live at one. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬condLast2 (grid2.coords t) → cfg2.idle 3 (grid2.coords t) = true := by decide +kernel
theorem noFlush2_3 : ∀ t : Fin cfg2.N, ¬condLast2 (grid2.coords t) → (cfg2.win 3).flush t = false := by decide +kernel
theorem liveAt2_3 : ∀ t : Fin cfg2.N, condLast2 (grid2.coords t) → cfg2.idle 3 (grid2.coords t) = false := by decide +kernel

/-! ## The body obligation -/

/-- Each window's current staging memref at point t, as the pipeline passes it, and its wholeness. -/
abbrev ms2_0 (t : Fin cfg2.N) : Memref sig .tc .vmem S1024x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .f32 := win2_3.stage (cfg2.slots t 3)
abbrev hs2_3 (t : Fin cfg2.N) : (ms2_3 t).IsWhole := hstage2_3 ((cfg2.slots t 3).cast nbuf2_3)

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

set_option maxHeartbeats 4800000 in
/-- The body at any point. The inputs' buffers hold their blocks; the point's position among the depth blocks says
    which run applies; the invariant hands the body the accumulator (at anything before the first point, at the running
    sum afterwards) and takes it back at this point's running sum; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 16 = 0
  · have hnl : ¬condLast2 (grid2.coords t) := fun h => by have := (hcondLast2 t).mp h; omega
    rw [Dat.leavesExact_idle (dat2 V c) 3 t (idleAt2_3 t hnl) (noFlush2_3 t hnl)]
    rw [acc2_first V c t h0]
    by_cases hz : t.val = 0
    · rw [PhiS2_castSucc V c t, PhiS2_zero V c _ _ hz, PhiA2_eq]
      iintro ⟨⟨⟨HS, Hr⟩, Hg⟩, Ho, ⟨%d0, H0⟩, ⟨%d1, H1⟩, ⟨%d2, H2⟩, ⟨%d3, H3⟩⟩
      iapply (run2_first c (grid2.coords t) ((hcondFirst2 t).mpr h0) hnl (ms2_0 t) (hs2_0 t) (ms2_1 t) (hs2_1 t) (ms2_2 t) (hs2_2 t) (ms2_3 t) (hs2_3 t) scM2 (Memref.isWhole_whole _) (iblk2 V c 0 t) (iblk2 V c 1 t) Set.univ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS, Hr⟩, Hg⟩, Ho, ⟨%d0, H0⟩, ⟨%d1, H1⟩, ⟨%d2, H2⟩, ⟨%d3, H3⟩⟩
      iapply (run2_first c (grid2.coords t) ((hcondFirst2 t).mpr h0) hnl (ms2_0 t) (hs2_0 t) (ms2_1 t) (hs2_1 t) (ms2_2 t) (hs2_2 t) (ms2_3 t) (hs2_3 t) scM2 (Memref.isWhole_whole _) (iblk2 V c 0 t) (iblk2 V c 1 t) Set.univ _)
      isplitl [H0]; · iexact H0
      isplitl [H1]; · iexact H1
      isplitl [HS]; · iexists _; iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
  · have hnf : ¬condFirst2 (grid2.coords t) := fun h => h0 ((hcondFirst2 t).mp h)
    have hz : t.val ≠ 0 := fun e => h0 (by rw [e])
    by_cases h5 : t.val % 16 = 15
    · have hl : condLast2 (grid2.coords t) := (hcondLast2 t).mpr h5
      rw [show (dat2 V c).leavesExact 3 t = owns (c : Thread nD τ) (ms2_3 t) fullShare ((dat2 V c).after 3 t) from by
        unfold Dat.leavesExact; rw [liveAt2_3 t hl], after2_3]
      unfold out2
      rw [acc2_next V c t h0]
      rw [PhiS2_castSucc V c t, PhiS2_pos V c _ _ hz]
      iintro ⟨⟨⟨HS, Hr⟩, Hg⟩, Ho, ⟨%d0, H0⟩, ⟨%d1, H1⟩, ⟨%d2, H2⟩, ⟨%d3, H3⟩⟩
      iapply (run2_last c (grid2.coords t) hnf hl (ms2_0 t) (hs2_0 t) (ms2_1 t) (hs2_1 t) (ms2_2 t) (hs2_2 t) (ms2_3 t) (hs2_3 t) scM2 (Memref.isWhole_whole _) (iblk2 V c 0 t) (iblk2 V c 1 t) (iblk2 V c 2 t) (acc2 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexact H3
    · have hnl : ¬condLast2 (grid2.coords t) := fun h => h5 ((hcondLast2 t).mp h)
      rw [Dat.leavesExact_idle (dat2 V c) 3 t (idleAt2_3 t hnl) (noFlush2_3 t hnl)]
      rw [acc2_next V c t h0]
      rw [PhiS2_castSucc V c t, PhiS2_pos V c _ _ hz]
      iintro ⟨⟨⟨HS, Hr⟩, Hg⟩, Ho, ⟨%d0, H0⟩, ⟨%d1, H1⟩, ⟨%d2, H2⟩, ⟨%d3, H3⟩⟩
      iapply (run2_mid c (grid2.coords t) hnf hnl (ms2_0 t) (hs2_0 t) (ms2_1 t) (hs2_1 t) (ms2_2 t) (hs2_2 t) (ms2_3 t) (hs2_3 t) scM2 (Memref.isWhole_whole _) (iblk2 V c 0 t) (iblk2 V c 1 t) (acc2 V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region hands over is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives back what the region handed over: the accumulator's contents forgotten. -/
theorem hout2 (c : Dev nD) : (dat2 V c).Φ (Fin.last cfg2.N) ⊢ Pipeline.ΦA spec2 c := by
  have hN : cfg2.N = 128 := N_2
  rw [show (dat2 V c).Φ (Fin.last cfg2.N) = PhiS2 V c cfg2.N (Nat.le_refl _) from rfl,
    PhiS2_pos V c cfg2.N _ (by omega), PhiA2_eq]
  iintro ⟨⟨HS, Hr⟩, Hg⟩
  isplitl [HS Hr]
  · isplitl [HS]
    · iexists _; iexact HS
    iexact Hr
  iexact Hg

end Cert.KernelIdeal.Hand

end
-- ==== Proof.KI.Regs.lean ====
/-
  The whole program as a run. @main is ten short stretches of host operations (the zero bias and the paddings), the first
  pallas_call, a stretch that slices its result into the two weight matrices and two bias vectors, the second
  pallas_call, one reshape, the third pallas_call. Between two items every buffer the host sees is held at a
  named valuation: `Wa` before the first call (the host prefix applied to the launch memory), `Wb` after it (the call's
  result array at what its write-backs leave), `Wc` / `Wd` around the second, `We` / `Wf` around the third. The
  run ends with the last call's result array at `(dat2 …).arrAt 3`, and the three arguments as launched, since no item
  writes them.
-/
import proofs.«140522_j83038897701629_1_alg».proof.Proof.KI.Dat0
import proofs.«140522_j83038897701629_1_alg».proof.Proof.KI.Dat1
import proofs.«140522_j83038897701629_1_alg».proof.Proof.KI.Dat2
import proofs.«140522_j83038897701629_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-! ## The buffers' contents at each boundary -/

/-- Before the first pallas_call: the ten host stretches applied to the launch memory. -/
abbrev Wa (c : Dev nD) : Valuation τ sig (Elt F) := Gen.V10 m c
abbrev Va : (c : Dev nD) → (b : Ref sig .tc) → Buf (Elt F) ((c : Thread nD τ).loc b) := fun c b => Wa m c b

/-- After pallas_call 0: its four arrays at what the pipeline's write-backs leave (the inputs as entered, the result
    tile by tile), every other buffer as entered. -/
def Wb (c : Dev nD) : Valuation τ sig (Elt F) :=
  Pipeline.withArrays spec0 c (Wa m c) fun w => (dat0 (Va m) c).arrAt w cfg0.N
theorem Wb_arr (c : Dev nD) (w : Fin cfg0.W) :
    Wb m c (Proc.devRef .tc (Pipeline.arrRef spec0 w)) = (dat0 (Va m) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m c (Proc.devRef .tc b) = Wa m c (Proc.devRef .tc b) := by
  unfold Wb; exact Pipeline.withArrays_of_ne spec0 c _ _ b hb
/-- The same read at the TensorCore's references. -/
abbrev Vb : (c : Dev nD) → (b : Ref sig .tc) → Buf (Elt F) ((c : Thread nD τ).loc b) := fun c b => Wb m c b
theorem hF0 (c : Dev nD) (w : Fin cfg0.W) : (dat0 (Va m) c).arrAt w cfg0.N = Vb m c (Pipeline.arrRef spec0 w) :=
  (Wb_arr m c w).symm
theorem hrest0 (c : Dev nD) : ∀ b, b ∉ Finset.univ.image (Pipeline.arrRef spec0) → Vb m c b = Va m c b :=
  fun b hb => Wb_of_ne m c b fun w e => hb (Finset.mem_image.mpr ⟨w, Finset.mem_univ _, e⟩)

/-- Before the second pallas_call: the slicing stretch applied. -/
abbrev Wc (c : Dev nD) : Valuation τ sig (Elt F) := StableHlo.after hostOps1 (Wb m c)
abbrev Vc : (c : Dev nD) → (b : Ref sig .tc) → Buf (Elt F) ((c : Thread nD τ).loc b) := fun c b => Wc m c b

/-- After pallas_call 1: its four arrays at what the pipeline's write-backs leave (the inputs as entered, the result
    tile by tile), every other buffer as entered. -/
def Wd (c : Dev nD) : Valuation τ sig (Elt F) :=
  Pipeline.withArrays spec1 c (Wc m c) fun w => (dat1 (Vc m) c).arrAt w cfg1.N
theorem Wd_arr (c : Dev nD) (w : Fin cfg1.W) :
    Wd m c (Proc.devRef .tc (Pipeline.arrRef spec1 w)) = (dat1 (Vc m) c).arrAt w cfg1.N := by
  unfold Wd; exact Pipeline.withArrays_arr spec1 launch1.win.arr_inj c _ _ w
theorem Wd_of_ne (c : Dev nD) (b : Ref sig .tc) (hb : ∀ w, Pipeline.arrRef spec1 w ≠ b) :
    Wd m c (Proc.devRef .tc b) = Wc m c (Proc.devRef .tc b) := by
  unfold Wd; exact Pipeline.withArrays_of_ne spec1 c _ _ b hb
/-- The same read at the TensorCore's references. -/
abbrev Vd : (c : Dev nD) → (b : Ref sig .tc) → Buf (Elt F) ((c : Thread nD τ).loc b) := fun c b => Wd m c b
theorem hF1 (c : Dev nD) (w : Fin cfg1.W) : (dat1 (Vc m) c).arrAt w cfg1.N = Vd m c (Pipeline.arrRef spec1 w) :=
  (Wd_arr m c w).symm
theorem hrest1 (c : Dev nD) : ∀ b, b ∉ Finset.univ.image (Pipeline.arrRef spec1) → Vd m c b = Vc m c b :=
  fun b hb => Wd_of_ne m c b fun w e => hb (Finset.mem_image.mpr ⟨w, Finset.mem_univ _, e⟩)

/-- Before the third pallas_call: the last reshape applied. -/
abbrev We (c : Dev nD) : Valuation τ sig (Elt F) := StableHlo.after hostOps2 (Wd m c)
abbrev Ve : (c : Dev nD) → (b : Ref sig .tc) → Buf (Elt F) ((c : Thread nD τ).loc b) := fun c b => We m c b

/-- After pallas_call 2: its four arrays at what the pipeline's write-backs leave (the inputs as entered, the result
    tile by tile), every other buffer as entered. -/
def Wf (c : Dev nD) : Valuation τ sig (Elt F) :=
  Pipeline.withArrays spec2 c (We m c) fun w => (dat2 (Ve m) c).arrAt w cfg2.N
theorem Wf_arr (c : Dev nD) (w : Fin cfg2.W) :
    Wf m c (Proc.devRef .tc (Pipeline.arrRef spec2 w)) = (dat2 (Ve m) c).arrAt w cfg2.N := by
  unfold Wf; exact Pipeline.withArrays_arr spec2 launch2.win.arr_inj c _ _ w
theorem Wf_of_ne (c : Dev nD) (b : Ref sig .tc) (hb : ∀ w, Pipeline.arrRef spec2 w ≠ b) :
    Wf m c (Proc.devRef .tc b) = We m c (Proc.devRef .tc b) := by
  unfold Wf; exact Pipeline.withArrays_of_ne spec2 c _ _ b hb
/-- The same read at the TensorCore's references. -/
abbrev Vf : (c : Dev nD) → (b : Ref sig .tc) → Buf (Elt F) ((c : Thread nD τ).loc b) := fun c b => Wf m c b
theorem hF2 (c : Dev nD) (w : Fin cfg2.W) : (dat2 (Ve m) c).arrAt w cfg2.N = Vf m c (Pipeline.arrRef spec2 w) :=
  (Wf_arr m c w).symm
theorem hrest2 (c : Dev nD) : ∀ b, b ∉ Finset.univ.image (Pipeline.arrRef spec2) → Vf m c b = Ve m c b :=
  fun b hb => Wf_of_ne m c b fun w e => hb (Finset.mem_image.mpr ⟨w, Finset.mem_univ _, e⟩)

/-! ## The proof data family and the thread state -/

/-- No pallas_call has a prefetched table. -/
abbrev adm : (p : Fin 3) → (pcfgs (F := F) p).Adm := fun p => (cfgs p).toPCfg_adm
/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => dat0 (Va m) c
  | ⟨1, _⟩ => fun c => dat1 (Vc m) c
  | ⟨2, _⟩ => fun c => dat2 (Ve m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- The same as a family indexed by the position among the calls (the generated host segments take it so). -/
abbrev Efam : Fin 4 → Dev nD → sProp 𝕄 := fun _ c => R c
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The three pallas_calls as segments -/

set_option backward.isDefEq.respectTransparency.types false in
/-- Pallas_call 0 as a segment of @main: entered with every unscoped buffer at `Wa`, left with them at `Wb`.
    Its four arrays are split out of the unscoped buffers on entry and put back, at what the write-backs left, on exit;
    the generator register goes into the kernel's invariant and comes back; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m) c).loose
  hwaits := Pipeline.hwaits_of_owed_zero _ _ _ _ L lv 0 fun _ _ => rfl
  pre c := iprop(StableHlo.held (c : Thread nD τ) (Pipeline.ucRefs τ sig) (Wa m c) ∗ R c)
  post c := iprop(StableHlo.held (c : Thread nD τ) (Pipeline.ucRefs τ sig) (Wb m c) ∗ R c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (Va m) c)
    unfold Pipeline.ΦA
    iintro ⟨Hp, -, Hr⟩
    isplitl [Hr]; · iexact Hr
    iexact Hp
  hout c := by
    rw [Pipeline.ownSems0_none]
    refine (hout0 (Va m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va m c) (Vb m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 as a segment of @main: entered with every unscoped buffer at `Wc`, left with them at `Wd`.
    Its four arrays are split out of the unscoped buffers on entry and put back, at what the write-backs left, on exit;
    the generator register goes into the kernel's invariant and comes back; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vc m) c).loose
  hwaits := Pipeline.hwaits_of_owed_zero _ _ _ _ L lv 1 fun _ _ => rfl
  pre c := iprop(StableHlo.held (c : Thread nD τ) (Pipeline.ucRefs τ sig) (Wc m c) ∗ R c)
  post c := iprop(StableHlo.held (c : Thread nD τ) (Pipeline.ucRefs τ sig) (Wd m c) ∗ R c)
  X c := iprop(∃ r, prngReg c r)
  Y c := iprop(∃ r, prngReg c r)
  Z c := Pipeline.unscopedRest (Ix := Unit) (Name := ℕ) (U := UR sig nD τ) (Lvl := ℕ) spec1 c (Vc m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vc m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (Vc m) c)
    unfold Pipeline.ΦA
    iintro ⟨Hp, -, Hr⟩
    isplitl [Hr]; · iexact Hr
    iexact Hp
  hout c := by
    rw [Pipeline.ownSems0_none]
    refine (hout1 (Vc m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vc m c) (Vd m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 2 as a segment of @main: entered with every unscoped buffer at `We`, left with them at `Wf`.
    Its four arrays are split out of the unscoped buffers on entry and put back, at what the write-backs left, on exit;
    the generator register goes into the kernel's invariant and comes back; nothing is owed; the kernel has no
    semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ve m) c).loose
  hwaits := Pipeline.hwaits_of_owed_zero _ _ _ _ L lv 2 fun _ _ => rfl
  pre c := iprop(StableHlo.held (c : Thread nD τ) (Pipeline.ucRefs τ sig) (We m c) ∗ R c)
  post c := iprop(StableHlo.held (c : Thread nD τ) (Pipeline.ucRefs τ sig) (Wf m c) ∗ R c)
  X c := iprop(∃ r, prngReg c r)
  Y c := iprop(∃ r, prngReg c r)
  Z c := Pipeline.unscopedRest (Ix := Unit) (Name := ℕ) (U := UR sig nD τ) (Lvl := ℕ) spec2 c (Ve m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Ve m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (Ve m) c)
    unfold Pipeline.ΦA
    iintro ⟨Hp, -, Hr⟩
    isplitl [Hr]; · iexact Hr
    iexact Hp
  hout c := by
    rw [Pipeline.ownSems0_none]
    refine (hout2 (Ve m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Ve m c) (Vf m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The arguments are never written -/

theorem Wa_arg (c : Dev nD) (r : Ref sig .tc) (h0 : r ∉ Gen.hostOps0_W) (h1 : r ∉ Gen.hostOps0_1_W) (h2 : r ∉ Gen.hostOps0_2_W)
    (h3 : r ∉ Gen.hostOps0_3_W) (h4 : r ∉ Gen.hostOps0_4_W) (h5 : r ∉ Gen.hostOps0_5_W) (h6 : r ∉ Gen.hostOps0_6_W)
    (h7 : r ∉ Gen.hostOps0_7_W) (h8 : r ∉ Gen.hostOps0_8_W) (h9 : r ∉ Gen.hostOps0_9_W) :
    Wa m c r = m ((c : Thread nD τ).loc r) :=
  (Gen.V10_of m c r h9).trans <| (Gen.V9_of m c r h8).trans <| (Gen.V8_of m c r h7).trans <| (Gen.V7_of m c r h6).trans <|
    (Gen.V6_of m c r h5).trans <| (Gen.V5_of m c r h4).trans <| (Gen.V4_of m c r h3).trans <| (Gen.V3_of m c r h2).trans <|
    (Gen.V2_of m c r h1).trans <| (Gen.V1_of m c r h0).trans rfl

/-! ## The arguments are never written -/

/-- A buffer that the slicing stretch, the last reshape and the three calls leave alone keeps, to the end, what it
    held before the first call. -/
theorem Wf_keep (c : Dev nD) (r : Ref sig .tc) (h2 : ∀ w, Pipeline.arrRef spec2 w ≠ r) (hh2 : r ∉ Gen.hostOps2_W)
    (h1 : ∀ w, Pipeline.arrRef spec1 w ≠ r) (hh1 : r ∉ Gen.hostOps1_W) (h0 : ∀ w, Pipeline.arrRef spec0 w ≠ r) :
    Wf m c (Proc.devRef .tc r) = Wa m c (Proc.devRef .tc r) :=
  (Wf_of_ne m c r h2).trans <| (StableHlo.after_of_writes_sub hostOps2 _ Gen.hostOps2_writes hh2).trans <|
    (Wd_of_ne m c r h1).trans <| (StableHlo.after_of_writes_sub hostOps1 _ Gen.hostOps1_writes hh1).trans <| Wb_of_ne m c r h0

theorem Wf_main_arg1 (c : Dev nD) : Wf m c (Proc.devRef .tc main_arg1) = m ((c : Thread nD τ).loc main_arg1) :=
  (Wf_keep m c main_arg1 (by decide) (by decide) (by decide) (by decide) (by decide)).trans
    (Wa_arg m c main_arg1 (by decide) (by decide) (by decide) (by decide) (by decide) (by decide) (by decide) (by decide) (by decide) (by decide))
theorem Wf_main_arg2 (c : Dev nD) : Wf m c (Proc.devRef .tc main_arg2) = m ((c : Thread nD τ).loc main_arg2) :=
  (Wf_keep m c main_arg2 (by decide) (by decide) (by decide) (by decide) (by decide)).trans
    (Wa_arg m c main_arg2 (by decide) (by decide) (by decide) (by decide) (by decide) (by decide) (by decide) (by decide) (by decide) (by decide))
/-- The first argument is the second call's left operand: an input window's array, which no write-back touches. -/
theorem Wf_main_arg0 (c : Dev nD) : Wf m c (Proc.devRef .tc main_arg0) = m ((c : Thread nD τ).loc main_arg0) :=
  (Wf_of_ne m c main_arg0 (by decide)).trans <| (StableHlo.after_of_writes_sub hostOps2 _ Gen.hostOps2_writes (by decide)).trans <|
    (Wd_arr m c 0).trans <| ((dat1 (Vc m) c).arrAt_in 0 rfl _).trans <| (A_eq1 (Vc m) c 0).trans <|
    (StableHlo.after_of_writes_sub hostOps1 _ Gen.hostOps1_writes (by decide)).trans <| (Wb_of_ne m c main_arg0 (by decide)).trans <|
    Wa_arg m c main_arg0 (by decide) (by decide) (by decide) (by decide) (by decide) (by decide) (by decide) (by decide) (by decide) (by decide)

/-! ## @main as segments, and the run -/

/-- @main's fifteen items in order. -/
abbrev segs : List (Pipeline.Seg (pcfgs (F := F)) adm (pdats m) () defs₀ 𝒱₀ L lv) :=
  [ .host (Gen.seg0 m 𝒱₀ L lv Efam), .host (Gen.seg1 m 𝒱₀ L lv Efam), .host (Gen.seg2 m 𝒱₀ L lv Efam), .host (Gen.seg3 m 𝒱₀ L lv Efam), .host (Gen.seg4 m 𝒱₀ L lv Efam), .host (Gen.seg5 m 𝒱₀ L lv Efam), .host (Gen.seg6 m 𝒱₀ L lv Efam), .host (Gen.seg7 m 𝒱₀ L lv Efam), .host (Gen.seg8 m 𝒱₀ L lv Efam), .host (Gen.seg9 m 𝒱₀ L lv Efam),
    .region (reg0 m),
    .host (hseg hostOps1 hostOps1_sub Gen.hostOps1_fresh (Wb m)),
    .region (reg1 m),
    .host (hseg hostOps2 hostOps2_sub Gen.hostOps2_fresh (Wd m)),
    .region (reg2 m) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main terminates, nothing faulting, with
    the result array at what the third call's write-backs leave and the three arguments as launched. -/
theorem run_val (ρ : Dev nD → PrngReg) : θ_run defs (onTc (τ := τ) (main (F := F))) ⟨m, fun _ => 0, ρ⟩ (fun r => ∀ c : Dev nD,
      r.2.mem ((c.tc : Thread nD τ).loc main_v19) = (dat2 (Ve m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Wf m c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun c => by
        show iprop(StableHlo.held (c : Thread nD τ) (Pipeline.ucRefs τ sig) (Wf m c) ∗ R c) ⊢ _
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wf m c b)
    (hfin := fun c s' => by
      iintro ⟨⟨Hh, -⟩, HSI⟩
      unfold StableHlo.held
      imodintro
      iapply (pointsTo_read_all (Pipeline.ucRefs τ sig) (fun b => (((c : Thread nD τ)).1, b)) (Wf m c) s')
      isplitl [Hh] <;> iassumption)
    (hQ := fun s h c =>
      ⟨(h c _ (mem_uc main_v19 (by decide))).trans (Wf_arr m c 3),
       (h c _ (mem_uc main_arg0 (by decide))).trans (Wf_main_arg0 m c),
       (h c _ (mem_uc main_arg1 (by decide))).trans (Wf_main_arg1 m c),
       (h c _ (mem_uc main_arg2 (by decide))).trans (Wf_main_arg2 m c)⟩)

end Cert.KernelIdeal.Hand

end
-- ==== Proof.Spec.lean ====
/-
  The mathematics both programs compute, entry by entry, on the extended reals.

  For a left matrix `A` (rows × depth) and a right matrix `B` (columns × depth), `mmT A B` is the product of `A` with the
  transpose of `B`: entry (p, q) is the sum over the depth k of A(p, k) · B(q, k). A linear layer adds a bias row
  to every row of that product (`lin`), and the rectified one takes the maximum with zero afterwards (`linRelu`).
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- Entry (p, q) of A · Bᵀ: the sum over the shared depth k of A(p, k) · B(q, k). -/
def mmT {R K C : ℕ} (A : (⟨2, ![R, K]⟩ : Shape).Idx → EReal) (B : (⟨2, ![C, K]⟩ : Shape).Idx → EReal) :
    (⟨2, ![R, C]⟩ : Shape).Idx → EReal :=
  fun j => ∑ k : Fin K, A (ix2 (j 0) k) * B (ix2 (j 1) k)

/-- A linear layer: A · Bᵀ with the bias row `b` (one row, one entry per column) added to every row. -/
def lin {R K C : ℕ} (A : (⟨2, ![R, K]⟩ : Shape).Idx → EReal) (B : (⟨2, ![C, K]⟩ : Shape).Idx → EReal)
    (b : (⟨2, ![1, C]⟩ : Shape).Idx → EReal) : (⟨2, ![R, C]⟩ : Shape).Idx → EReal :=
  fun j => mmT A B j + b (ix2 0 (j 1))

/-- The rectified linear layer: the maximum of the linear layer's entry and zero. -/
def linRelu {R K C : ℕ} (A : (⟨2, ![R, K]⟩ : Shape).Idx → EReal) (B : (⟨2, ![C, K]⟩ : Shape).Idx → EReal)
    (b : (⟨2, ![1, C]⟩ : Shape).Idx → EReal) : (⟨2, ![R, C]⟩ : Shape).Idx → EReal :=
  fun j => max (lin A B b j) 0

theorem mmT_apply {R K C : ℕ} (A : (⟨2, ![R, K]⟩ : Shape).Idx → EReal) (B : (⟨2, ![C, K]⟩ : Shape).Idx → EReal)
    (p : Fin R) (q : Fin C) : mmT A B (ix2 p q) = ∑ k : Fin K, A (ix2 p k) * B (ix2 q k) := rfl

theorem lin_apply {R K C : ℕ} (A : (⟨2, ![R, K]⟩ : Shape).Idx → EReal) (B : (⟨2, ![C, K]⟩ : Shape).Idx → EReal)
    (b : (⟨2, ![1, C]⟩ : Shape).Idx → EReal) (p : Fin R) (q : Fin C) :
    lin A B b (ix2 p q) = (∑ k : Fin K, A (ix2 p k) * B (ix2 q k)) + b (ix2 0 q) := rfl

theorem linRelu_apply {R K C : ℕ} (A : (⟨2, ![R, K]⟩ : Shape).Idx → EReal) (B : (⟨2, ![C, K]⟩ : Shape).Idx → EReal)
    (b : (⟨2, ![1, C]⟩ : Shape).Idx → EReal) (p : Fin R) (q : Fin C) :
    linRelu A B b (ix2 p q) = max ((∑ k : Fin K, A (ix2 p k) * B (ix2 q k)) + b (ix2 0 q)) 0 := rfl

end Cert.Spec

end
-- ==== Proof.LibPlainDot.lean ====
/-
  A plain two-dimensional matrix product read at an entry.

  For a dot whose dimension numbers are those of `rows × contraction` times `contraction × columns` — left
  contracting axis 1, right contracting axis 0, the remaining left axis then the remaining right axis as the result's
  axes, no batch axis — the left operand's index at result entry `(p, q)` and contraction position `k` is `(p, k)`,
  the right operand's is `(k, q)`. So, on the extended reals, a kernel's `matmul` into the zero accumulator and a
  host `dot_general` are both the textbook sum `∑ k, l (p, k) * r (k, q)` over `k : Fin K`.

  The dimension record is a variable; its printed fields enter as hypotheses (each is `rfl` for a printed record).
-/
import Idealize.ShloMosaic.PureOps.Ideal
import Idealize.ShloMosaic.PureOps.Ideal.Laws
import Idealize.ShloMosaic.Lib.ValueIdx

noncomputable section

namespace Cert.PlainDot

open Idealize.ShloMosaic Idealize.ShloMosaic.ValueIdx

variable {R K C : ℕ} (d : DotDims (⟨2, ![R, K]⟩ : Shape) (⟨2, ![K, C]⟩ : Shape) (⟨2, ![R, C]⟩ : Shape))

/-- A coordinate of an index depends only on the axis' position. -/
private theorem coord_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hlb : d.lhsBatch = []) (hln : d.lhsNonContracting = [0])
    (j : (⟨2, ![R, C]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The left operand's column is the contraction position. -/
theorem lhs_col (hlc : d.lhsContracting = [1]) (j : (⟨2, ![R, C]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![R, C]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0]) (hrn : d.rhsNonContracting = [1])
    (j : (⟨2, ![R, C]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- The contraction shape has one axis, of extent `K`. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  rw [d.size_contr 0 (by rw [hlc]; exact Nat.one_pos)]
  simp [hlc]

/-- THE SUM over the dot's own contraction index, re-indexed by `k : Fin K` with the operands read at `(p, k)` and `(k, q)`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![R, K]⟩ : Shape).Idx → EReal) (r : (⟨2, ![K, C]⟩ : Shape).Idx → EReal) (p : Fin R) (q : Fin C) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_row d hlb hln _ _
    | ⟨1, _⟩ => exact (lhs_col d hlc _ _).trans hk
  have er : d.rhsIdx (ix2 p q) ((contrEquiv1 d K (contr_rank d hlc) (contr_size d hlc)).symm k) = ix2 k q := by
    funext a; apply Fin.ext
    match a with
    | ⟨0, _⟩ => exact (rhs_row d hrc _ _).trans hk
    | ⟨1, _⟩ => exact rhs_col d hlb hrb hln hrn _ _
  rw [el, er]

/-- A kernel's matrix product into the zero accumulator, at an entry, on the extended reals. -/
theorem matmul_zero_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision)
    (l : FVec Ideal (⟨2, ![R, K]⟩ : Shape) φ₁) (r : FVec Ideal (⟨2, ![K, C]⟩ : Shape) φ₂) (p : Fin R) (q : Fin C) :
    FloatOps.matmul d prec l r (constant (⟨2, ![R, C]⟩ : Shape) .f32 0x00000000#32) (ix2 p q) = ∑ k : Fin K, l (ix2 p k) * r (ix2 k q) :=
  (Ideal.matmul_constant_zero_apply d prec l r (ix2 p q)).trans (sum_contr d hlc hrc hln hrn hlb hrb l r p q)

/-- The host's `dot_general`, at an entry, on the extended reals: the same sum. -/
theorem dotGeneral_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision) (sched : HostSchedule)
    (l : FVec Ideal (⟨2, ![R, K]⟩ : Shape) φ₁) (r : FVec Ideal (⟨2, ![K, C]⟩ : Shape) φ₂) (p : Fin R) (q : Fin C) :
    FloatOps.dotGeneral d prec sched l r (ix2 p q) = ∑ k : Fin K, l (ix2 p k) * r (ix2 k q) :=
  (Ideal.dotGeneral_apply d prec sched l r (ix2 p q)).trans (sum_contr d hlc hrc hln hrn hlb hrb l r p q)

end Cert.PlainDot

end
-- ==== Proof.KI.PayVal.lean ====
/-
  Each value the three kernels store, read at an entry on the extended reals.

  The first stored value of every kernel is the zero tile. The second is the running tile plus the product of the
  left block with the transpose of the right block: entry (p, q) gains the sum over j of a(p, j) · b(q, j). The third
  adds the bias row to every row of the finished tile; the middle kernel then takes the maximum with zero.
-/
import proofs.«140522_j83038897701629_1_alg».proof.Proof.Gen.KernelIdeal.Skeleton
import proofs.«140522_j83038897701629_1_alg».proof.Proof.LibPlainDot
import proofs.«140522_j83038897701629_1_alg».proof.Proof.Spec
import Idealize.ShloMosaic.Lib.ValueIdx
import Idealize.ShloMosaic.Lib.Pipeline.Value
import Idealize.ShloMosaic.PureOps.Ideal
import Idealize.ShloMosaic.PureOps.Ideal.Laws

noncomputable section

open scoped BigOperators

namespace Cert.KernelIdeal.PayVal

open Cert.KernelIdeal Cert.KernelIdeal.Gen Idealize.ShloMosaic Idealize.ShloMosaic.ValueIdx

/-- The transposed right block at (j, q) is the block at (q, j). -/
theorem transpose_ix2 {α : Type} (b : S1024x512.Idx → α) (h : S1024x512.Transposes [1, 0] S512x1024)
    (j : Fin 512) (q : Fin 1024) : transpose S512x1024 [1, 0] b h (ix2 j q) = b (ix2 q j) :=
  transpose_apply [1, 0] b h (ix2 j q) (ix2 q j) (fun a => match a with | ⟨0, _⟩ => rfl | ⟨1, _⟩ => rfl)

/-- The bias row broadcast to the tile, at (p, q), is the row's entry q. -/
theorem broadcastTo_ix2 {α : Type} (x : S1x1024.Idx → α) (h : S1x1024.Broadcasts S1024x1024)
    (p q : Fin 1024) : broadcastTo S1024x1024 x h (ix2 p q) = x (ix2 0 q) :=
  broadcastTo_apply x h (ix2 p q) (ix2 0 q) (fun a => match a with | ⟨0, _⟩ => rfl | ⟨1, _⟩ => rfl)

/-- The tile's update by one block product, over variables: the running entry plus the sum over the block's depth. -/
theorem acc_step {φ₁ φ₂ : FTy} (l : FVec Ideal S1024x512 φ₁) (b : FVec Ideal S1024x512 φ₂)
    (h : S1024x512.Transposes [1, 0] S512x1024) (s : FVec Ideal S1024x1024 .f32) (p q : Fin 1024) :
    addf s (matmul dot_S1024x512_S512x1024_S1024x1024_1_0_0_1_n_n none l (transpose S512x1024 [1, 0] b h)
      (constant S1024x1024 .f32 0x00000000#32)) (ix2 p q)
      = s (ix2 p q) + ∑ j : Fin 512, l (ix2 p j) * b (ix2 q j) := by
  refine congrArg (fun t => s (ix2 p q) + t) ?_
  refine (Cert.PlainDot.matmul_zero_apply dot_S1024x512_S512x1024_S1024x1024_1_0_0_1_n_n rfl rfl rfl rfl rfl rfl none l
    (transpose S512x1024 [1, 0] b h) p q).trans ?_
  exact Finset.sum_congr rfl (fun j _ => congrArg (fun t => l (ix2 p j) * t) (transpose_ix2 b h j q))

theorem pay0_zero (p q : Fin 1024) : (k0_pay1 (F := Ideal)) (ix2 p q) = 0 := by
  unfold k0_pay1
  simp only [shapeCast_self]
  exact Ideal.ofBits_zero_f32

theorem pay1_zero (p q : Fin 1024) : (k1_pay1 (F := Ideal)) (ix2 p q) = 0 := by
  unfold k1_pay1
  simp only [shapeCast_self]
  exact Ideal.ofBits_zero_f32

theorem pay2_zero (p q : Fin 1024) : (k2_pay1 (F := Ideal)) (ix2 p q) = 0 := by
  unfold k2_pay1
  simp only [shapeCast_self]
  exact Ideal.ofBits_zero_f32

theorem pay0_acc (a : Vec Ideal S1024x512 .f32) (b : Vec Ideal S1024x512 .f32) (s : Vec Ideal S1024x1024 .f32)
    (p q : Fin 1024) : k0_pay2 a b s (ix2 p q) = s (ix2 p q) + ∑ j : Fin 512, a (ix2 p j) * b (ix2 q j) := by
  unfold k0_pay2
  simp only [shapeCast_self]
  exact acc_step (φ₁ := .bf16) (φ₂ := .bf16) a b _ s p q

theorem pay1_acc (a : Vec Ideal S1024x512 .f32) (b : Vec Ideal S1024x512 .f32) (s : Vec Ideal S1024x1024 .f32)
    (p q : Fin 1024) : k1_pay2 a b s (ix2 p q) = s (ix2 p q) + ∑ j : Fin 512, a (ix2 p j) * b (ix2 q j) := by
  unfold k1_pay2
  simp only [shapeCast_self]
  exact acc_step (φ₁ := .bf16) (φ₂ := .bf16) a b _ s p q

theorem pay2_acc (a : Vec Ideal S1024x512 .bf16) (b : Vec Ideal S1024x512 .f32) (s : Vec Ideal S1024x1024 .f32)
    (p q : Fin 1024) : k2_pay2 a b s (ix2 p q) = s (ix2 p q) + ∑ j : Fin 512, a (ix2 p j) * b (ix2 q j) := by
  unfold k2_pay2
  simp only [shapeCast_self]
  exact acc_step (φ₁ := .bf16) (φ₂ := .bf16) a b _ s p q

theorem pay0_out (acc : Vec Ideal S1024x1024 .f32) (bias : Vec Ideal S1x1024 .f32) (p q : Fin 1024) :
    k0_pay3 acc bias (ix2 p q) = acc (ix2 p q) + bias (ix2 0 q) := by
  unfold k0_pay3
  simp only [shapeCast_self]
  exact congrArg (fun t => acc (ix2 p q) + t) (broadcastTo_ix2 bias _ p q)

theorem pay1_out (acc : Vec Ideal S1024x1024 .f32) (bias : Vec Ideal S1x1024 .f32) (p q : Fin 1024) :
    k1_pay3 acc bias (ix2 p q) = max (acc (ix2 p q) + bias (ix2 0 q)) 0 := by
  unfold k1_pay3
  simp only [shapeCast_self]
  show max (acc (ix2 p q) + broadcastTo S1024x1024 bias _ (ix2 p q)) (Ideal.ofBits .f32 0x00000000#32) = _
  rw [broadcastTo_ix2, Ideal.ofBits_zero_f32]

theorem pay2_out (acc : Vec Ideal S1024x1024 .f32) (bias : Vec Ideal S1x1024 .f32) (p q : Fin 1024) :
    k2_pay3 acc bias (ix2 p q) = acc (ix2 p q) + bias (ix2 0 q) := by
  unfold k2_pay3
  simp only [shapeCast_self]
  exact congrArg (fun t => acc (ix2 p q) + t) (broadcastTo_ix2 bias _ p q)

end Cert.KernelIdeal.PayVal

end
-- ==== Proof.SumBlocks.lean ====
/-
  Sums over a range of length nb · bs regrouped into nb consecutive blocks of length bs, and a running
  accumulator read as a finite sum.
-/
import Mathlib.Algebra.BigOperators.Fin
import Mathlib.Algebra.BigOperators.Group.Finset.Basic
import Mathlib.Data.Fintype.BigOperators
import Mathlib.Data.EReal.Basic
import Mathlib.Logic.Equiv.Fin.Basic
import proofs.«140522_j83038897701629_1_alg».proof.Proof.Spec

open scoped BigOperators

namespace Cert.SumBlocks

/-- A sum over k < nb · bs splits as the sum over the block a < nb of the sum over the offset b < bs, with
k = a · bs + b. -/
theorem sum_blocks (nb bs : ℕ) (f : ℕ → EReal) :
    ∑ k : Fin (nb * bs), f k.val = ∑ a : Fin nb, ∑ b : Fin bs, f (a.val * bs + b.val) := by
  rw [← (finProdFinEquiv (m := nb) (n := bs)).sum_comp (fun k => f k.val), Fintype.sum_prod_type]
  refine Finset.sum_congr rfl (fun a _ => Finset.sum_congr rfl (fun b _ => ?_))
  simp only [finProdFinEquiv_apply_val]
  congr 1
  rw [Nat.mul_comm, Nat.add_comm]

/-- An accumulator that starts at 0 + s 0 and adds s (n + 1) at step n + 1 holds the sum of s over 0..n. -/
theorem chain_sum (s : ℕ → EReal) (acc : ℕ → EReal) (h0 : acc 0 = 0 + s 0)
    (hs : ∀ n, acc (n + 1) = acc n + s (n + 1)) (n : ℕ) :
    acc n = ∑ k ∈ Finset.range (n + 1), s k := by
  induction n with
  | zero => rw [h0, zero_add, Finset.sum_range_one]
  | succ n ih => rw [hs, ih, Finset.sum_range_succ _ (n + 1)]

/-- A sum over the range below n is the sum over Fin n. -/
theorem sum_range_fin (n : ℕ) (s : ℕ → EReal) :
    ∑ k ∈ Finset.range n, s k = ∑ k : Fin n, s k.val :=
  (Fin.sum_univ_eq_sum_range s n).symm

end Cert.SumBlocks
-- ==== Proof.KI.Val0.lean ====
/-
  The value of the first kernel's result array, on the extended reals.

  The grid is (row tile i, column tile j, depth block k) in 6 × 6 × 6, walked with k fastest: point t = 36 i + 6 j + k.
  At point t the kernel reads block (i, k) of the left matrix A (1024 rows from row 1024 i, 512 columns from column
  512 k), block (j, k) of the right matrix B and block (0, j) of the bias row. The accumulator after point t holds, at
  (p, q), the sum over the depth blocks k' ≤ k and the 512 columns jj of a block of
  A(1024 i + p, 512 k' + jj) · B(1024 j + q, 512 k' + jj). At the last depth block the tile written back is that sum
  plus bias(0, 1024 j + q). Regrouping the 6 × 512 terms as one sum over 3072 columns, the tile is block (i, j) of
  A · Bᵀ plus the bias row; the 36 tiles written back cover the 6144 × 6144 array.
-/
import proofs.«140522_j83038897701629_1_alg».proof.Proof.KI.Dat0
import proofs.«140522_j83038897701629_1_alg».proof.Proof.Gen.KernelIdeal.Points
import proofs.«140522_j83038897701629_1_alg».proof.Proof.Spec
import proofs.«140522_j83038897701629_1_alg».proof.Proof.KI.PayVal
import proofs.«140522_j83038897701629_1_alg».proof.Proof.SumBlocks
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The three arrays the first kernel reads, as the region finds them: the left matrix, the right matrix, the bias row. -/
abbrev A0 (c : Dev nD) : Vec Ideal S6144x3072 .f32 := V c main_v2
abbrev B0 (c : Dev nD) : Vec Ideal S6144x3072 .f32 := V c main_v4
abbrev bias0 (c : Dev nD) : Vec Ideal S1x6144 .f32 := V c main_v6

/-! ## A matrix read at natural-number coordinates -/

/-- A matrix entry at natural-number coordinates: the entry inside the matrix, 0 outside. -/
def ext2 {R C : ℕ} (f : (⟨2, ![R, C]⟩ : Shape).Idx → EReal) (P Q : ℕ) : EReal :=
  if h : P < R ∧ Q < C then f (ix2 ⟨P, h.1⟩ ⟨Q, h.2⟩) else 0

theorem ext2_of_lt {R C : ℕ} (f : (⟨2, ![R, C]⟩ : Shape).Idx → EReal) (P Q : ℕ) (hP : P < R) (hQ : Q < C) :
    ext2 f P Q = f (ix2 ⟨P, hP⟩ ⟨Q, hQ⟩) := dif_pos ⟨hP, hQ⟩

theorem ext2_fin {R C : ℕ} (f : (⟨2, ![R, C]⟩ : Shape).Idx → EReal) (p : Fin R) (q : Fin C) :
    ext2 f p.val q.val = f (ix2 p q) := ext2_of_lt f p.val q.val p.isLt q.isLt

/-! ## The schedule: each window's block index at a point -/

theorem idx0_0 : ∀ t : Fin cfg0.N, win0_0.index t 0 = t.val / 36 ∧ win0_0.index t 1 = t.val % 6 :=
  (by decide +kernel : ∀ t : Fin grid0.N, win0_0.index t 0 = t.val / 36 ∧ win0_0.index t 1 = t.val % 6)
theorem idx0_1 : ∀ t : Fin cfg0.N, win0_1.index t 0 = t.val / 6 % 6 ∧ win0_1.index t 1 = t.val % 6 :=
  (by decide +kernel : ∀ t : Fin grid0.N, win0_1.index t 0 = t.val / 6 % 6 ∧ win0_1.index t 1 = t.val % 6)
theorem idx0_2 : ∀ t : Fin cfg0.N, win0_2.index t 0 = 0 ∧ win0_2.index t 1 = t.val / 6 % 6 :=
  (by decide +kernel : ∀ t : Fin grid0.N, win0_2.index t 0 = 0 ∧ win0_2.index t 1 = t.val / 6 % 6)
theorem idx0_3 : ∀ t : Fin cfg0.N, win0_3.index t 0 = t.val / 36 ∧ win0_3.index t 1 = t.val / 6 % 6 :=
  (by decide +kernel : ∀ t : Fin grid0.N, win0_3.index t 0 = t.val / 36 ∧ win0_3.index t 1 = t.val / 6 % 6)

/-! ## A block's entry is an entry of its array -/

theorem ablk0_apply (c : Dev nD) (t : Fin cfg0.N) (p : Fin 1024) (jj : Fin 512) :
    ablk0 V c t (ix2 p jj) = ext2 (A0 V c) (t.val / 36 * 1024 + p.val) (t.val % 6 * 512 + jj.val) := by
  have hN : cfg0.N = 216 := N_0
  have ht := t.isLt
  rw [ext2_of_lt _ _ _ (by have := p.isLt; omega) (by have := jj.isLt; omega)]
  unfold ablk0 iblk0
  rw [View.read_apply]
  show V c main_v2 _ = V c main_v2 _
  congr 1
  funext a
  apply Fin.ext
  match a with
  | ⟨0, _⟩ => show win0_0.index t 0 * 1024 + 1 * p.val = t.val / 36 * 1024 + p.val; rw [(idx0_0 t).1]; omega
  | ⟨1, _⟩ => show win0_0.index t 1 * 512 + 1 * jj.val = t.val % 6 * 512 + jj.val; rw [(idx0_0 t).2]; omega

theorem bblk0_apply (c : Dev nD) (t : Fin cfg0.N) (q : Fin 1024) (jj : Fin 512) :
    bblk0 V c t (ix2 q jj) = ext2 (B0 V c) (t.val / 6 % 6 * 1024 + q.val) (t.val % 6 * 512 + jj.val) := by
  have hN : cfg0.N = 216 := N_0
  have ht := t.isLt
  rw [ext2_of_lt _ _ _ (by have := q.isLt; omega) (by have := jj.isLt; omega)]
  unfold bblk0 iblk0
  rw [View.read_apply]
  show V c main_v4 _ = V c main_v4 _
  congr 1
  funext a
  apply Fin.ext
  match a with
  | ⟨0, _⟩ => show win0_1.index t 0 * 1024 + 1 * q.val = t.val / 6 % 6 * 1024 + q.val; rw [(idx0_1 t).1]; omega
  | ⟨1, _⟩ => show win0_1.index t 1 * 512 + 1 * jj.val = t.val % 6 * 512 + jj.val; rw [(idx0_1 t).2]; omega

theorem biasblk0_apply (c : Dev nD) (t : Fin cfg0.N) (q : Fin 1024) :
    biasblk0 V c t (ix2 0 q) = ext2 (bias0 V c) 0 (t.val / 6 % 6 * 1024 + q.val) := by
  have hN : cfg0.N = 216 := N_0
  have ht := t.isLt
  rw [ext2_of_lt _ _ _ (by omega) (by have := q.isLt; omega)]
  unfold biasblk0 iblk0
  rw [View.read_apply]
  show V c main_v6 _ = V c main_v6 _
  congr 1
  funext a
  apply Fin.ext
  match a with
  | ⟨0, _⟩ => show win0_2.index t 0 * 1 + 1 * 0 = 0; rw [(idx0_2 t).1]
  | ⟨1, _⟩ => show win0_2.index t 1 * 1024 + 1 * q.val = t.val / 6 % 6 * 1024 + q.val; rw [(idx0_2 t).2]; omega

/-! ## The accumulator's value -/

/-- Depth block k' of entry (1024 i + p, 1024 j + q) of A · Bᵀ: the 512 products of its columns. -/
def part0 (c : Dev nD) (i j k' p q : ℕ) : EReal :=
  ∑ jj : Fin 512, ext2 (A0 V c) (i * 1024 + p) (k' * 512 + jj.val) * ext2 (B0 V c) (j * 1024 + q) (k' * 512 + jj.val)

/-- One point's step: the accumulator's entry grows by the point's own depth block. -/
theorem step0_apply (c : Dev nD) (t : Fin cfg0.N) (s : Vec Ideal S1024x1024 .f32) (p q : Fin 1024) :
    k0_pay2 (ablk0 V c t) (bblk0 V c t) s (ix2 p q)
      = s (ix2 p q) + part0 V c (t.val / 36) (t.val / 6 % 6) (t.val % 6) p.val q.val := by
  rw [Cert.KernelIdeal.PayVal.pay0_acc]
  unfold part0
  refine congrArg _ (Finset.sum_congr rfl fun jj _ => ?_)
  rw [ablk0_apply, bblk0_apply]

/-- At a first depth block the accumulator holds that block alone. -/
theorem acc0_first_apply (c : Dev nD) (t : Fin cfg0.N) (h6 : t.val % 6 = 0) (p q : Fin 1024) :
    acc0 V c t.val t.isLt (ix2 p q)
      = ∑ k' ∈ Finset.range (t.val % 6 + 1), part0 V c (t.val / 36) (t.val / 6 % 6) k' p.val q.val := by
  rw [acc0_first V c t h6, step0_apply, Cert.KernelIdeal.PayVal.pay0_zero, zero_add, h6, zero_add, Finset.sum_range_one]

/-- After point n the accumulator holds the depth blocks up to n's own of its tile's entries. -/
theorem acc0_apply (c : Dev nD) : ∀ (n : ℕ) (hn : n < cfg0.N) (p q : Fin 1024),
    acc0 V c n hn (ix2 p q) = ∑ k' ∈ Finset.range (n % 6 + 1), part0 V c (n / 36) (n / 6 % 6) k' p.val q.val := by
  intro n
  induction n with
  | zero => exact fun hn p q => acc0_first_apply V c ⟨0, hn⟩ rfl p q
  | succ m ih =>
    intro hn p q
    by_cases h6 : (m + 1) % 6 = 0
    · exact acc0_first_apply V c ⟨m + 1, hn⟩ h6 p q
    · have h := acc0_next V c ⟨m + 1, hn⟩ h6
      rw [show acc0 V c (m + 1) hn = _ from h, step0_apply, Finset.sum_range_succ]
      congr 1
      have e1 : m % 6 + 1 = (m + 1) % 6 := by omega
      have e2 : m / 36 = (m + 1) / 36 := by omega
      have e3 : m / 6 % 6 = (m + 1) / 6 % 6 := by omega
      have ih' := ih (Nat.lt_of_succ_lt hn) p q
      rw [e1, e2, e3] at ih'
      exact ih'

/-! ## The tile written back, and the whole array -/

/-- The row and the column, in the whole array, of entry (p, q) of the tile point t works on. -/
abbrev row0 (t : Fin cfg0.N) (p : Fin 1024) : Fin 6144 :=
  ⟨t.val / 36 * 1024 + p.val, by have hN : cfg0.N = 216 := N_0; have := t.isLt; have := p.isLt; omega⟩
abbrev col0 (t : Fin cfg0.N) (q : Fin 1024) : Fin 6144 :=
  ⟨t.val / 6 % 6 * 1024 + q.val, by have := q.isLt; omega⟩

/-- Before the epilogue: at a last depth block the accumulator's entry (p, q) is entry (1024 i + p, 1024 j + q) of
    A · Bᵀ, and the bias block's entry q is the bias row's entry 1024 j + q. -/
theorem out_core0 (c : Dev nD) (t : Fin cfg0.N) (h5 : t.val % 6 = 5) (p q : Fin 1024) :
    acc0 V c t.val t.isLt (ix2 p q) + biasblk0 V c t (ix2 0 q)
      = Cert.Spec.mmT (A0 V c) (B0 V c) (ix2 (row0 t p) (col0 t q)) + bias0 V c (ix2 0 (col0 t q)) := by
  have hN : cfg0.N = 216 := N_0
  have ht := t.isLt
  have hP : t.val / 36 * 1024 + p.val < 6144 := (row0 t p).isLt
  have hQ : t.val / 6 % 6 * 1024 + q.val < 6144 := (col0 t q).isLt
  rw [acc0_apply, biasblk0_apply, Cert.Spec.mmT_apply, h5]
  congr 1
  · rw [Cert.SumBlocks.sum_range_fin]
    have hs := Cert.SumBlocks.sum_blocks 6 512
      (fun k => ext2 (A0 V c) (t.val / 36 * 1024 + p.val) k * ext2 (B0 V c) (t.val / 6 % 6 * 1024 + q.val) k)
    refine Eq.trans ?_ (Eq.trans hs.symm ?_)
    · rfl
    · exact Finset.sum_congr rfl fun k _ => congrArg₂ (· * ·) (ext2_fin (A0 V c) ⟨_, hP⟩ k) (ext2_fin (B0 V c) ⟨_, hQ⟩ k)
  · exact ext2_of_lt _ _ _ (by omega) hQ

/-- At a last depth block the output tile's entry (p, q) is entry (1024 i + p, 1024 j + q) of A · Bᵀ plus the bias row. -/
theorem out0_apply (c : Dev nD) (t : Fin cfg0.N) (h5 : t.val % 6 = 5) (p q : Fin 1024) :
    out0 V c t (ix2 p q) = Cert.Spec.lin (A0 V c) (B0 V c) (bias0 V c) (ix2 (row0 t p) (col0 t q)) := by
  unfold out0
  rw [Cert.KernelIdeal.PayVal.pay0_out, out_core0 V c t h5, Cert.Spec.lin_apply, Cert.Spec.mmT_apply]

theorem flushed_eq0 (c : Dev nD) (t : Fin cfg0.N) (hf : (cfg0.win 3).flush t = true) :
    (dat0 (F := Ideal) V c).flushed 3 t
      = ((cfg0.win 3).blk t).view.read (Elt Ideal) (Cert.Spec.lin (A0 V c) (B0 V c) (bias0 V c)) := by
  have h5 : t.val % 6 = 5 := (flush0_3 t).mp hf
  have hN : cfg0.N = 216 := N_0
  have ht := t.isLt
  show (cfg0.win 3).cut (grid0.coords t) ((dat0 V c).after 3 t) = _
  rw [after0_3]
  have key : ∀ x : S1024x1024.Idx, out0 V c t x
      = ((cfg0.win 3).blk t).view.read (Elt Ideal) (Cert.Spec.lin (A0 V c) (B0 V c) (bias0 V c)) x := by
    intro x
    obtain ⟨p, q, rfl⟩ : ∃ p q, x = ix2 p q := ⟨x 0, x 1, eq_ix2 x⟩
    rw [View.read_apply, out0_apply V c t h5 p q]
    show Cert.Spec.lin (A0 V c) (B0 V c) (bias0 V c) _ = Cert.Spec.lin (A0 V c) (B0 V c) (bias0 V c) _
    congr 1
    funext a
    apply Fin.ext
    match a with
    | ⟨0, _⟩ => show t.val / 36 * 1024 + p.val = win0_3.index t 0 * 1024 + 1 * p.val; rw [(idx0_3 t).1]; omega
    | ⟨1, _⟩ => show t.val / 6 % 6 * 1024 + q.val = win0_3.index t 1 * 1024 + 1 * q.val; rw [(idx0_3 t).2]; omega
  exact funext key

/-- The first kernel's result array ends holding the linear layer A · Bᵀ plus the bias row. -/
theorem final0 (c : Dev nD) : (dat0 (F := Ideal) V c).arrAt 3 cfg0.N = Cert.Spec.lin (A0 V c) (B0 V c) (bias0 V c) :=
  (dat0 (F := Ideal) V c).arrAt_eq_of_cover 3 _ (flushed_eq0 V c) fun i => by
    have hN : cfg0.N = 216 := N_0
    have hP : (i 0 : Nat) < 6144 := (i 0).isLt
    have hQ : (i 1 : Nat) < 6144 := (i 1).isLt
    obtain ⟨t, htv⟩ : ∃ t : Fin cfg0.N, t.val = 36 * ((i 0 : Nat) / 1024) + 6 * ((i 1 : Nat) / 1024) + 5 :=
      ⟨⟨36 * ((i 0 : Nat) / 1024) + 6 * ((i 1 : Nat) / 1024) + 5, by omega⟩, rfl⟩
    refine ⟨t, (flush0_3 t).mpr (by omega), ?_⟩
    show i ∈ ((View.whole main_v7).slice (win0_3.rect t)).set
    rw [View.set_slice_whole, Rect.mem_set_unit]
    intro a
    match a with
    | ⟨0, _⟩ =>
      show win0_3.index t 0 * win0_3.size 0 ≤ (i 0 : Nat) ∧ (i 0 : Nat) < win0_3.index t 0 * win0_3.size 0 + win0_3.xsize (grid0.coords t) 0
      rw [(idx0_3 t).1]
      show t.val / 36 * 1024 ≤ (i 0 : Nat) ∧ (i 0 : Nat) < t.val / 36 * 1024 + 1024
      omega
    | ⟨1, _⟩ =>
      show win0_3.index t 1 * win0_3.size 1 ≤ (i 1 : Nat) ∧ (i 1 : Nat) < win0_3.index t 1 * win0_3.size 1 + win0_3.xsize (grid0.coords t) 1
      rw [(idx0_3 t).2]
      show t.val / 6 % 6 * 1024 ≤ (i 1 : Nat) ∧ (i 1 : Nat) < t.val / 6 % 6 * 1024 + 1024
      omega

end Cert.KernelIdeal.Hand

end
-- ==== Proof.KI.Val1.lean ====
/-
  The value of the second kernel's result array, on the extended reals.

  The grid is (row tile i, column tile j, depth block k) in 4 × 8 × 4, walked with k fastest: point t = 32 i + 4 j + k.
  At point t the kernel reads block (i, k) of the left matrix A (1024 rows from row 1024 i, 512 columns from column
  512 k), block (j, k) of the right matrix B and block (0, j) of the bias row. The accumulator after point t holds, at
  (p, q), the sum over the depth blocks k' ≤ k and the 512 columns jj of a block of
  A(1024 i + p, 512 k' + jj) · B(1024 j + q, 512 k' + jj). At the last depth block the tile written back is the
  maximum of 0 and that sum plus bias(0, 1024 j + q). Regrouping the 4 × 512 terms as one sum over 2048 columns, the
  tile is block (i, j) of max(A · Bᵀ plus the bias row, 0); the 32 tiles written back cover the 4096 × 8192 array.
-/
import proofs.«140522_j83038897701629_1_alg».proof.Proof.KI.Dat1
import proofs.«140522_j83038897701629_1_alg».proof.Proof.KI.Val0
import proofs.«140522_j83038897701629_1_alg».proof.Proof.Gen.KernelIdeal.Points
import proofs.«140522_j83038897701629_1_alg».proof.Proof.Spec
import proofs.«140522_j83038897701629_1_alg».proof.Proof.KI.PayVal
import proofs.«140522_j83038897701629_1_alg».proof.Proof.SumBlocks
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The three arrays the second kernel reads, as the region finds them: the left matrix, the right matrix, the bias row. -/
abbrev A1 (c : Dev nD) : Vec Ideal S4096x2048 .f32 := V c main_arg0
abbrev B1 (c : Dev nD) : Vec Ideal S8192x2048 .f32 := V c main_v11
abbrev bias1 (c : Dev nD) : Vec Ideal S1x8192 .f32 := V c main_v16

/-! ## The schedule: each window's block index at a point -/

theorem idx1_0 : ∀ t : Fin cfg1.N, win1_0.index t 0 = t.val / 32 ∧ win1_0.index t 1 = t.val % 4 :=
  (by decide +kernel : ∀ t : Fin grid1.N, win1_0.index t 0 = t.val / 32 ∧ win1_0.index t 1 = t.val % 4)
theorem idx1_1 : ∀ t : Fin cfg1.N, win1_1.index t 0 = t.val / 4 % 8 ∧ win1_1.index t 1 = t.val % 4 :=
  (by decide +kernel : ∀ t : Fin grid1.N, win1_1.index t 0 = t.val / 4 % 8 ∧ win1_1.index t 1 = t.val % 4)
theorem idx1_2 : ∀ t : Fin cfg1.N, win1_2.index t 0 = 0 ∧ win1_2.index t 1 = t.val / 4 % 8 :=
  (by decide +kernel : ∀ t : Fin grid1.N, win1_2.index t 0 = 0 ∧ win1_2.index t 1 = t.val / 4 % 8)
theorem idx1_3 : ∀ t : Fin cfg1.N, win1_3.index t 0 = t.val / 32 ∧ win1_3.index t 1 = t.val / 4 % 8 :=
  (by decide +kernel : ∀ t : Fin grid1.N, win1_3.index t 0 = t.val / 32 ∧ win1_3.index t 1 = t.val / 4 % 8)

/-! ## A block's entry is an entry of its array -/

theorem ablk1_apply (c : Dev nD) (t : Fin cfg1.N) (p : Fin 1024) (jj : Fin 512) :
    ablk1 V c t (ix2 p jj) = ext2 (A1 V c) (t.val / 32 * 1024 + p.val) (t.val % 4 * 512 + jj.val) := by
  have hN : cfg1.N = 128 := N_1
  have ht := t.isLt
  rw [ext2_of_lt _ _ _ (by have := p.isLt; omega) (by have := jj.isLt; omega)]
  unfold ablk1 iblk1
  rw [View.read_apply]
  show V c main_arg0 _ = V c main_arg0 _
  congr 1
  funext a
  apply Fin.ext
  match a with
  | ⟨0, _⟩ => show win1_0.index t 0 * 1024 + 1 * p.val = t.val / 32 * 1024 + p.val; rw [(idx1_0 t).1]; omega
  | ⟨1, _⟩ => show win1_0.index t 1 * 512 + 1 * jj.val = t.val % 4 * 512 + jj.val; rw [(idx1_0 t).2]; omega

theorem bblk1_apply (c : Dev nD) (t : Fin cfg1.N) (q : Fin 1024) (jj : Fin 512) :
    bblk1 V c t (ix2 q jj) = ext2 (B1 V c) (t.val / 4 % 8 * 1024 + q.val) (t.val % 4 * 512 + jj.val) := by
  have hN : cfg1.N = 128 := N_1
  have ht := t.isLt
  rw [ext2_of_lt _ _ _ (by have := q.isLt; omega) (by have := jj.isLt; omega)]
  unfold bblk1 iblk1
  rw [View.read_apply]
  show V c main_v11 _ = V c main_v11 _
  congr 1
  funext a
  apply Fin.ext
  match a with
  | ⟨0, _⟩ => show win1_1.index t 0 * 1024 + 1 * q.val = t.val / 4 % 8 * 1024 + q.val; rw [(idx1_1 t).1]; omega
  | ⟨1, _⟩ => show win1_1.index t 1 * 512 + 1 * jj.val = t.val % 4 * 512 + jj.val; rw [(idx1_1 t).2]; omega

theorem biasblk1_apply (c : Dev nD) (t : Fin cfg1.N) (q : Fin 1024) :
    biasblk1 V c t (ix2 0 q) = ext2 (bias1 V c) 0 (t.val / 4 % 8 * 1024 + q.val) := by
  have hN : cfg1.N = 128 := N_1
  have ht := t.isLt
  rw [ext2_of_lt _ _ _ (by omega) (by have := q.isLt; omega)]
  unfold biasblk1 iblk1
  rw [View.read_apply]
  show V c main_v16 _ = V c main_v16 _
  congr 1
  funext a
  apply Fin.ext
  match a with
  | ⟨0, _⟩ => show win1_2.index t 0 * 1 + 1 * 0 = 0; rw [(idx1_2 t).1]
  | ⟨1, _⟩ => show win1_2.index t 1 * 1024 + 1 * q.val = t.val / 4 % 8 * 1024 + q.val; rw [(idx1_2 t).2]; omega

/-! ## The accumulator's value -/

/-- Depth block k' of entry (1024 i + p, 1024 j + q) of A · Bᵀ: the 512 products of its columns. -/
def part1 (c : Dev nD) (i j k' p q : ℕ) : EReal :=
  ∑ jj : Fin 512, ext2 (A1 V c) (i * 1024 + p) (k' * 512 + jj.val) * ext2 (B1 V c) (j * 1024 + q) (k' * 512 + jj.val)

/-- One point's step: the accumulator's entry grows by the point's own depth block. -/
theorem step1_apply (c : Dev nD) (t : Fin cfg1.N) (s : Vec Ideal S1024x1024 .f32) (p q : Fin 1024) :
    k1_pay2 (ablk1 V c t) (bblk1 V c t) s (ix2 p q)
      = s (ix2 p q) + part1 V c (t.val / 32) (t.val / 4 % 8) (t.val % 4) p.val q.val := by
  rw [Cert.KernelIdeal.PayVal.pay1_acc]
  unfold part1
  refine congrArg _ (Finset.sum_congr rfl fun jj _ => ?_)
  rw [ablk1_apply, bblk1_apply]

/-- At a first depth block the accumulator holds that block alone. -/
theorem acc1_first_apply (c : Dev nD) (t : Fin cfg1.N) (h4 : t.val % 4 = 0) (p q : Fin 1024) :
    acc1 V c t.val t.isLt (ix2 p q)
      = ∑ k' ∈ Finset.range (t.val % 4 + 1), part1 V c (t.val / 32) (t.val / 4 % 8) k' p.val q.val := by
  rw [acc1_first V c t h4, step1_apply, Cert.KernelIdeal.PayVal.pay1_zero, zero_add, h4, zero_add, Finset.sum_range_one]

/-- After point n the accumulator holds the depth blocks up to n's own of its tile's entries. -/
theorem acc1_apply (c : Dev nD) : ∀ (n : ℕ) (hn : n < cfg1.N) (p q : Fin 1024),
    acc1 V c n hn (ix2 p q) = ∑ k' ∈ Finset.range (n % 4 + 1), part1 V c (n / 32) (n / 4 % 8) k' p.val q.val := by
  intro n
  induction n with
  | zero => exact fun hn p q => acc1_first_apply V c ⟨0, hn⟩ rfl p q
  | succ m ih =>
    intro hn p q
    by_cases h4 : (m + 1) % 4 = 0
    · exact acc1_first_apply V c ⟨m + 1, hn⟩ h4 p q
    · have h := acc1_next V c ⟨m + 1, hn⟩ h4
      rw [show acc1 V c (m + 1) hn = _ from h, step1_apply, Finset.sum_range_succ]
      congr 1
      have e1 : m % 4 + 1 = (m + 1) % 4 := by omega
      have e2 : m / 32 = (m + 1) / 32 := by omega
      have e3 : m / 4 % 8 = (m + 1) / 4 % 8 := by omega
      have ih' := ih (Nat.lt_of_succ_lt hn) p q
      rw [e1, e2, e3] at ih'
      exact ih'

/-! ## The tile written back, and the whole array -/

/-- The row and the column, in the whole array, of entry (p, q) of the tile point t works on. -/
abbrev row1 (t : Fin cfg1.N) (p : Fin 1024) : Fin 4096 :=
  ⟨t.val / 32 * 1024 + p.val, by have hN : cfg1.N = 128 := N_1; have := t.isLt; have := p.isLt; omega⟩
abbrev col1 (t : Fin cfg1.N) (q : Fin 1024) : Fin 8192 :=
  ⟨t.val / 4 % 8 * 1024 + q.val, by have := q.isLt; omega⟩

/-- Before the epilogue: at a last depth block the accumulator's entry (p, q) is entry (1024 i + p, 1024 j + q) of
    A · Bᵀ, and the bias block's entry q is the bias row's entry 1024 j + q. -/
theorem out_core1 (c : Dev nD) (t : Fin cfg1.N) (h3 : t.val % 4 = 3) (p q : Fin 1024) :
    acc1 V c t.val t.isLt (ix2 p q) + biasblk1 V c t (ix2 0 q)
      = Cert.Spec.mmT (A1 V c) (B1 V c) (ix2 (row1 t p) (col1 t q)) + bias1 V c (ix2 0 (col1 t q)) := by
  have hN : cfg1.N = 128 := N_1
  have ht := t.isLt
  have hP : t.val / 32 * 1024 + p.val < 4096 := (row1 t p).isLt
  have hQ : t.val / 4 % 8 * 1024 + q.val < 8192 := (col1 t q).isLt
  rw [acc1_apply, biasblk1_apply, Cert.Spec.mmT_apply, h3]
  congr 1
  · rw [Cert.SumBlocks.sum_range_fin]
    have hs := Cert.SumBlocks.sum_blocks 4 512
      (fun k => ext2 (A1 V c) (t.val / 32 * 1024 + p.val) k * ext2 (B1 V c) (t.val / 4 % 8 * 1024 + q.val) k)
    refine Eq.trans ?_ (Eq.trans hs.symm ?_)
    · rfl
    · exact Finset.sum_congr rfl fun k _ => congrArg₂ (· * ·) (ext2_fin (A1 V c) ⟨_, hP⟩ k) (ext2_fin (B1 V c) ⟨_, hQ⟩ k)
  · exact ext2_of_lt _ _ _ (by omega) hQ

/-- At a last depth block the output tile's entry (p, q) is entry (1024 i + p, 1024 j + q) of
    max(A · Bᵀ plus the bias row, 0). -/
theorem out1_apply (c : Dev nD) (t : Fin cfg1.N) (h3 : t.val % 4 = 3) (p q : Fin 1024) :
    out1 V c t (ix2 p q) = Cert.Spec.linRelu (A1 V c) (B1 V c) (bias1 V c) (ix2 (row1 t p) (col1 t q)) := by
  unfold out1
  rw [Cert.KernelIdeal.PayVal.pay1_out, out_core1 V c t h3, Cert.Spec.linRelu_apply, Cert.Spec.mmT_apply]

theorem flushed_eq1 (c : Dev nD) (t : Fin cfg1.N) (hf : (cfg1.win 3).flush t = true) :
    (dat1 (F := Ideal) V c).flushed 3 t
      = ((cfg1.win 3).blk t).view.read (Elt Ideal) (Cert.Spec.linRelu (A1 V c) (B1 V c) (bias1 V c)) := by
  have h3 : t.val % 4 = 3 := (flush1_3 t).mp hf
  have hN : cfg1.N = 128 := N_1
  have ht := t.isLt
  show (cfg1.win 3).cut (grid1.coords t) ((dat1 V c).after 3 t) = _
  rw [after1_3]
  have key : ∀ x : S1024x1024.Idx, out1 V c t x
      = ((cfg1.win 3).blk t).view.read (Elt Ideal) (Cert.Spec.linRelu (A1 V c) (B1 V c) (bias1 V c)) x := by
    intro x
    obtain ⟨p, q, rfl⟩ : ∃ p q, x = ix2 p q := ⟨x 0, x 1, eq_ix2 x⟩
    rw [View.read_apply, out1_apply V c t h3 p q]
    show Cert.Spec.linRelu (A1 V c) (B1 V c) (bias1 V c) _ = Cert.Spec.linRelu (A1 V c) (B1 V c) (bias1 V c) _
    congr 1
    funext a
    apply Fin.ext
    match a with
    | ⟨0, _⟩ => show t.val / 32 * 1024 + p.val = win1_3.index t 0 * 1024 + 1 * p.val; rw [(idx1_3 t).1]; omega
    | ⟨1, _⟩ => show t.val / 4 % 8 * 1024 + q.val = win1_3.index t 1 * 1024 + 1 * q.val; rw [(idx1_3 t).2]; omega
  exact funext key

/-- The second kernel's result array ends holding the rectified linear layer: max(A · Bᵀ plus the bias row, 0). -/
theorem final1 (c : Dev nD) : (dat1 (F := Ideal) V c).arrAt 3 cfg1.N = Cert.Spec.linRelu (A1 V c) (B1 V c) (bias1 V c) :=
  (dat1 (F := Ideal) V c).arrAt_eq_of_cover 3 _ (flushed_eq1 V c) fun i => by
    have hN : cfg1.N = 128 := N_1
    have hP : (i 0 : Nat) < 4096 := (i 0).isLt
    have hQ : (i 1 : Nat) < 8192 := (i 1).isLt
    obtain ⟨t, htv⟩ : ∃ t : Fin cfg1.N, t.val = 32 * ((i 0 : Nat) / 1024) + 4 * ((i 1 : Nat) / 1024) + 3 :=
      ⟨⟨32 * ((i 0 : Nat) / 1024) + 4 * ((i 1 : Nat) / 1024) + 3, by omega⟩, rfl⟩
    refine ⟨t, (flush1_3 t).mpr (by omega), ?_⟩
    show i ∈ ((View.whole main_v17).slice (win1_3.rect t)).set
    rw [View.set_slice_whole, Rect.mem_set_unit]
    intro a
    match a with
    | ⟨0, _⟩ =>
      show win1_3.index t 0 * win1_3.size 0 ≤ (i 0 : Nat) ∧ (i 0 : Nat) < win1_3.index t 0 * win1_3.size 0 + win1_3.xsize (grid1.coords t) 0
      rw [(idx1_3 t).1]
      show t.val / 32 * 1024 ≤ (i 0 : Nat) ∧ (i 0 : Nat) < t.val / 32 * 1024 + 1024
      omega
    | ⟨1, _⟩ =>
      show win1_3.index t 1 * win1_3.size 1 ≤ (i 1 : Nat) ∧ (i 1 : Nat) < win1_3.index t 1 * win1_3.size 1 + win1_3.xsize (grid1.coords t) 1
      rw [(idx1_3 t).2]
      show t.val / 4 % 8 * 1024 ≤ (i 1 : Nat) ∧ (i 1 : Nat) < t.val / 4 % 8 * 1024 + 1024
      omega

end Cert.KernelIdeal.Hand

end
-- ==== Proof.KI.Val2.lean ====
/-
  The value of the third kernel's result array, on the extended reals.

  The grid is (row tile i, column tile j, depth block k) in 4 × 2 × 16, walked with k fastest: point t = 32 i + 16 j + k.
  At point t the kernel reads block (i, k) of the left matrix A (1024 rows from row 1024 i, 512 columns from column
  512 k), block (j, k) of the right matrix B and block (0, j) of the bias row. The accumulator after point t holds, at
  (p, q), the sum over the depth blocks k' ≤ k and the 512 columns jj of a block of
  A(1024 i + p, 512 k' + jj) · B(1024 j + q, 512 k' + jj). At the last depth block the tile written back is that sum
  plus bias(0, 1024 j + q). Regrouping the 16 × 512 terms as one sum over 8192 columns, the tile is block (i, j) of
  A · Bᵀ plus the bias row; the 8 tiles written back cover the 4096 × 2048 array.
-/
import proofs.«140522_j83038897701629_1_alg».proof.Proof.KI.Dat2
import proofs.«140522_j83038897701629_1_alg».proof.Proof.KI.Val0
import proofs.«140522_j83038897701629_1_alg».proof.Proof.Gen.KernelIdeal.Points
import proofs.«140522_j83038897701629_1_alg».proof.Proof.Spec
import proofs.«140522_j83038897701629_1_alg».proof.Proof.KI.PayVal
import proofs.«140522_j83038897701629_1_alg».proof.Proof.SumBlocks
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The three arrays the third kernel reads, as the region finds them: the left matrix, the right matrix, the bias row. -/
abbrev A2 (c : Dev nD) : Vec Ideal S4096x8192 .bf16 := V c main_v17
abbrev B2 (c : Dev nD) : Vec Ideal S2048x8192 .f32 := V c main_v14
abbrev bias2 (c : Dev nD) : Vec Ideal S1x2048 .f32 := V c main_v18

/-! ## The schedule: each window's block index at a point -/

theorem idx2_0 : ∀ t : Fin cfg2.N, win2_0.index t 0 = t.val / 32 ∧ win2_0.index t 1 = t.val % 16 :=
  (by decide +kernel : ∀ t : Fin grid2.N, win2_0.index t 0 = t.val / 32 ∧ win2_0.index t 1 = t.val % 16)
theorem idx2_1 : ∀ t : Fin cfg2.N, win2_1.index t 0 = t.val / 16 % 2 ∧ win2_1.index t 1 = t.val % 16 :=
  (by decide +kernel : ∀ t : Fin grid2.N, win2_1.index t 0 = t.val / 16 % 2 ∧ win2_1.index t 1 = t.val % 16)
theorem idx2_2 : ∀ t : Fin cfg2.N, win2_2.index t 0 = 0 ∧ win2_2.index t 1 = t.val / 16 % 2 :=
  (by decide +kernel : ∀ t : Fin grid2.N, win2_2.index t 0 = 0 ∧ win2_2.index t 1 = t.val / 16 % 2)
theorem idx2_3 : ∀ t : Fin cfg2.N, win2_3.index t 0 = t.val / 32 ∧ win2_3.index t 1 = t.val / 16 % 2 :=
  (by decide +kernel : ∀ t : Fin grid2.N, win2_3.index t 0 = t.val / 32 ∧ win2_3.index t 1 = t.val / 16 % 2)

/-! ## A block's entry is an entry of its array -/

theorem ablk2_apply (c : Dev nD) (t : Fin cfg2.N) (p : Fin 1024) (jj : Fin 512) :
    ablk2 V c t (ix2 p jj) = ext2 (A2 V c) (t.val / 32 * 1024 + p.val) (t.val % 16 * 512 + jj.val) := by
  have hN : cfg2.N = 128 := N_2
  have ht := t.isLt
  rw [ext2_of_lt _ _ _ (by have := p.isLt; omega) (by have := jj.isLt; omega)]
  unfold ablk2 iblk2
  rw [View.read_apply]
  show V c main_v17 _ = V c main_v17 _
  congr 1
  funext a
  apply Fin.ext
  match a with
  | ⟨0, _⟩ => show win2_0.index t 0 * 1024 + 1 * p.val = t.val / 32 * 1024 + p.val; rw [(idx2_0 t).1]; omega
  | ⟨1, _⟩ => show win2_0.index t 1 * 512 + 1 * jj.val = t.val % 16 * 512 + jj.val; rw [(idx2_0 t).2]; omega

theorem bblk2_apply (c : Dev nD) (t : Fin cfg2.N) (q : Fin 1024) (jj : Fin 512) :
    bblk2 V c t (ix2 q jj) = ext2 (B2 V c) (t.val / 16 % 2 * 1024 + q.val) (t.val % 16 * 512 + jj.val) := by
  have hN : cfg2.N = 128 := N_2
  have ht := t.isLt
  rw [ext2_of_lt _ _ _ (by have := q.isLt; omega) (by have := jj.isLt; omega)]
  unfold bblk2 iblk2
  rw [View.read_apply]
  show V c main_v14 _ = V c main_v14 _
  congr 1
  funext a
  apply Fin.ext
  match a with
  | ⟨0, _⟩ => show win2_1.index t 0 * 1024 + 1 * q.val = t.val / 16 % 2 * 1024 + q.val; rw [(idx2_1 t).1]; omega
  | ⟨1, _⟩ => show win2_1.index t 1 * 512 + 1 * jj.val = t.val % 16 * 512 + jj.val; rw [(idx2_1 t).2]; omega

theorem biasblk2_apply (c : Dev nD) (t : Fin cfg2.N) (q : Fin 1024) :
    biasblk2 V c t (ix2 0 q) = ext2 (bias2 V c) 0 (t.val / 16 % 2 * 1024 + q.val) := by
  have hN : cfg2.N = 128 := N_2
  have ht := t.isLt
  rw [ext2_of_lt _ _ _ (by omega) (by have := q.isLt; omega)]
  unfold biasblk2 iblk2
  rw [View.read_apply]
  show V c main_v18 _ = V c main_v18 _
  congr 1
  funext a
  apply Fin.ext
  match a with
  | ⟨0, _⟩ => show win2_2.index t 0 * 1 + 1 * 0 = 0; rw [(idx2_2 t).1]
  | ⟨1, _⟩ => show win2_2.index t 1 * 1024 + 1 * q.val = t.val / 16 % 2 * 1024 + q.val; rw [(idx2_2 t).2]; omega

/-! ## The accumulator's value -/

/-- Depth block k' of entry (1024 i + p, 1024 j + q) of A · Bᵀ: the 512 products of its columns. -/
def part2 (c : Dev nD) (i j k' p q : ℕ) : EReal :=
  ∑ jj : Fin 512, ext2 (A2 V c) (i * 1024 + p) (k' * 512 + jj.val) * ext2 (B2 V c) (j * 1024 + q) (k' * 512 + jj.val)

/-- One point's step: the accumulator's entry grows by the point's own depth block. -/
theorem step2_apply (c : Dev nD) (t : Fin cfg2.N) (s : Vec Ideal S1024x1024 .f32) (p q : Fin 1024) :
    k2_pay2 (ablk2 V c t) (bblk2 V c t) s (ix2 p q)
      = s (ix2 p q) + part2 V c (t.val / 32) (t.val / 16 % 2) (t.val % 16) p.val q.val := by
  rw [Cert.KernelIdeal.PayVal.pay2_acc]
  unfold part2
  refine congrArg _ (Finset.sum_congr rfl fun jj _ => ?_)
  rw [ablk2_apply, bblk2_apply]

/-- At a first depth block the accumulator holds that block alone. -/
theorem acc2_first_apply (c : Dev nD) (t : Fin cfg2.N) (h16 : t.val % 16 = 0) (p q : Fin 1024) :
    acc2 V c t.val t.isLt (ix2 p q)
      = ∑ k' ∈ Finset.range (t.val % 16 + 1), part2 V c (t.val / 32) (t.val / 16 % 2) k' p.val q.val := by
  rw [acc2_first V c t h16, step2_apply, Cert.KernelIdeal.PayVal.pay2_zero, zero_add, h16, zero_add, Finset.sum_range_one]

/-- After point n the accumulator holds the depth blocks up to n's own of its tile's entries. -/
theorem acc2_apply (c : Dev nD) : ∀ (n : ℕ) (hn : n < cfg2.N) (p q : Fin 1024),
    acc2 V c n hn (ix2 p q) = ∑ k' ∈ Finset.range (n % 16 + 1), part2 V c (n / 32) (n / 16 % 2) k' p.val q.val := by
  intro n
  induction n with
  | zero => exact fun hn p q => acc2_first_apply V c ⟨0, hn⟩ rfl p q
  | succ m ih =>
    intro hn p q
    by_cases h16 : (m + 1) % 16 = 0
    · exact acc2_first_apply V c ⟨m + 1, hn⟩ h16 p q
    · have h := acc2_next V c ⟨m + 1, hn⟩ h16
      rw [show acc2 V c (m + 1) hn = _ from h, step2_apply, Finset.sum_range_succ]
      congr 1
      have e1 : m % 16 + 1 = (m + 1) % 16 := by omega
      have e2 : m / 32 = (m + 1) / 32 := by omega
      have e3 : m / 16 % 2 = (m + 1) / 16 % 2 := by omega
      have ih' := ih (Nat.lt_of_succ_lt hn) p q
      rw [e1, e2, e3] at ih'
      exact ih'

/-! ## The tile written back, and the whole array -/

/-- The row and the column, in the whole array, of entry (p, q) of the tile point t works on. -/
abbrev row2 (t : Fin cfg2.N) (p : Fin 1024) : Fin 4096 :=
  ⟨t.val / 32 * 1024 + p.val, by have hN : cfg2.N = 128 := N_2; have := t.isLt; have := p.isLt; omega⟩
abbrev col2 (t : Fin cfg2.N) (q : Fin 1024) : Fin 2048 :=
  ⟨t.val / 16 % 2 * 1024 + q.val, by have := q.isLt; omega⟩

/-- Before the epilogue: at a last depth block the accumulator's entry (p, q) is entry (1024 i + p, 1024 j + q) of
    A · Bᵀ, and the bias block's entry q is the bias row's entry 1024 j + q. -/
theorem out_core2 (c : Dev nD) (t : Fin cfg2.N) (h15 : t.val % 16 = 15) (p q : Fin 1024) :
    acc2 V c t.val t.isLt (ix2 p q) + biasblk2 V c t (ix2 0 q)
      = Cert.Spec.mmT (A2 V c) (B2 V c) (ix2 (row2 t p) (col2 t q)) + bias2 V c (ix2 0 (col2 t q)) := by
  have hN : cfg2.N = 128 := N_2
  have ht := t.isLt
  have hP : t.val / 32 * 1024 + p.val < 4096 := (row2 t p).isLt
  have hQ : t.val / 16 % 2 * 1024 + q.val < 2048 := (col2 t q).isLt
  rw [acc2_apply, biasblk2_apply, Cert.Spec.mmT_apply, h15]
  congr 1
  · rw [Cert.SumBlocks.sum_range_fin]
    have hs := Cert.SumBlocks.sum_blocks 16 512
      (fun k => ext2 (A2 V c) (t.val / 32 * 1024 + p.val) k * ext2 (B2 V c) (t.val / 16 % 2 * 1024 + q.val) k)
    refine Eq.trans ?_ (Eq.trans hs.symm ?_)
    · rfl
    · exact Finset.sum_congr rfl fun k _ => congrArg₂ (· * ·) (ext2_fin (A2 V c) ⟨_, hP⟩ k) (ext2_fin (B2 V c) ⟨_, hQ⟩ k)
  · exact ext2_of_lt _ _ _ (by omega) hQ

/-- At a last depth block the output tile's entry (p, q) is entry (1024 i + p, 1024 j + q) of A · Bᵀ plus the bias row. -/
theorem out2_apply (c : Dev nD) (t : Fin cfg2.N) (h15 : t.val % 16 = 15) (p q : Fin 1024) :
    out2 V c t (ix2 p q) = Cert.Spec.lin (A2 V c) (B2 V c) (bias2 V c) (ix2 (row2 t p) (col2 t q)) := by
  unfold out2
  rw [Cert.KernelIdeal.PayVal.pay2_out, out_core2 V c t h15, Cert.Spec.lin_apply, Cert.Spec.mmT_apply]

theorem flushed_eq2 (c : Dev nD) (t : Fin cfg2.N) (hf : (cfg2.win 3).flush t = true) :
    (dat2 (F := Ideal) V c).flushed 3 t
      = ((cfg2.win 3).blk t).view.read (Elt Ideal) (Cert.Spec.lin (A2 V c) (B2 V c) (bias2 V c)) := by
  have h15 : t.val % 16 = 15 := (flush2_3 t).mp hf
  have hN : cfg2.N = 128 := N_2
  have ht := t.isLt
  show (cfg2.win 3).cut (grid2.coords t) ((dat2 V c).after 3 t) = _
  rw [after2_3]
  have key : ∀ x : S1024x1024.Idx, out2 V c t x
      = ((cfg2.win 3).blk t).view.read (Elt Ideal) (Cert.Spec.lin (A2 V c) (B2 V c) (bias2 V c)) x := by
    intro x
    obtain ⟨p, q, rfl⟩ : ∃ p q, x = ix2 p q := ⟨x 0, x 1, eq_ix2 x⟩
    rw [View.read_apply, out2_apply V c t h15 p q]
    show Cert.Spec.lin (A2 V c) (B2 V c) (bias2 V c) _ = Cert.Spec.lin (A2 V c) (B2 V c) (bias2 V c) _
    congr 1
    funext a
    apply Fin.ext
    match a with
    | ⟨0, _⟩ => show t.val / 32 * 1024 + p.val = win2_3.index t 0 * 1024 + 1 * p.val; rw [(idx2_3 t).1]; omega
    | ⟨1, _⟩ => show t.val / 16 % 2 * 1024 + q.val = win2_3.index t 1 * 1024 + 1 * q.val; rw [(idx2_3 t).2]; omega
  exact funext key

/-- The third kernel's result array ends holding the linear layer A · Bᵀ plus the bias row. -/
theorem final2 (c : Dev nD) : (dat2 (F := Ideal) V c).arrAt 3 cfg2.N = Cert.Spec.lin (A2 V c) (B2 V c) (bias2 V c) :=
  (dat2 (F := Ideal) V c).arrAt_eq_of_cover 3 _ (flushed_eq2 V c) fun i => by
    have hN : cfg2.N = 128 := N_2
    have hP : (i 0 : Nat) < 4096 := (i 0).isLt
    have hQ : (i 1 : Nat) < 2048 := (i 1).isLt
    obtain ⟨t, htv⟩ : ∃ t : Fin cfg2.N, t.val = 32 * ((i 0 : Nat) / 1024) + 16 * ((i 1 : Nat) / 1024) + 15 :=
      ⟨⟨32 * ((i 0 : Nat) / 1024) + 16 * ((i 1 : Nat) / 1024) + 15, by omega⟩, rfl⟩
    refine ⟨t, (flush2_3 t).mpr (by omega), ?_⟩
    show i ∈ ((View.whole main_v19).slice (win2_3.rect t)).set
    rw [View.set_slice_whole, Rect.mem_set_unit]
    intro a
    match a with
    | ⟨0, _⟩ =>
      show win2_3.index t 0 * win2_3.size 0 ≤ (i 0 : Nat) ∧ (i 0 : Nat) < win2_3.index t 0 * win2_3.size 0 + win2_3.xsize (grid2.coords t) 0
      rw [(idx2_3 t).1]
      show t.val / 32 * 1024 ≤ (i 0 : Nat) ∧ (i 0 : Nat) < t.val / 32 * 1024 + 1024
      omega
    | ⟨1, _⟩ =>
      show win2_3.index t 1 * win2_3.size 1 ≤ (i 1 : Nat) ∧ (i 1 : Nat) < win2_3.index t 1 * win2_3.size 1 + win2_3.xsize (grid2.coords t) 1
      rw [(idx2_3 t).2]
      show t.val / 16 % 2 * 1024 ≤ (i 1 : Nat) ∧ (i 1 : Nat) < t.val / 16 % 2 * 1024 + 1024
      omega

end Cert.KernelIdeal.Hand

end
-- ==== Proof.PadProduct.lean ====
/-
  The zero-padded product is the plain product.

  The two factors of V = V1 · V2ᵀ are padded with zeros to whole tiles (rows 5794 → 6144, depth 2897 → 3072), the
  bias row added to the padded product is zero, and the result is cut back to 5794 × 5794. Entry (p, q) of the cut
  is a sum over the padded depth whose entries past 2897 are 0 · 0, plus a zero bias: the plain sum over the depth.
-/
import proofs.«140522_j83038897701629_1_alg».proof.KernelIdeal
import proofs.«140522_j83038897701629_1_alg».proof.Proof.Spec
import Idealize.ShloMosaic.Lib.KernelVsHost
import Idealize.ShloMosaic.Lib.Pipeline.Value
import Idealize.ShloMosaic.PureOps.Ideal.Laws
import Mathlib.Algebra.BigOperators.Fin

noncomputable section

open scoped BigOperators

namespace Cert.PadProduct

open Idealize.ShloMosaic Idealize.ShloMosaic.ValueIdx
open Cert.KernelIdeal Cert.KernelIdeal.Facts₀

section Defs
variable {F : FTy → Type} [FloatOps F] [Facts₀]

/-- The padding value: the integer zero converted to a float. -/
def zeroS : FVec F S_ .f32 := sitofp .f32 (constantI S_ 32 0#32)

/-- A factor padded to whole tiles: 350 rows below, then 175 columns to the right, all holding the padding value. -/
def padK (v : Vec F S5794x2897 .f32) : Vec F S6144x3072 .f32 :=
  pad S6144x3072 ![0, 0] ![0, 175] ![0, 0]
    (pad S6144x2897 ![0, 0] ![350, 0] ![0, 0] v zeroS pads_S5794x2897_S6144x2897_03500_000 h_S_)
    zeroS pads_S6144x2897_S6144x3072_000_01750 h_S_

/-- The bias row of the padded product: a row of float zeros, padded with the padding value. -/
def padBias : Vec F S1x6144 .f32 :=
  pad S1x6144 ![0, 0] ![0, 350] ![0, 0]
    (shapeCast S1x5794 (broadcastInDim S5794 ![] bcast_S_S5794 (constant S_ .f32 0x00000000#32)) shapeCasts_S5794_S1x5794)
    zeroS pads_S1x5794_S1x6144_000_03500 h_S_

end Defs

variable [Facts₀]

/-- A sum over a + b terms whose last b terms vanish is the sum of the first a. -/
theorem sum_split_zero {a b : ℕ} (f : Fin (a + b) → EReal) (h : ∀ i : Fin b, f (Fin.natAdd a i) = 0) :
    ∑ i : Fin (a + b), f i = ∑ i : Fin a, f (Fin.castAdd b i) := by
  rw [Fin.sum_univ_add, Finset.sum_eq_zero (fun i _ => h i), add_zero]

/-- The padding value is the extended real zero. -/
theorem zeroS_apply (j : S_.Idx) : zeroS (F := Ideal) j = 0 := by
  show (((0#32 : BitVec 32).toInt : ℝ) : EReal) = 0
  simp

/-- Inside the operand a padded factor is the factor. -/
theorem padK_apply_lt (v : Vec Ideal S5794x2897 .f32) (p : Fin 6144) (k : Fin 3072) (hp : p.val < 5794) (hk : k.val < 2897) :
    padK v (ix2 p k) = v (ix2 ⟨p.val, hp⟩ ⟨k.val, hk⟩) := by
  unfold padK
  refine (pad_apply_of_inside (s := S6144x2897) _ _ _ _ _ _ _ (ix2 p k) (ix2 p (⟨k.val, hk⟩ : Fin 2897)) ?_).trans ?_
  · intro a
    match a with
    | ⟨0, _⟩ => show p.val = 0 + p.val * (0 + 1); omega
    | ⟨1, _⟩ => show k.val = 0 + k.val * (0 + 1); omega
    | ⟨_ + 2, h⟩ => exact absurd h (Nat.not_lt.2 (Nat.le_add_left _ _))
  · refine pad_apply_of_inside (s := S5794x2897) _ _ _ _ _ _ _ (ix2 p (⟨k.val, hk⟩ : Fin 2897))
      (ix2 (⟨p.val, hp⟩ : Fin 5794) (⟨k.val, hk⟩ : Fin 2897)) ?_
    intro a
    match a with
    | ⟨0, _⟩ => show p.val = 0 + p.val * (0 + 1); omega
    | ⟨1, _⟩ => show k.val = 0 + k.val * (0 + 1); omega
    | ⟨_ + 2, h⟩ => exact absurd h (Nat.not_lt.2 (Nat.le_add_left _ _))

/-- Past the operand's depth a padded factor is zero. -/
theorem padK_apply_ge (v : Vec Ideal S5794x2897 .f32) (p : Fin 6144) (k : Fin 3072) (hk : 2897 ≤ k.val) :
    padK v (ix2 p k) = 0 := by
  unfold padK
  refine (pad_apply_of_not_inside (s := S6144x2897) _ _ _ _ _ _ _ (ix2 p k) (1 : Fin 2) ?_).trans (zeroS_apply _)
  intro hin
  have e : (k.val - 0) / (0 + 1) < 2897 := hin.2.2
  rw [Nat.sub_zero, Nat.zero_add, Nat.div_one] at e
  omega

/-- The padded bias row is zero everywhere. -/
theorem padBias_apply (j : S1x6144.Idx) : padBias (F := Ideal) j = 0 := by
  unfold padBias pad
  split
  · exact Ideal.ofBits_zero_f32
  · exact zeroS_apply _

/-- The padded linear layer, cut back to 5794 × 5794, is the plain product V1 · V2ᵀ. -/
theorem padded_product (v1 v2 : Vec Ideal S5794x2897 .f32) :
    extractStridedSlice S5794x5794 ![0, 0] (Cert.Spec.lin (padK v1) (padK v2) (padBias (F := Ideal))) slices_S6144x6144_S5794x5794_0_0
      = Cert.Spec.mmT v1 v2 := by
  funext j
  obtain ⟨p, q, rfl⟩ : ∃ p q, j = ix2 p q := ⟨j 0, j 1, eq_ix2 j⟩
  have hp : p.val < 6144 := by omega
  have hq : q.val < 6144 := by omega
  rw [extractStridedSlice_apply ![0, 0] _ slices_S6144x6144_S5794x5794_0_0 (ix2 p q)
    (ix2 (⟨p.val, hp⟩ : Fin 6144) (⟨q.val, hq⟩ : Fin 6144)) (by
      intro a
      match a with
      | ⟨0, _⟩ => show p.val = 0 + p.val; omega
      | ⟨1, _⟩ => show q.val = 0 + q.val; omega
      | ⟨_ + 2, h⟩ => exact absurd h (Nat.not_lt.2 (Nat.le_add_left _ _)))]
  rw [Cert.Spec.lin_apply, Cert.Spec.mmT_apply, padBias_apply, add_zero]
  refine (sum_split_zero (a := 2897) (b := 175)
    (fun k => padK v1 (ix2 (⟨p.val, hp⟩ : Fin 6144) k) * padK v2 (ix2 (⟨q.val, hq⟩ : Fin 6144) k)) ?_).trans ?_
  · intro i
    show padK v1 (ix2 _ (Fin.natAdd 2897 i)) * _ = 0
    rw [padK_apply_ge v1 _ _ (Nat.le_add_right 2897 i.val), zero_mul]
  · refine Finset.sum_congr rfl fun k _ => ?_
    show padK v1 (ix2 _ (Fin.castAdd 175 k)) * padK v2 (ix2 _ (Fin.castAdd 175 k)) = _
    rw [padK_apply_lt v1 _ _ p.isLt k.isLt, padK_apply_lt v2 _ _ q.isLt k.isLt]
    rfl

end Cert.PadProduct

end
-- ==== Proof.KI.Glue.lean ====
/-
  What the host operations around the three kernel regions leave, as terms.

  Before the first region the host pads the two factors and builds a zero bias row: the region's operands are the
  padded factors and the padded bias of the zero-padded product. After it the host cuts the product back to
  5794 × 5794, reads it row by row as one long vector and cuts that vector into the two layers' weights and biases.
  Each statement below is one buffer's contents after one stretch of host operations, read off operation by operation.
-/
import proofs.«140522_j83038897701629_1_alg».proof.KernelIdeal
import proofs.«140522_j83038897701629_1_alg».proof.Proof.Spec
import proofs.«140522_j83038897701629_1_alg».proof.Proof.PadProduct
import proofs.«140522_j83038897701629_1_alg».proof.Proof.Gen.KernelIdeal.Regions
import Idealize.ShloMosaic.Lib.StableHlo.Run

noncomputable section

namespace Cert.KernelIdeal.Glue

open Idealize.ShloMosaic Idealize.ShloMosaic.TcCoe
open Cert.KernelIdeal Cert.KernelIdeal.Facts₀
open Cert.PadProduct

variable {F : FTy → Type} [FloatOps F]

/-! ## Before the first region: the padded operands -/

section Before
variable (m : (ℓ : Loc nD τ sig) → Buf (Elt F) ℓ) (c : Dev nD)

/-- The first region's left operand is the first factor padded to whole tiles. -/
theorem V10_v2 : (Gen.V10 m c main_v2 : Vec F S6144x3072 .f32)
    = padK (m ((c : Thread nD τ).loc main_arg1) : Vec F S5794x2897 .f32) := by
  dsimp only [Gen.V10, Gen.V9, Gen.V8, Gen.V7, Gen.V6, Gen.V5, Gen.V4, Gen.V3, Gen.V2, Gen.V1, Gen.V0]
  after_results
  rfl

/-- The first region's right operand is the second factor padded to whole tiles. -/
theorem V10_v4 : (Gen.V10 m c main_v4 : Vec F S6144x3072 .f32)
    = padK (m ((c : Thread nD τ).loc main_arg2) : Vec F S5794x2897 .f32) := by
  dsimp only [Gen.V10, Gen.V9, Gen.V8, Gen.V7, Gen.V6, Gen.V5, Gen.V4, Gen.V3, Gen.V2, Gen.V1, Gen.V0]
  after_results
  rfl

/-- The first region's bias operand is the padded row of zeros. -/
theorem V10_v6 : (Gen.V10 m c main_v6 : Vec F S1x6144 .f32) = padBias := by
  dsimp only [Gen.V10, Gen.V9, Gen.V8, Gen.V7, Gen.V6, Gen.V5, Gen.V4, Gen.V3, Gen.V2, Gen.V1, Gen.V0]
  after_results
  rfl

/-- The input x is untouched by the host operations before the first region. -/
theorem V10_arg0 : Gen.V10 m c main_arg0 = m ((c : Thread nD τ).loc main_arg0) :=
  (Gen.V10_of m c main_arg0 (by decide)).trans <| (Gen.V9_of m c main_arg0 (by decide)).trans <|
  (Gen.V8_of m c main_arg0 (by decide)).trans <| (Gen.V7_of m c main_arg0 (by decide)).trans <|
  (Gen.V6_of m c main_arg0 (by decide)).trans <| (Gen.V5_of m c main_arg0 (by decide)).trans <|
  (Gen.V4_of m c main_arg0 (by decide)).trans <| (Gen.V3_of m c main_arg0 (by decide)).trans <|
  (Gen.V2_of m c main_arg0 (by decide)).trans <| (Gen.V1_of m c main_arg0 (by decide))

end Before

/-! ## Between the regions: the product cut into weights and biases -/

section Host
variable (V : Valuation τ sig (Elt F))

/-- The padded product cut back to 5794 × 5794. -/
def sl (X : Vec F S6144x6144 .f32) : Vec F S5794x5794 .f32 :=
  extractStridedSlice S5794x5794 ![0, 0] X slices_S6144x6144_S5794x5794_0_0
/-- The product read row by row as one long vector. -/
def flatK (Vm : Vec F S5794x5794 .f32) : Vec F S33570436 .f32 := shapeCast S33570436 Vm shapeCasts_S5794x5794_S33570436
/-- The first layer's weights: the first 8192 · 2048 entries of the long vector, as 8192 rows. -/
def W1ofK (Vm : Vec F S5794x5794 .f32) : Vec F S8192x2048 .f32 :=
  shapeCast S8192x2048 (extractStridedSlice S16777216 ![0] (flatK Vm) slices_S33570436_S16777216_0) shapeCasts_S16777216_S8192x2048
/-- The first layer's bias: the next 8192 entries. -/
def b1ofK (Vm : Vec F S5794x5794 .f32) : Vec F S8192 .f32 :=
  extractStridedSlice S8192 ![16777216] (flatK Vm) slices_S33570436_S8192_16777216
/-- The second layer's weights: the next 2048 · 8192 entries, as 2048 rows. -/
def W2ofK (Vm : Vec F S5794x5794 .f32) : Vec F S2048x8192 .f32 :=
  shapeCast S2048x8192 (extractStridedSlice S16777216 ![16785408] (flatK Vm) slices_S33570436_S16777216_16785408) shapeCasts_S16777216_S2048x8192
/-- The second layer's bias: the next 2048 entries. -/
def b2ofK (Vm : Vec F S5794x5794 .f32) : Vec F S2048 .f32 :=
  extractStridedSlice S2048 ![33562624] (flatK Vm) slices_S33570436_S2048_33562624

theorem hostOps1_v11 : (StableHlo.after Gen.hostOps1 V (Proc.devRef .tc main_v11) : Vec F S8192x2048 .f32)
    = W1ofK (sl (V (Proc.devRef .tc main_v7))) := by
  after_results
  rfl

theorem hostOps1_v16 : (StableHlo.after Gen.hostOps1 V (Proc.devRef .tc main_v16) : Vec F S1x8192 .f32)
    = shapeCast S1x8192 (b1ofK (sl (V (Proc.devRef .tc main_v7)))) shapeCasts_S8192_S1x8192 := by
  after_results
  rfl

theorem hostOps1_v14 : (StableHlo.after Gen.hostOps1 V (Proc.devRef .tc main_v14) : Vec F S2048x8192 .f32)
    = W2ofK (sl (V (Proc.devRef .tc main_v7))) := by
  after_results
  rfl

theorem hostOps1_v15 : (StableHlo.after Gen.hostOps1 V (Proc.devRef .tc main_v15) : Vec F S2048 .f32)
    = b2ofK (sl (V (Proc.devRef .tc main_v7))) := by
  after_results
  rfl

theorem hostOps1_arg0 : StableHlo.after Gen.hostOps1 V (Proc.devRef .tc main_arg0) = V (Proc.devRef .tc main_arg0) := by
  after_results

theorem hostOps2_v18 : (StableHlo.after Gen.hostOps2 V (Proc.devRef .tc main_v18) : Vec F S1x2048 .f32)
    = shapeCast S1x2048 (V (Proc.devRef .tc main_v15) : Vec F S2048 .f32) shapeCasts_S2048_S1x2048 := by
  after_results
  rfl

theorem hostOps2_v17 : StableHlo.after Gen.hostOps2 V (Proc.devRef .tc main_v17) = V (Proc.devRef .tc main_v17) := by
  after_results

theorem hostOps2_v14 : StableHlo.after Gen.hostOps2 V (Proc.devRef .tc main_v14) = V (Proc.devRef .tc main_v14) := by
  after_results

end Host

end Cert.KernelIdeal.Glue

end
-- ==== Proof.RefBridge.lean ====
/-
  The reference program's three stages, read as the specification's functions.

  The reference forms V = V1 · V2ᵀ with a host product of V1 and the transpose of V2, cuts V (flattened row-major) into
  the two weight matrices and the two bias vectors, and applies the two linear layers, the first one rectified. Each
  stage is, entry by entry on the extended reals, the specification's `mmT`, `linRelu` and `lin`: the host product
  at entry (p, q) is the sum over k of the left operand at (p, k) times the right at (k, q); the right operand is a
  transpose, so that factor is the untransposed matrix at (q, k); the bias, broadcast first to one row and then to
  every row, contributes its entry q; and the rectification's zero array is 0 everywhere.
-/
import proofs.«140522_j83038897701629_1_alg».proof.ReferenceIdeal
import proofs.«140522_j83038897701629_1_alg».proof.Proof.Gen.ReferenceIdeal
import proofs.«140522_j83038897701629_1_alg».proof.Proof.Spec
import proofs.«140522_j83038897701629_1_alg».proof.Proof.LibPlainDot
import Idealize.ShloMosaic.Lib.Pipeline.Value
import Idealize.ShloMosaic.Lib.ValueIdx
import Idealize.ShloMosaic.PureOps.Ideal
import Idealize.ShloMosaic.PureOps.Ideal.Laws

noncomputable section

open scoped BigOperators

namespace Cert.RefBridge

open Cert.ReferenceIdeal Cert.ReferenceIdeal.Gen Idealize.ShloMosaic Idealize.ShloMosaic.ValueIdx

/-! ## The layout operations of a stage, read at an entry -/

/-- The transpose of a (C × K) matrix at (k, q) is the matrix at (q, k). -/
theorem transpose_ix2 {α : Type} {C K : ℕ} (W : (⟨2, ![C, K]⟩ : Shape).Idx → α)
    (h : (⟨2, ![C, K]⟩ : Shape).Transposes [1, 0] (⟨2, ![K, C]⟩ : Shape)) (k : Fin K) (q : Fin C) :
    transpose (⟨2, ![K, C]⟩ : Shape) [1, 0] W h (ix2 k q) = W (ix2 q k) :=
  transpose_apply [1, 0] W h (ix2 k q) (ix2 q k) (fun b => match b with
    | ⟨0, _⟩ => rfl
    | ⟨1, _⟩ => rfl)

/-- The host product of an (R × K) and a (K × C) matrix at (p, q): the sum over k of left (p, k) times right (k, q). -/
theorem hostDot_ix2 {R K C : ℕ} (d : DotDims (⟨2, ![R, K]⟩ : Shape) (⟨2, ![K, C]⟩ : Shape) (⟨2, ![R, C]⟩ : Shape))
    (hlc : d.lhsContracting = [1]) (hrc : d.rhsContracting = [0]) (hln : d.lhsNonContracting = [0])
    (hrn : d.rhsNonContracting = [1]) (hlb : d.lhsBatch = []) (hrb : d.rhsBatch = [])
    (l : FVec Ideal (⟨2, ![R, K]⟩ : Shape) .f32) (r : FVec Ideal (⟨2, ![K, C]⟩ : Shape) .f32) (p : Fin R) (q : Fin C) :
    Host.dotGeneral (F := Ideal) (φ₁ := .f32) (φ₂ := .f32) d none l r (ix2 p q) = ∑ k : Fin K, l (ix2 p k) * r (ix2 k q) :=
  Cert.PlainDot.dotGeneral_apply d hlc hrc hln hrn hlb hrb none .single l r p q

/-- A vector of C entries broadcast to one row, then to R rows: entry (p, q) is the vector's entry q. -/
theorem bias_ix2 {α : Type} {R C : ℕ} (b : (⟨1, ![C]⟩ : Shape).Idx → α)
    (h1 : (⟨1, ![C]⟩ : Shape).BroadcastsInDim (⟨2, ![1, C]⟩ : Shape) (![1] : Fin 1 → Fin 2))
    (h2 : (⟨2, ![1, C]⟩ : Shape).BroadcastsInDim (⟨2, ![R, C]⟩ : Shape) (![0, 1] : Fin 2 → Fin 2)) (p : Fin R) (q : Fin C) :
    broadcastInDim (⟨2, ![R, C]⟩ : Shape) ![0, 1] h2 (broadcastInDim (⟨2, ![1, C]⟩ : Shape) ![1] h1 b) (ix2 p q) = b (ix1 q) := by
  have e2 := broadcastInDim_apply (![0, 1] : Fin 2 → Fin 2) h2 (broadcastInDim (⟨2, ![1, C]⟩ : Shape) ![1] h1 b) (ix2 p q)
    (ix2 (0 : Fin 1) q) (by
      intro a
      match a with
      | ⟨0, _⟩ => rfl
      | ⟨1, _⟩ =>
        show q.val = if C = 1 then 0 else q.val
        split
        · have := q.isLt; omega
        · rfl)
  have e1 := broadcastInDim_apply (![1] : Fin 1 → Fin 2) h1 b (ix2 (0 : Fin 1) q) (ix1 q) (by
      intro a
      match a with
      | ⟨0, _⟩ =>
        show q.val = if C = 1 then 0 else q.val
        split
        · have := q.isLt; omega
        · rfl)
  exact e2.trans e1

/-- A vector of C entries recast as one row: entry (0, q) is the vector's entry q. -/
theorem row_ix2 {α : Type} {C : ℕ} (b : (⟨1, ![C]⟩ : Shape).Idx → α)
    (h : (⟨1, ![C]⟩ : Shape).ShapeCasts (⟨2, ![1, C]⟩ : Shape)) (q : Fin C) :
    shapeCast (⟨2, ![1, C]⟩ : Shape) b h (ix2 0 q) = b (ix1 q) :=
  shapeCast_apply b h (ix2 0 q) (ix1 q) (by
    rw [Shape.rowMajor_val_one, Shape.rowMajor_val_two]; show q.val = 0 * C + q.val; omega)

/-- The zero constant broadcast to any shape is 0 at every entry. -/
theorem zero_apply {t : Shape} (dims : Fin S_.rank → Fin t.rank) (h : S_.BroadcastsInDim t dims) (j : t.Idx) :
    broadcastInDim t dims h (constant (F := Ideal) S_ .f32 0x00000000#32) j = (0 : EReal) := by
  rw [broadcastInDim_apply dims h _ j ix0 (fun a => a.elim0), constant_apply, Ideal.ofBits_zero_f32]

/-! ## The three stages -/

/-- Stage 0: the host product of V1 with the transpose of V2 is V1 · V2ᵀ. -/
theorem ref_stage0 (v1 v2 : Vec Ideal S5794x2897 .f32) :
    Host.dotGeneral (F := Ideal) (φ₁ := .f32) (φ₂ := .f32) dot_S5794x2897_S2897x5794_S5794x5794_1_0_0_1_n_n none v1
      (transpose S2897x5794 [1, 0] v2 transposes_S5794x2897_S2897x5794_1_0) = Cert.Spec.mmT v1 v2 := by
  funext j
  obtain ⟨p, q, rfl⟩ : ∃ p q, j = ix2 p q := ⟨j 0, j 1, eq_ix2 j⟩
  rw [Cert.Spec.mmT_apply, hostDot_ix2 dot_S5794x2897_S2897x5794_S5794x5794_1_0_0_1_n_n rfl rfl rfl rfl rfl rfl]
  refine Finset.sum_congr rfl fun k _ => ?_
  rw [transpose_ix2]

/-- Stage 1: the rectified linear layer. -/
theorem ref_stage1 (x : Vec Ideal S4096x2048 .f32) (W : Vec Ideal S8192x2048 .f32) (b : Vec Ideal S8192 .f32)
    (h : S8192.ShapeCasts S1x8192) :
    maximumf (F := Ideal) (addf (Host.dotGeneral (F := Ideal) (φ₁ := .f32) (φ₂ := .f32) dot_S4096x2048_S2048x8192_S4096x8192_1_0_0_1_n_n none x
        (transpose S2048x8192 [1, 0] W transposes_S8192x2048_S2048x8192_1_0))
      (broadcastInDim S4096x8192 ![0, 1] bcast_S1x8192_S4096x8192_0_1 (broadcastInDim S1x8192 ![1] bcast_S8192_S1x8192_1 b)))
      (broadcastInDim S4096x8192 ![] bcast_S_S4096x8192 (constant S_ .f32 0x00000000#32))
    = Cert.Spec.linRelu x W (shapeCast S1x8192 b h) := by
  funext j
  obtain ⟨p, q, rfl⟩ : ∃ p q, j = ix2 p q := ⟨j 0, j 1, eq_ix2 j⟩
  rw [Cert.Spec.linRelu_apply, maximumf_apply, addf_apply, zero_apply, bias_ix2, row_ix2,
    hostDot_ix2 dot_S4096x2048_S2048x8192_S4096x8192_1_0_0_1_n_n rfl rfl rfl rfl rfl rfl]
  congr 2
  refine Finset.sum_congr rfl fun k _ => ?_
  rw [transpose_ix2]

/-- Stage 2: the linear layer. -/
theorem ref_stage2 (y : Vec Ideal S4096x8192 .f32) (W : Vec Ideal S2048x8192 .f32) (b : Vec Ideal S2048 .f32)
    (h : S2048.ShapeCasts S1x2048) :
    addf (F := Ideal) (Host.dotGeneral (F := Ideal) (φ₁ := .f32) (φ₂ := .f32) dot_S4096x8192_S8192x2048_S4096x2048_1_0_0_1_n_n none y
        (transpose S8192x2048 [1, 0] W transposes_S2048x8192_S8192x2048_1_0))
      (broadcastInDim S4096x2048 ![0, 1] bcast_S1x2048_S4096x2048_0_1 (broadcastInDim S1x2048 ![1] bcast_S2048_S1x2048_1 b))
    = Cert.Spec.lin y W (shapeCast S1x2048 b h) := by
  funext j
  obtain ⟨p, q, rfl⟩ : ∃ p q, j = ix2 p q := ⟨j 0, j 1, eq_ix2 j⟩
  rw [Cert.Spec.lin_apply, addf_apply, bias_ix2, row_ix2,
    hostDot_ix2 dot_S4096x8192_S8192x2048_S4096x2048_1_0_0_1_n_n rfl rfl rfl rfl rfl rfl]
  congr 1
  refine Finset.sum_congr rfl fun k _ => ?_
  rw [transpose_ix2]

/-! ## The reference's cut of V into weights and biases -/

/-- V flattened row-major. -/
def flatOf (Vm : Vec Ideal S5794x5794 .f32) : Vec Ideal S33570436 .f32 :=
  shapeCast S33570436 Vm shapeCasts_S5794x5794_S33570436

/-- The first weight matrix: the first 8192 · 2048 entries, as 8192 rows. -/
def W1of (Vm : Vec Ideal S5794x5794 .f32) : Vec Ideal S8192x2048 .f32 :=
  shapeCast S8192x2048 (extractStridedSlice S16777216 ![0] (flatOf Vm) slices_S33570436_S16777216_0) shapeCasts_S16777216_S8192x2048

/-- The first bias: the next 8192 entries. -/
def b1of (Vm : Vec Ideal S5794x5794 .f32) : Vec Ideal S8192 .f32 :=
  extractStridedSlice S8192 ![16777216] (flatOf Vm) slices_S33570436_S8192_16777216

/-- The second weight matrix: the next 2048 · 8192 entries, as 2048 rows. -/
def W2of (Vm : Vec Ideal S5794x5794 .f32) : Vec Ideal S2048x8192 .f32 :=
  shapeCast S2048x8192 (extractStridedSlice S16777216 ![16785408] (flatOf Vm) slices_S33570436_S16777216_16785408) shapeCasts_S16777216_S2048x8192

/-- The second bias: the next 2048 entries. -/
def b2of (Vm : Vec Ideal S5794x5794 .f32) : Vec Ideal S2048 .f32 :=
  extractStridedSlice S2048 ![33562624] (flatOf Vm) slices_S33570436_S2048_33562624

/-- The reference's result, as the specification's functions of its three arguments. -/
theorem ref_result (x : Vec Ideal S4096x2048 .f32) (v1 v2 : Vec Ideal S5794x2897 .f32)
    (h1 : S8192.ShapeCasts S1x8192) (h2 : S2048.ShapeCasts S1x2048) :
    addf (F := Ideal) (Host.dotGeneral (F := Ideal) (φ₁ := .f32) (φ₂ := .f32) dot_S4096x8192_S8192x2048_S4096x2048_1_0_0_1_n_n none (maximumf (addf (Host.dotGeneral (F := Ideal) (φ₁ := .f32) (φ₂ := .f32) dot_S4096x2048_S2048x8192_S4096x8192_1_0_0_1_n_n none x (transpose S2048x8192 [1, 0] (shapeCast _ (extractStridedSlice S16777216 ![0] (shapeCast _ (Host.dotGeneral (F := Ideal) (φ₁ := .f32) (φ₂ := .f32) dot_S5794x2897_S2897x5794_S5794x5794_1_0_0_1_n_n none v1 (transpose S2897x5794 [1, 0] v2 transposes_S5794x2897_S2897x5794_1_0)) shapeCasts_S5794x5794_S33570436) slices_S33570436_S16777216_0) shapeCasts_S16777216_S8192x2048) transposes_S8192x2048_S2048x8192_1_0)) (broadcastInDim S4096x8192 ![0, 1] bcast_S1x8192_S4096x8192_0_1 (broadcastInDim S1x8192 ![1] bcast_S8192_S1x8192_1 (extractStridedSlice S8192 ![16777216] (shapeCast _ (Host.dotGeneral (F := Ideal) (φ₁ := .f32) (φ₂ := .f32) dot_S5794x2897_S2897x5794_S5794x5794_1_0_0_1_n_n none v1 (transpose S2897x5794 [1, 0] v2 transposes_S5794x2897_S2897x5794_1_0)) shapeCasts_S5794x5794_S33570436) slices_S33570436_S8192_16777216)))) (broadcastInDim S4096x8192 ![] bcast_S_S4096x8192 (constant S_ .f32 0x00000000#32))) (transpose S8192x2048 [1, 0] (shapeCast _ (extractStridedSlice S16777216 ![16785408] (shapeCast _ (Host.dotGeneral (F := Ideal) (φ₁ := .f32) (φ₂ := .f32) dot_S5794x2897_S2897x5794_S5794x5794_1_0_0_1_n_n none v1 (transpose S2897x5794 [1, 0] v2 transposes_S5794x2897_S2897x5794_1_0)) shapeCasts_S5794x5794_S33570436) slices_S33570436_S16777216_16785408) shapeCasts_S16777216_S2048x8192) transposes_S2048x8192_S8192x2048_1_0)) (broadcastInDim S4096x2048 ![0, 1] bcast_S1x2048_S4096x2048_0_1 (broadcastInDim S1x2048 ![1] bcast_S2048_S1x2048_1 (extractStridedSlice S2048 ![33562624] (shapeCast _ (Host.dotGeneral (F := Ideal) (φ₁ := .f32) (φ₂ := .f32) dot_S5794x2897_S2897x5794_S5794x5794_1_0_0_1_n_n none v1 (transpose S2897x5794 [1, 0] v2 transposes_S5794x2897_S2897x5794_1_0)) shapeCasts_S5794x5794_S33570436) slices_S33570436_S2048_33562624)))
    = Cert.Spec.lin (Cert.Spec.linRelu x (W1of (Cert.Spec.mmT v1 v2)) (shapeCast S1x8192 (b1of (Cert.Spec.mmT v1 v2)) h1))
        (W2of (Cert.Spec.mmT v1 v2)) (shapeCast S1x2048 (b2of (Cert.Spec.mmT v1 v2)) h2) := by
  rw [ref_stage0, ref_stage1 _ _ _ h1, ref_stage2 _ _ _ h2]
  rfl

end Cert.RefBridge

end
-- ==== Proof.KI.Bridge.lean ====
/-
  The kernel program's final array, as the specification's function of the three arguments.

  The first call's operands are the two factors padded with zeros and a zero bias row, so its result cut back to
  5794 × 5794 is the plain product V = V1 · V2ᵀ. The host reads V row by row as one long vector and cuts it into the
  two layers' weights and biases; the second call is the rectified linear layer of x with the first pair, the third the
  linear layer of that with the second pair. The cuts are the same slices and reshapes the reference takes, so the final
  array is the reference's right-hand side. Each call's value enters as a hypothesis.
-/
import proofs.«140522_j83038897701629_1_alg».proof.Proof.KI.Regs
import proofs.«140522_j83038897701629_1_alg».proof.Proof.KI.Glue
import proofs.«140522_j83038897701629_1_alg».proof.Proof.PadProduct
import proofs.«140522_j83038897701629_1_alg».proof.Proof.RefBridge
import proofs.«140522_j83038897701629_1_alg».proof.Proof.Spec

noncomputable section

namespace Cert.KernelIdeal.Hand

open Cert.KernelIdeal Cert.KernelIdeal.Gen
open Idealize.ShloMosaic Idealize.ShloMosaic.TcCoe
open Cert.PadProduct

/-! ## Congruences of the specification's layers -/

theorem lin_congr {R K C : ℕ} {A A' : (⟨2, ![R, K]⟩ : Shape).Idx → EReal} {B B' : (⟨2, ![C, K]⟩ : Shape).Idx → EReal}
    {b b' : (⟨2, ![1, C]⟩ : Shape).Idx → EReal} (hA : A = A') (hB : B = B') (hb : b = b') :
    Cert.Spec.lin A B b = Cert.Spec.lin A' B' b' := by
  subst hA hB hb; rfl

theorem linRelu_congr {R K C : ℕ} {A A' : (⟨2, ![R, K]⟩ : Shape).Idx → EReal} {B B' : (⟨2, ![C, K]⟩ : Shape).Idx → EReal}
    {b b' : (⟨2, ![1, C]⟩ : Shape).Idx → EReal} (hA : A = A') (hB : B = B') (hb : b = b') :
    Cert.Spec.linRelu A B b = Cert.Spec.linRelu A' B' b' := by
  subst hA hB hb; rfl

/-! ## The kernel program's cuts of V are the reference's -/

theorem W1ofK_eq (X : Vec Ideal S5794x5794 .f32) : Glue.W1ofK X = Cert.RefBridge.W1of X := rfl
theorem b1ofK_eq (X : Vec Ideal S5794x5794 .f32) : Glue.b1ofK X = Cert.RefBridge.b1of X := rfl
theorem W2ofK_eq (X : Vec Ideal S5794x5794 .f32) : Glue.W2ofK X = Cert.RefBridge.W2of X := rfl
theorem b2ofK_eq (X : Vec Ideal S5794x5794 .f32) : Glue.b2ofK X = Cert.RefBridge.b2of X := rfl

section Run
variable (m : (ℓ : Loc nD τ sig) → Buf (Elt Ideal) ℓ) (c : Dev nD)

/-- The input x as launched. -/
abbrev argX : Vec Ideal S4096x2048 .f32 := m ((c : Thread nD τ).loc main_arg0)
/-- The first factor as launched. -/
abbrev argV1 : Vec Ideal S5794x2897 .f32 := m ((c : Thread nD τ).loc main_arg1)
/-- The second factor as launched. -/
abbrev argV2 : Vec Ideal S5794x2897 .f32 := m ((c : Thread nD τ).loc main_arg2)
/-- The product V = V1 · V2ᵀ. -/
abbrev Vr : (⟨2, ![5794, 5794]⟩ : Shape).Idx → EReal := Cert.Spec.mmT (argV1 m c) (argV2 m c)

/-! ## Each buffer's contents where a call reads it -/

/-- The first call's result is the padded linear layer of the padded factors. -/
theorem Wb_v7
    (hfin0 : ∀ (V : (c : Dev nD) → (b : Ref sig .tc) → Buf (Elt Ideal) ((c : Thread nD τ).loc b)) (c : Dev nD),
      ((dat0 (F := Ideal) V c).arrAt 3 cfg0.N : Vec Ideal S6144x6144 .f32)
        = Cert.Spec.lin (V c main_v2 : Vec Ideal S6144x3072 .f32) (V c main_v4 : Vec Ideal S6144x3072 .f32) (V c main_v6 : Vec Ideal S1x6144 .f32)) :
    (Wb m c (Proc.devRef .tc main_v7) : Vec Ideal S6144x6144 .f32)
      = Cert.Spec.lin (padK (argV1 m c)) (padK (argV2 m c)) (padBias (F := Ideal)) :=
  ((Wb_arr m c 3).trans (hfin0 (Va m) c)).trans
    (lin_congr (Glue.V10_v2 m c) (Glue.V10_v4 m c) (Glue.V10_v6 m c))

/-- Cut back to 5794 × 5794 it is the plain product V. -/
theorem sl_Wb_v7
    (hfin0 : ∀ (V : (c : Dev nD) → (b : Ref sig .tc) → Buf (Elt Ideal) ((c : Thread nD τ).loc b)) (c : Dev nD),
      ((dat0 (F := Ideal) V c).arrAt 3 cfg0.N : Vec Ideal S6144x6144 .f32)
        = Cert.Spec.lin (V c main_v2 : Vec Ideal S6144x3072 .f32) (V c main_v4 : Vec Ideal S6144x3072 .f32) (V c main_v6 : Vec Ideal S1x6144 .f32)) :
    Glue.sl (Wb m c (Proc.devRef .tc main_v7) : Vec Ideal S6144x6144 .f32) = Vr m c :=
  (congrArg Glue.sl (Wb_v7 m c hfin0)).trans (padded_product (argV1 m c) (argV2 m c))

/-- The second call reads x as launched. -/
theorem Vc_arg0 : (Vc m c main_arg0 : Vec Ideal S4096x2048 .f32) = argX m c :=
  (Glue.hostOps1_arg0 (Wb m c)).trans ((Wb_of_ne m c main_arg0 (by decide)).trans (Glue.V10_arg0 m c))

/-- The second call's weights are the first cut of the first call's result. -/
theorem Vc_v11 : (Vc m c main_v11 : Vec Ideal S8192x2048 .f32)
    = Glue.W1ofK (Glue.sl (Wb m c (Proc.devRef .tc main_v7) : Vec Ideal S6144x6144 .f32)) :=
  Glue.hostOps1_v11 (Wb m c)

/-- The second call's bias row is the second cut, as one row. -/
theorem Vc_v16 : (Vc m c main_v16 : Vec Ideal S1x8192 .f32)
    = shapeCast S1x8192 (Glue.b1ofK (Glue.sl (Wb m c (Proc.devRef .tc main_v7) : Vec Ideal S6144x6144 .f32))) shapeCasts_S8192_S1x8192 :=
  Glue.hostOps1_v16 (Wb m c)

/-- The third call's weights are the third cut. -/
theorem Ve_v14 : (Ve m c main_v14 : Vec Ideal S2048x8192 .f32)
    = Glue.W2ofK (Glue.sl (Wb m c (Proc.devRef .tc main_v7) : Vec Ideal S6144x6144 .f32)) :=
  (Glue.hostOps2_v14 (Wd m c)).trans ((Wd_of_ne m c main_v14 (by decide)).trans (Glue.hostOps1_v14 (Wb m c)))

/-- The third call's bias row is the fourth cut, as one row. -/
theorem Ve_v18 : (Ve m c main_v18 : Vec Ideal S1x2048 .f32)
    = shapeCast S1x2048 (Glue.b2ofK (Glue.sl (Wb m c (Proc.devRef .tc main_v7) : Vec Ideal S6144x6144 .f32))) shapeCasts_S2048_S1x2048 :=
  (Glue.hostOps2_v18 (Wd m c)).trans
    (congrArg (fun z : Vec Ideal S2048 .f32 => shapeCast S1x2048 z shapeCasts_S2048_S1x2048)
      ((Wd_of_ne m c main_v15 (by decide)).trans (Glue.hostOps1_v15 (Wb m c))))

/-- The third call's left operand is the second call's result: the rectified linear layer at what that call read. -/
theorem Ve_v17
    (hfin1 : ∀ (V : (c : Dev nD) → (b : Ref sig .tc) → Buf (Elt Ideal) ((c : Thread nD τ).loc b)) (c : Dev nD),
      ((dat1 (F := Ideal) V c).arrAt 3 cfg1.N : Vec Ideal S4096x8192 .bf16)
        = Cert.Spec.linRelu (V c main_arg0 : Vec Ideal S4096x2048 .f32) (V c main_v11 : Vec Ideal S8192x2048 .f32) (V c main_v16 : Vec Ideal S1x8192 .f32)) :
    (Ve m c main_v17 : Vec Ideal S4096x8192 .bf16)
      = Cert.Spec.linRelu (Vc m c main_arg0 : Vec Ideal S4096x2048 .f32) (Vc m c main_v11 : Vec Ideal S8192x2048 .f32) (Vc m c main_v16 : Vec Ideal S1x8192 .f32) :=
  (Glue.hostOps2_v17 (Wd m c)).trans ((Wd_arr m c 3).trans (hfin1 (Vc m) c))

/-! ## The final array -/

/-- The final array is the linear layer of the rectified linear layer of x, the weights and biases cut from
    V = V1 · V2ᵀ as the reference cuts them. -/
theorem result_eq_of
    (hfin0 : ∀ (V : (c : Dev nD) → (b : Ref sig .tc) → Buf (Elt Ideal) ((c : Thread nD τ).loc b)) (c : Dev nD),
      ((dat0 (F := Ideal) V c).arrAt 3 cfg0.N : Vec Ideal S6144x6144 .f32)
        = Cert.Spec.lin (V c main_v2 : Vec Ideal S6144x3072 .f32) (V c main_v4 : Vec Ideal S6144x3072 .f32) (V c main_v6 : Vec Ideal S1x6144 .f32))
    (hfin1 : ∀ (V : (c : Dev nD) → (b : Ref sig .tc) → Buf (Elt Ideal) ((c : Thread nD τ).loc b)) (c : Dev nD),
      ((dat1 (F := Ideal) V c).arrAt 3 cfg1.N : Vec Ideal S4096x8192 .bf16)
        = Cert.Spec.linRelu (V c main_arg0 : Vec Ideal S4096x2048 .f32) (V c main_v11 : Vec Ideal S8192x2048 .f32) (V c main_v16 : Vec Ideal S1x8192 .f32))
    (hfin2 : ∀ (V : (c : Dev nD) → (b : Ref sig .tc) → Buf (Elt Ideal) ((c : Thread nD τ).loc b)) (c : Dev nD),
      ((dat2 (F := Ideal) V c).arrAt 3 cfg2.N : Vec Ideal S4096x2048 .f32)
        = Cert.Spec.lin (V c main_v17 : Vec Ideal S4096x8192 .bf16) (V c main_v14 : Vec Ideal S2048x8192 .f32) (V c main_v18 : Vec Ideal S1x2048 .f32))
    (h1 : Cert.ReferenceIdeal.S8192.ShapeCasts Cert.ReferenceIdeal.S1x8192)
    (h2 : Cert.ReferenceIdeal.S2048.ShapeCasts Cert.ReferenceIdeal.S1x2048) :
    ((dat2 (F := Ideal) (Ve m) c).arrAt 3 cfg2.N : Vec Ideal S4096x2048 .f32)
      = Cert.Spec.lin
          (Cert.Spec.linRelu (argX m c) (Cert.RefBridge.W1of (Vr m c))
            (shapeCast Cert.ReferenceIdeal.S1x8192 (Cert.RefBridge.b1of (Vr m c)) h1))
          (Cert.RefBridge.W2of (Vr m c))
          (shapeCast Cert.ReferenceIdeal.S1x2048 (Cert.RefBridge.b2of (Vr m c)) h2) := by
  have hs := sl_Wb_v7 m c hfin0
  refine (hfin2 (Ve m) c).trans (lin_congr ?_ ?_ ?_)
  · refine (Ve_v17 m c hfin1).trans (linRelu_congr (Vc_arg0 m c) ?_ ?_)
    · exact (Vc_v11 m c).trans ((congrArg Glue.W1ofK hs).trans (W1ofK_eq _))
    · exact (Vc_v16 m c).trans (congrArg (fun z : Vec Ideal S8192 .f32 => shapeCast S1x8192 z shapeCasts_S8192_S1x8192)
        ((congrArg Glue.b1ofK hs).trans (b1ofK_eq _)))
  · exact (Ve_v14 m c).trans ((congrArg Glue.W2ofK hs).trans (W2ofK_eq _))
  · exact (Ve_v18 m c).trans (congrArg (fun z : Vec Ideal S2048 .f32 => shapeCast S1x2048 z shapeCasts_S2048_S1x2048)
        ((congrArg Glue.b2ofK hs).trans (b2ofK_eq _)))

end Run

end Cert.KernelIdeal.Hand

end
-- ==== Proof.lean ====
/-
  Two programs compute a small network whose weights are themselves computed: V = V1 · V2ᵀ (5794 × 5794), read
  row-major as one long vector and cut into W1 (8192 × 2048), b1 (8192), W2 (2048 × 8192) and b2 (2048); then
  out = max(x · W1ᵀ + b1, 0) · W2ᵀ + b2. The reference does this with three whole matrix products. The kernel does each
  product tile by tile: it pads V1 and V2 with zeros up to whole tiles, walks the contracted axis in blocks of 512,
  keeps a running sum per output tile, and adds the bias (and takes the maximum with zero, in the middle layer) when the
  last block has been added.

  On the extended reals the two agree entry by entry, and no finiteness is needed: the padded entries contribute
  0 · 0 = 0, adding the zero bias changes nothing, and a sum over the contracted axis taken block after block is the
  same sum (addition of extended reals is associative and commutative). The slices and reshapes between the layers are
  the same operations in both programs, so once the first product agrees the four cut-outs are the same arrays, and the
  two remaining layers are the same functions of the same arrays.

  The three frame claims: each program runs to the end without a fault and leaves its three arguments as launched,
  since no operation writes them. The kernel program's run is followed item by item (host stretches and the three
  tiled products, each with its running sum carried from grid point to grid point); the word-level program has the same
  text, so the same argument is laid out for it. The idealization rewrote nothing, so there is nothing to preserve.
-/
import proofs.«140522_j83038897701629_1_alg».proof.Defs
import proofs.«140522_j83038897701629_1_alg».proof.Proof.Gen.Kernel
import proofs.«140522_j83038897701629_1_alg».proof.Proof.Gen.KernelIdeal
import proofs.«140522_j83038897701629_1_alg».proof.Proof.Gen.ReferenceIdeal
import proofs.«140522_j83038897701629_1_alg».proof.Proof.Gen.Pre_finite_inputs
import proofs.«140522_j83038897701629_1_alg».proof.Proof.Gen.ReferenceIdeal.Run
import proofs.«140522_j83038897701629_1_alg».proof.Proof.K.Regs
import proofs.«140522_j83038897701629_1_alg».proof.Proof.KI.Regs
import proofs.«140522_j83038897701629_1_alg».proof.Proof.KI.Val0
import proofs.«140522_j83038897701629_1_alg».proof.Proof.KI.Val1
import proofs.«140522_j83038897701629_1_alg».proof.Proof.KI.Val2
import proofs.«140522_j83038897701629_1_alg».proof.Proof.KI.Bridge
import proofs.«140522_j83038897701629_1_alg».proof.Proof.RefBridge

noncomputable section

namespace Cert.Proof

open Idealize.ShloMosaic Idealize.ShloMosaic.TcCoe Idealize.SL.Sem

/-- The word-level kernel program runs to the end and leaves its arguments as launched. -/
theorem frame_k : Cert.frame_Kernel := fun m ρ _ =>
  (θ_run Cert.Kernel.defs _ _).mono (fun _ h c => (h c).2) (Cert.Kernel.Hand.run_val (F := Bits) m ρ)

/-- So does the idealized kernel program. -/
theorem frame_ki : Cert.frame_KernelIdeal := fun m ρ _ =>
  (θ_run Cert.KernelIdeal.defs _ _).mono (fun _ h c => (h c).2) (Cert.KernelIdeal.Hand.run_val (F := Ideal) m ρ)

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result array at the same function of the arguments. -/
theorem algebraic : Cert.algebraic_KernelIdeal_ReferenceIdeal := by
  intro m ρ m' ρ' _ hagree
  refine ⟨fun c => (Cert.KernelIdeal.Hand.dat2 (F := Ideal) (Cert.KernelIdeal.Hand.Ve m) c).arrAt 3 Cert.KernelIdeal.cfg2.N,
    Cert.KernelIdeal.Hand.run_val (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  refine (Cert.RefBridge.ref_result _ _ _ (by decide) (by decide)).trans ?_
  exact (Cert.KernelIdeal.Hand.result_eq_of m c Cert.KernelIdeal.Hand.final0 Cert.KernelIdeal.Hand.final1 Cert.KernelIdeal.Hand.final2 _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
